-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg10 : IVec S1600000 32) (main_arg11 : IVec S1600000 32) (main_v48 : IVec S_ 1) (main_v50 : IVec S1600000 1) : IVec S_ 1 :=
  let main_c_19 : IVec S_ 1 := constantI S_ 1 1#1
  let main_v51 : IVec S_ 1 := (fun x v => Host.reduce IntOp.andi x v reducesTo_S1600000_S_d0 h_S_) main_v50 main_c_19
  let main_v52 : IVec S_ 1 := andi main_v48 main_v51
  let main_c_20 : IVec S_ 32 := constantI S_ 32 50000#32
  let main_v53 : IVec S1600000 32 := broadcastInDim S1600000 ![] bcast_S_S1600000 main_c_20
  let main_v54 : IVec S1600000 1 := cmpi .slt main_arg10 main_v53
  let main_c_21 : IVec S_ 1 := constantI S_ 1 1#1
  let main_v55 : IVec S_ 1 := (fun x v => Host.reduce IntOp.andi x v reducesTo_S1600000_S_d0 h_S_) main_v54 main_c_21
  let main_v56 : IVec S_ 1 := andi main_v52 main_v55
  let main_c_22 : IVec S_ 32 := constantI S_ 32 0#32
  let main_v57 : IVec S1600000 32 := broadcastInDim S1600000 ![] bcast_S_S1600000 main_c_22
  let main_v58 : IVec S1600000 1 := cmpi .sge main_arg11 main_v57
  let main_c_23 : IVec S_ 1 := constantI S_ 1 1#1
  let main_v59 : IVec S_ 1 := (fun x v => Host.reduce IntOp.andi x v reducesTo_S1600000_S_d0 h_S_) main_v58 main_c_23
  let main_v60 : IVec S_ 1 := andi main_v56 main_v59
  let main_c_24 : IVec S_ 32 := constantI S_ 32 50000#32
  let main_v61 : IVec S1600000 32 := broadcastInDim S1600000 ![] bcast_S_S1600000 main_c_24
  let main_v62 : IVec S1600000 1 := cmpi .slt main_arg11 main_v61
  let main_c_25 : IVec S_ 1 := constantI S_ 1 1#1
  let main_v63 : IVec S_ 1 := (fun x v => Host.reduce IntOp.andi x v reducesTo_S1600000_S_d0 h_S_) main_v62 main_c_25
  let main_v64 : IVec S_ 1 := andi main_v60 main_v63
  main_v64

def fn_part2 {F : FTy → Type} [FloatOps F] (main_arg7 : FVec F S64 .f32) (main_arg8 : FVec F S64x64 .f32) (main_arg9 : FVec F S64 .f32) (main_arg10 : IVec S1600000 32) (main_arg11 : IVec S1600000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S1600000 32 := broadcastInDim S1600000 ![] bcast_S_S1600000 main_c_18
  let main_v50 : IVec S1600000 1 := cmpi .sge main_arg10 main_v49
  fn_part3 (F := F) main_arg10 main_arg11 main_v48 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S1600000 32) (main_arg11 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x64 .f32) (main_arg1 : FVec F S1600000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S1600000 32) (main_arg11 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S50000x64 : Shape := ⟨2, ![50000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S64x8 : Shape := ⟨2, ![64, 8]⟩
abbrev S8x64 : Shape := ⟨2, ![8, 64]⟩
abbrev S64x192 : Shape := ⟨2, ![64, 192]⟩
abbrev S192 : Shape := ⟨1, ![192]⟩
abbrev S1x192 : Shape := ⟨2, ![1, 192]⟩
abbrev S1x64 : Shape := ⟨2, ![1, 64]⟩
abbrev S50000x128 : Shape := ⟨2, ![50000, 128]⟩
abbrev S2000x64 : Shape := ⟨2, ![2000, 64]⟩
abbrev S2000x128 : Shape := ⟨2, ![2000, 128]⟩
abbrev S2000x192 : Shape := ⟨2, ![2000, 192]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1600000x8 : Shape := ⟨2, ![1600000, 8]⟩
abbrev S4000x64 : Shape := ⟨2, ![4000, 64]⟩
abbrev S4000x128 : Shape := ⟨2, ![4000, 128]⟩
abbrev S4000x8 : Shape := ⟨2, ![4000, 8]⟩
abbrev S1600000x72 : Shape := ⟨2, ![1600000, 72]⟩
abbrev S50000x72 : Shape := ⟨2, ![50000, 72]⟩
abbrev S50000x8 : Shape := ⟨2, ![50000, 8]⟩
abbrev S50000x8x8 : Shape := ⟨3, ![50000, 8, 8]⟩
abbrev S50000x8x1 : Shape := ⟨3, ![50000, 8, 1]⟩
abbrev S1600000x8x8 : Shape := ⟨3, ![1600000, 8, 8]⟩

abbrev nBuf : Space → Nat
  | .hbm => 84
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S64x8, .f32⟩
  | .hbm, ⟨13, _⟩ => ⟨S8x64, .f32⟩
  | .hbm, ⟨14, _⟩ => ⟨S64x192, .f32⟩
  | .hbm, ⟨15, _⟩ => ⟨S192, .f32⟩
  | .hbm, ⟨16, _⟩ => ⟨S1x192, .f32⟩
  | .hbm, ⟨17, _⟩ => ⟨S1x64, .f32⟩
  | .hbm, ⟨18, _⟩ => ⟨S50000x64, .f32⟩
  | .hbm, ⟨19, _⟩ => ⟨S50000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1, .i32⟩
  | .hbm, ⟨29, _⟩ => ⟨S_, .i32⟩
  | .hbm, ⟨30, _⟩ => ⟨S1600000x1, .i32⟩
  | .hbm, ⟨31, _⟩ => ⟨S1600000x1, .i1⟩
  | .hbm, ⟨32, _⟩ => ⟨S1x1, .i32⟩
  | .hbm, ⟨33, _⟩ => ⟨S1600000x1, .i32⟩
  | .hbm, ⟨34, _⟩ => ⟨S1600000x1, .i1⟩
  | .hbm, ⟨35, _⟩ => ⟨S1600000x1, .i1⟩
  | .hbm, ⟨36, _⟩ => ⟨S_, .i1⟩
  | .hbm, ⟨37, _⟩ => ⟨S1600000, .i1⟩
  | .hbm, ⟨38, _⟩ => ⟨S1600000x128, .f32⟩
  | .hbm, ⟨39, _⟩ => ⟨S1600000x128, .i1⟩
  | .hbm, ⟨40, _⟩ => ⟨S_, .f32⟩
  | .hbm, ⟨41, _⟩ => ⟨S1600000x128, .f32⟩
  | .hbm, ⟨42, _⟩ => ⟨S1600000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1, .i32⟩
  | .hbm, ⟨52, _⟩ => ⟨S_, .i32⟩
  | .hbm, ⟨53, _⟩ => ⟨S1600000x1, .i32⟩
  | .hbm, ⟨54, _⟩ => ⟨S1600000x1, .i1⟩
  | .hbm, ⟨55, _⟩ => ⟨S1x1, .i32⟩
  | .hbm, ⟨56, _⟩ => ⟨S1600000x1, .i32⟩
  | .hbm, ⟨57, _⟩ => ⟨S1600000x1, .i1⟩
  | .hbm, ⟨58, _⟩ => ⟨S1600000x1, .i1⟩
  | .hbm, ⟨59, _⟩ => ⟨S_, .i1⟩
  | .hbm, ⟨60, _⟩ => ⟨S1600000, .i1⟩
  | .hbm, ⟨61, _⟩ => ⟨S1600000x64, .f32⟩
  | .hbm, ⟨62, _⟩ => ⟨S1600000x64, .i1⟩
  | .hbm, ⟨63, _⟩ => ⟨S_, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S1600000x8, .f32⟩
  | .hbm, ⟨69, _⟩ => ⟨S1600000x72, .f32⟩
  | .hbm, ⟨70, _⟩ => ⟨S_, .f32⟩
  | .hbm, ⟨71, _⟩ => ⟨S50000x72, .f32⟩
  | .hbm, ⟨72, _⟩ => ⟨S1600000x1, .i32⟩
  | .hbm, ⟨73, _⟩ => ⟨S50000x72, .f32⟩
  | .hbm, ⟨74, _⟩ => ⟨S50000x64, .f32⟩
  | .hbm, ⟨75, _⟩ => ⟨S50000x8, .f32⟩
  | .hbm, ⟨76, _⟩ => ⟨S50000x8x8, .f32⟩
  | .hbm, ⟨77, _⟩ => ⟨S50000x8x1, .f32⟩
  | .hbm, ⟨78, _⟩ => ⟨S_, .f32⟩
  | .hbm, ⟨79, _⟩ => ⟨S50000x8x1, .f32⟩
  | .hbm, ⟨80, _⟩ => ⟨S50000x8x1, .f32⟩
  | .hbm, ⟨81, _⟩ => ⟨S50000x8x8, .f32⟩
  | .hbm, ⟨82, _⟩ => ⟨S50000x8x8, .f32⟩
  | .hbm, ⟨83, _⟩ => ⟨S1600000x8x8, .f32⟩
  | .local _ .vmem, ⟨0, _⟩ => ⟨S2000x64, .f32⟩
  | .local _ .vmem, ⟨1, _⟩ => ⟨S2000x64, .f32⟩
  | .local _ .vmem, ⟨2, _⟩ => ⟨S64x192, .f32⟩
  | .local _ .vmem, ⟨3, _⟩ => ⟨S1x192, .f32⟩
  | .local _ .vmem, ⟨4, _⟩ => ⟨S2000x64, .f32⟩
  | .local _ .vmem, ⟨5, _⟩ => ⟨S2000x64, .f32⟩
  | .local _ .vmem, ⟨6, _⟩ => ⟨S2000x128, .f32⟩
  | .local _ .vmem, ⟨7, _⟩ => ⟨S2000x128, .f32⟩
  | .local _ .vmem, ⟨8, _⟩ => ⟨S4000x64, .f32⟩
  | .local _ .vmem, ⟨9, _⟩ => ⟨S4000x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S1x64, .f32⟩
  | .local _ .vmem, ⟨16, _⟩ => ⟨S64x8, .f32⟩
  | .local _ .vmem, ⟨17, _⟩ => ⟨S8x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x8, .f32⟩
  | .local _ .vmem, ⟨23, _⟩ => ⟨S4000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v6 : Ref sig .tc := ⟨.hbm, 65, rfl⟩
abbrev main_v7_0 : Ref sig .tc := ⟨.hbm, 66, rfl⟩
abbrev main_v7_1 : Ref sig .tc := ⟨.hbm, 67, rfl⟩
abbrev main_v7_2 : Ref sig .tc := ⟨.hbm, 68, rfl⟩
abbrev main_v8 : Ref sig .tc := ⟨.hbm, 69, rfl⟩
abbrev main_cst_1 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_2 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S64x64_S64x64_S64x64_S64x192_d1 : Shape.Concatenates [S64x64, S64x64, S64x64] S64x192 1
  concatenates_S64_S64_S64_S192_d0 : Shape.Concatenates [S64, S64, S64] S192 0
  shapeCasts_S192_S1x192 : S192.ShapeCasts S1x192
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x128 : S2000x192.Slices ![0, 64] S2000x128
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x64 : S4000x128.Slices ![0, 0] S4000x64
  slices_S4000x128_o0_64_S4000x64 : S4000x128.Slices ![0, 64] S4000x64
  shapeCasts_S4000x64_S4000x64 : S4000x64.ShapeCasts S4000x64
  inb_S64x8_S64x8_0_0 : ∀ a, (![0, 0] : Fin 2 → Nat) a + S64x8.size a ≤ S64x8.size a
  h_S64x8 : 0 < S64x8.numel
  inb_S8x64_S8x64_0_0 : ∀ a, (![0, 0] : Fin 2 → Nat) a + S8x64.size a ≤ S8x64.size a
  h_S8x64 : 0 < S8x64.numel
  inb_S4000x8_S4000x8_0_0 : ∀ a, (![0, 0] : Fin 2 → Nat) a + S4000x8.size a ≤ S4000x8.size a
  h_S4000x8 : 0 < S4000x8.numel
  concatenates_S1600000x64_S1600000x8_S1600000x72_d1 : Shape.Concatenates [S1600000x64, S1600000x8] S1600000x72 1
  bcast_S_S50000x72 : S_.BroadcastsInDim S50000x72 (![] : Fin 0 → Fin S50000x72.rank)
  slices_S50000x72_S50000x64_0_0 : S50000x72.Slices ![0, 0] S50000x64
  slices_S50000x72_S50000x8_0_64 : S50000x72.Slices ![0, 64] S50000x8
  shapeCasts_S50000x64_S50000x8x8 : S50000x64.ShapeCasts S50000x8x8
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x8_0_1_2 : S50000x8x1.BroadcastsInDim S50000x8x8 (![0, 1, 2] : Fin 3 → Fin S50000x8x8.rank)
  shapeCasts_S1600000x64_S1600000x8x8 : S1600000x64.ShapeCasts S1600000x8x8
  dot_S2000x64_S64x192_S2000x192_1_0_0_1_n_n_wf : DotDims.WF S2000x64 S64x192 S2000x192 [1] [0] [0] [1] [] []
  gather_S50000x128_S1600000x1_S1600000x128_1_0_n_n_0_1_1128_wf : GatherDims.WF S50000x128 S1600000x1 S1600000x128 [1] [0] [] [0] [] 1 ![1, 128]
  gather_S50000x64_S1600000x1_S1600000x64_1_0_n_n_0_1_164_wf : GatherDims.WF S50000x64 S1600000x1 S1600000x64 [1] [0] [] [0] [] 1 ![1, 64]
  dot_S4000x64_S64x64_S4000x64_1_0_0_1_n_n_wf : DotDims.WF S4000x64 S64x64 S4000x64 [1] [0] [0] [1] [] []
  dot_S4000x64_S64x8_S4000x8_1_0_0_1_n_n_wf : DotDims.WF S4000x64 S64x8 S4000x8 [1] [0] [0] [1] [] []
  dot_S4000x8_S8x64_S4000x64_1_0_0_1_n_n_wf : DotDims.WF S4000x8 S8x64 S4000x64 [1] [0] [0] [1] [] []
  scatter_S50000x72_S1600000x1_S1600000x72_1_0_0_1_wf : ScatterDims.WF S50000x72 S1600000x1 S1600000x72 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1600000x128.size a
  hwx1_1 : ∀ i : grid1.Coords, EltTy.bits .f32 = 32 ∨ (Rect.block (s := S1600000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x8.size a ≤ S64x8.size a
  hwx1_5 : ∀ i : grid1.Coords, EltTy.bits .f32 = 32 ∨ (Rect.block (s := S64x8) S64x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S1600000x64.size a
  hwx1_7 : ∀ i : grid1.Coords, EltTy.bits .f32 = 32 ∨ (Rect.block (s := S1600000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S1600000x64.size a
  hwx1_8 : ∀ i : grid1.Coords, EltTy.bits .f32 = 32 ∨ (Rect.block (s := S1600000x64) S4000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x8.size a ≤ S1600000x8.size a
  hwx1_9 : ∀ i : grid1.Coords, EltTy.bits .f32 = 32 ∨ (Rect.block (s := S1600000x8) S4000x8.size (cc1_transform_9 i) (hinb1_9 i)).WholeWords (EltTy.packing .f32)

variable [Facts₀]

def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def scatter_S50000x72_S1600000x1_S1600000x72_1_0_0_1 : ScatterDims S50000x72 S1600000x1 S1600000x72 where
  updateWindowDims := [1]
  insertedWindowDims := [0]
  scatterDimsToOperandDims := [0]
  indexVectorDim := 1
  wf := scatter_S50000x72_S1600000x1_S1600000x72_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S64x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_0) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7_1) S4000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v7_2) S4000x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S50000x8x8 : Shape := ⟨3, ![50000, 8, 8]⟩
abbrev S1600000x8x8 : Shape := ⟨3, ![1600000, 8, 8]⟩
abbrev S_ : Shape := ⟨0, ![]⟩
abbrev S1600000x1 : Shape := ⟨2, ![1600000, 1]⟩
abbrev S1600000x8 : Shape := ⟨2, ![1600000, 8]⟩
abbrev S1600000x8x1 : Shape := ⟨3, ![1600000, 8, 1]⟩
abbrev S50000x8x1 : Shape := ⟨3, ![50000, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S50000x8x8, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S50000x8x8, .f32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S50000x8x8, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S1600000x8x8, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x8x8, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x8x8, .f32⟩
  | .hbm, ⟨50, _⟩ => ⟨S1600000x8x8, .f32⟩
  | .hbm, ⟨51, _⟩ => ⟨S_, .f32⟩
  | .hbm, ⟨52, _⟩ => ⟨S1600000x8x8, .f32⟩
  | .hbm, ⟨53, _⟩ => ⟨S1600000x8x8, .f32⟩
  | .hbm, ⟨54, _⟩ => ⟨S1600000x8x8, .f32⟩
  | .hbm, ⟨55, _⟩ => ⟨S_, .f32⟩
  | .hbm, ⟨56, _⟩ => ⟨S1600000x8, .f32⟩
  | .hbm, ⟨57, _⟩ => ⟨S1600000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1600000x8x1, .f32⟩
  | .hbm, ⟨62, _⟩ => ⟨S1600000x8x1, .f32⟩
  | .hbm, ⟨63, _⟩ => ⟨S_, .f32⟩
  | .hbm, ⟨64, _⟩ => ⟨S1600000x8x1, .f32⟩
  | .hbm, ⟨65, _⟩ => ⟨S1600000x8x1, .f32⟩
  | .hbm, ⟨66, _⟩ => ⟨S1600000x8x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x8x8, .f32⟩
  | .hbm, ⟨76, _⟩ => ⟨S1600000x8x8, .f32⟩
  | .hbm, ⟨77, _⟩ => ⟨S1600000x8x8, .f32⟩
  | .hbm, ⟨78, _⟩ => ⟨S_, .f32⟩
  | .hbm, ⟨79, _⟩ => ⟨S50000x8x8, .f32⟩
  | .hbm, ⟨80, _⟩ => ⟨S1600000x1, .i32⟩
  | .hbm, ⟨81, _⟩ => ⟨S50000x8x8, .f32⟩
  | .hbm, ⟨82, _⟩ => ⟨S_, .f32⟩
  | .hbm, ⟨83, _⟩ => ⟨S50000x8x1, .f32⟩
  | .hbm, ⟨84, _⟩ => ⟨S1600000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x8, .f32⟩
  | .hbm, ⟨90, _⟩ => ⟨S50000x8x8, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S50000x8x8 : S50000x64.ShapeCasts S50000x8x8
  bcast_S1x64_S1600000x64_0_1 : S1x64.BroadcastsInDim S1600000x64 (![0, 1] : Fin 2 → Fin S1600000x64.rank)
  shapeCasts_S1600000x64_S1600000x8x8 : S1600000x64.ShapeCasts S1600000x8x8
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x8x8 : S_.BroadcastsInDim S1600000x8x8 (![] : Fin 0 → Fin S1600000x8x8.rank)
  reducesTo_S1600000x8x8_S1600000x8_d2 : S1600000x8x8.ReducesTo [2] S1600000x8
  h_S_ : 0 < S_.numel
  bcast_S1600000x8_S1600000x8x1_0_1 : S1600000x8.BroadcastsInDim S1600000x8x1 (![0, 1] : Fin 2 → Fin S1600000x8x1.rank)
  bcast_S_S1600000x8x1 : S_.BroadcastsInDim S1600000x8x1 (![] : Fin 0 → Fin S1600000x8x1.rank)
  bcast_S1600000x8x1_S1600000x8x8_0_1_2 : S1600000x8x1.BroadcastsInDim S1600000x8x8 (![0, 1, 2] : Fin 3 → Fin S1600000x8x8.rank)
  bcast_S_S50000x8x8 : S_.BroadcastsInDim S50000x8x8 (![] : Fin 0 → Fin S50000x8x8.rank)
  bcast_S_S50000x8x1 : S_.BroadcastsInDim S50000x8x1 (![] : Fin 0 → Fin S50000x8x1.rank)
  bcast_S50000x8x1_S50000x8x8_0_1_2 : S50000x8x1.BroadcastsInDim S50000x8x8 (![0, 1, 2] : Fin 3 → Fin S50000x8x8.rank)
  dot_S50000x64_S64x64_S50000x64_1_0_0_1_n_n_wf : DotDims.WF S50000x64 S64x64 S50000x64 [1] [0] [0] [1] [] []
  dot_S1600000x64_S64x64_S1600000x64_1_0_0_1_n_n_wf : DotDims.WF S1600000x64 S64x64 S1600000x64 [1] [0] [0] [1] [] []
  gather_S50000x8x8_S1600000x1_S1600000x8x8_12_0_n_n_0_1_188_wf : GatherDims.WF S50000x8x8 S1600000x1 S1600000x8x8 [1, 2] [0] [] [0] [] 1 ![1, 8, 8]
  scatter_S50000x8x8_S1600000x1_S1600000x8x8_12_0_0_1_wf : ScatterDims.WF S50000x8x8 S1600000x1 S1600000x8x8 [1, 2] [0] [0] 1
  scatter_S50000x8x1_S1600000x1_S1600000x8x1_12_0_0_1_wf : ScatterDims.WF S50000x8x1 S1600000x1 S1600000x8x1 [1, 2] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S50000x8x8_S1600000x1_S1600000x8x8_12_0_n_n_0_1_188 : GatherDims S50000x8x8 S1600000x1 S1600000x8x8 where
  offsetDims := [1, 2]
  collapsedSliceDims := [0]
  operandBatchingDims := []
  startIndicesBatchingDims := []
  startIndexMap := [0]
  indexVectorDim := 1
  sliceSizes := ![1, 8, 8]
  wf := gather_S50000x8x8_S1600000x1_S1600000x8x8_12_0_n_n_0_1_188_wf
def scatter_S50000x8x8_S1600000x1_S1600000x8x8_12_0_0_1 : ScatterDims S50000x8x8 S1600000x1 S1600000x8x8 where
  updateWindowDims := [1, 2]
  insertedWindowDims := [0]
  scatterDimsToOperandDims := [0]
  indexVectorDim := 1
  wf := scatter_S50000x8x8_S1600000x1_S1600000x8x8_12_0_0_1_wf
def scatter_S50000x8x1_S1600000x1_S1600000x8x1_12_0_0_1 : ScatterDims S50000x8x1 S1600000x1 S1600000x8x1 where
  updateWindowDims := [1, 2]
  insertedWindowDims := [0]
  scatterDimsToOperandDims := [0]
  indexVectorDim := 1
  wf := scatter_S50000x8x1_S1600000x1_S1600000x8x1_12_0_0_1_wf

class Facts : Prop extends Facts₀ where

variable [Facts]
-- ==== Proof.Region0Defs.lean ====
/-
  The node projection (the first of the program's two grid regions), as data. A grid point t owns rows
  2000·t … 2000·t+1999 of the node features: its block of h, the whole 64×192 weight [Wq | Wk | Wv] and the
  whole 1×192 bias are read, out = h_blk · W + b is formed once, and its columns 0…63 go to the Q output's
  block, columns 64…191 to the K|V output's block. Here: each window's block at a point read off the array
  the region finds, what the body leaves in the two output blocks as one stored piece over the body's
  arithmetic, and the region's bookkeeping record built from them. Stated at any float family.
-/
import proofs.«429990_j33088428049200_3_alg».proof.Proof.Gen.KernelIdeal.Launch
import proofs.«429990_j33088428049200_3_alg».proof.Proof.Gen.KernelIdeal.Skeleton
import proofs.«429990_j33088428049200_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the buffer contents of the core when the region is entered: every statement of this module is at such a parameter
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rH : Rect S2000x64 := Rect.unit (s := S2000x64) ![0, 0] S2000x64.size inb_S2000x64_S2000x64_0_0
abbrev rW : Rect S64x192 := Rect.unit (s := S64x192) ![0, 0] S64x192.size inb_S64x192_S64x192_0_0
abbrev rB : Rect S1x192 := Rect.unit (s := S1x192) ![0, 0] S1x192.size inb_S1x192_S1x192_0_0
abbrev rKV : Rect S2000x128 := Rect.unit (s := S2000x128) ![0, 0] S2000x128.size inb_S2000x128_S2000x128_0_0

/-- The Q block after the body: columns 0…63 of h_blk · W + b, stored whole. -/
def out0_3 (x0 : Vec F S2000x64 .f32) (x1 : Vec F S64x192 .f32) (x2 : Vec F S1x192 .f32) : Vec F S2000x64 .f32 :=
  View.canon [⟨rH, k0_pay2 (View.ld x0 rH) (View.ld x1 rW) (View.ld x2 rB)⟩]

/-- The K|V block after the body: columns 64…191 of h_blk · W + b, stored whole. -/
def out0_4 (x0 : Vec F S2000x64 .f32) (x1 : Vec F S64x192 .f32) (x2 : Vec F S1x192 .f32) : Vec F S2000x128 .f32 :=
  View.canon [⟨rKV, k0_pay3 (View.ld x0 rH) (View.ld x1 rW) (View.ld x2 rB)⟩]

/-- The region's record on core c: the arrays as found; after the body at point t each input block in place and
    each output block at its stored piece; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

end Cert.KernelIdeal.Hand

end
-- ==== Proof.Region0Body.lean ====
/-
  The node projection's body, at one grid point. What it finds: each input window's buffer holds that window's
  block of the array the region found (the block of h moves with the point; the weight and the bias have one block,
  brought in at the first point and still in place at every later one). What it does: it reads the three input
  blocks whole, reads each output buffer (the value is not used), and stores columns 0…63 of h_blk · W + b over the
  whole Q buffer and columns 64…191 over the whole K|V buffer; a single whole-block store covers its buffer, so
  each output buffer ends at its stored piece whatever it held. From these, the obligation of the body at every
  point against the region's record.
-/
import proofs.«429990_j33088428049200_3_alg».proof.Proof.Region0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What the body finds in the input buffers -/

/-- The h buffer holds the point's block of h: the block is brought in at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight buffer holds the whole weight at every point: brought in at the first point, its block index never
    moves, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias buffer holds the whole bias at every point, for the same reason. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## One whole-block store covers its buffer -/

/-- The Q buffer's single store is through the whole 2000×64 rectangle: every index lies in it. -/
theorem cover0_3 (p0 : Vec F S2000x64 .f32) (y : S2000x64.Idx) :
    ∃ pc ∈ ([⟨rH, p0⟩] : List (View.Piece (Elt F) S2000x64 .f32)), y ∈ pc.1.set :=
  View.cover_of_tiled [⟨rH, p0⟩] S2000x64.size (by rfl) y

/-- The K|V buffer's single store is through the whole 2000×128 rectangle: every index lies in it. -/
theorem cover0_4 (p0 : Vec F S2000x128 .f32) (y : S2000x128.Idx) :
    ∃ pc ∈ ([⟨rKV, p0⟩] : List (View.Piece (Elt F) S2000x128 .f32)), y ∈ pc.1.set :=
  View.cover_of_tiled [⟨rKV, p0⟩] S2000x128.size (by rfl) y

/-! ## The body's triple -/

set_option maxHeartbeats 1000000 in
/-- The body on whole buffers — the three inputs read x0 (h block), x1 (weight), x2 (bias), the two outputs hold
    anything — runs to the continuation with the inputs as they were, the Q buffer at columns 0…63 and the K|V buffer
    at columns 64…191 of x0 · x1 + x2, each as its one stored piece. The reads of the output buffers before their
    stores change nothing; each store covers its buffer, so what was there before is gone. -/
theorem sound_kernel0 (c : Dev nD) (E : Set ℕ) (i : grid0.Coords)
    (arg1 : Memref sig .tc .vmem S2000x64 .f32) (harg1 : arg1.IsWhole)
    (arg2 : Memref sig .tc .vmem S64x192 .f32) (harg2 : arg2.IsWhole)
    (arg3 : Memref sig .tc .vmem S1x192 .f32) (harg3 : arg3.IsWhole)
    (arg4 : Memref sig .tc .vmem S2000x64 .f32) (harg4 : arg4.IsWhole)
    (arg5 : Memref sig .tc .vmem S2000x128 .f32) (harg5 : arg5.IsWhole)
    (x0 : Vec F S2000x64 .f32) (x1 : Vec F S64x192 .f32) (x2 : Vec F S1x192 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0_node_proj_kernel i arg1 harg1 arg2 harg2 arg3 harg3 arg4 harg4 arg5 harg5) K := by
  simp only [cc0_node_proj_kernel_eq_skeleton]; unfold cc0_node_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point t: the region's invariant, nothing owed, and the five windows' current
    buffers, each at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant, nothing owed, each buffer at what the record says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three input buffers hold their blocks, so the triple applies at those blocks; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's record, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Defs.lean ====
/-
  The edge stage (the second grid region), as data. A grid point t owns edges 4000·t … 4000·t+3999: its blocks
  of e, of the gathered K|V rows and of the gathered Q rows, and the whole We, be, the 64×8 head-sum indicator
  and the 8×64 head-expand indicator are read. The body forms pe = e_blk · We + be, score = ((k·q)·c)·pe with
  c the literal 1/√8, s = exp(clip(score · Msum, −5, 5)) per head, and v · (s · Mexp); score, v·(s·Mexp) and s are
  stored whole into the three output blocks. Here: each window's block at a point, what the body leaves in the
  three output blocks as one stored piece each over the body's arithmetic, and the region's bookkeeping record.
  Stated at any float family.
-/
import proofs.«429990_j33088428049200_3_alg».proof.Proof.Gen.KernelIdeal.Launch
import proofs.«429990_j33088428049200_3_alg».proof.Proof.Gen.KernelIdeal.Skeleton
import proofs.«429990_j33088428049200_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the buffer contents of the core when the region is entered: every statement of this module is at such a parameter
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rE : Rect S4000x64 := Rect.unit (s := S4000x64) ![0, 0] S4000x64.size inb_S4000x64_S4000x64_0_0
abbrev rG : Rect S4000x128 := Rect.unit (s := S4000x128) ![0, 0] S4000x128.size inb_S4000x128_S4000x128_0_0
abbrev rWe : Rect S64x64 := Rect.unit (s := S64x64) ![0, 0] S64x64.size inb_S64x64_S64x64_0_0
abbrev rBe : Rect S1x64 := Rect.unit (s := S1x64) ![0, 0] S1x64.size inb_S1x64_S1x64_0_0
abbrev rMs : Rect S64x8 := Rect.unit (s := S64x8) ![0, 0] S64x8.size inb_S64x8_S64x8_0_0
abbrev rMe : Rect S8x64 := Rect.unit (s := S8x64) ![0, 0] S8x64.size inb_S8x64_S8x64_0_0
abbrev rS : Rect S4000x8 := Rect.unit (s := S4000x8) ![0, 0] S4000x8.size inb_S4000x8_S4000x8_0_0

/-- The score block after the body (the input blocks in window order: e, K|V rows, Q rows, We, be, Msum, Mexp). -/
def out1_7 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x64 .f32 :=
  View.canon [⟨rE, k1_pay2 (View.ld x0 rE) (View.ld x3 rWe) (View.ld x4 rBe) (View.ld x1 rG) (View.ld x2 rE)⟩]

/-- The weighted-value block after the body. -/
def out1_8 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x64 .f32 :=
  View.canon [⟨rE, k1_pay4 (View.ld x0 rE) (View.ld x3 rWe) (View.ld x4 rBe) (View.ld x1 rG) (View.ld x2 rE) (View.ld x5 rMs) (View.ld x6 rMe)⟩]

/-- The per-head weight block after the body. -/
def out1_9 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x8 .f32 :=
  View.canon [⟨rS, k1_pay3 (View.ld x0 rE) (View.ld x3 rWe) (View.ld x4 rBe) (View.ld x1 rG) (View.ld x2 rE) (View.ld x5 rMs)⟩]

/-- The region's record on core c: the arrays as found; after the body at point t each input block in place and
    each output block at its stored piece; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) := by dsimp only [dat1]

end Cert.KernelIdeal.Hand

end
-- ==== Proof.Region1Body.lean ====
/-
  The edge stage's body, proved. Each of the seven read windows holds its block at every grid point, whether the
  pipeline brought it in there or not (e and the two gathered row blocks move with the point; We, be and the two
  head indicators are brought in once and stay). Each of the three written blocks is stored whole, so its one
  stored piece covers it. The body's triple: with the seven read blocks owned at x0 … x6 and the three written
  blocks at any contents, the body returns the read blocks unchanged and the written ones at the score piece, the
  weighted-value piece and the per-head weight piece over x0 … x6. The obligation of the region at a grid point
  follows by reading the triple at the point's blocks.
-/
import proofs.«429990_j33088428049200_3_alg».proof.Proof.Region1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The read windows hold their blocks -/
/-- Window 0 (e's block, brought in at every point): the body leaves it as found, so at every point it reads its block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the gathered K|V rows' block, brought in at every point): the body leaves it as found, so at every point it reads its block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (the gathered Q rows' block, brought in at every point): the body leaves it as found, so at every point it reads its block. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (We, brought in at the first point and left in place): the body leaves it as found, so at every point it reads its block. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (be, brought in at the first point and left in place): the body leaves it as found, so at every point it reads its block. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Window 5 (the head-sum indicator, brought in at the first point and left in place): the body leaves it as found, so at every point it reads its block. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Window 6 (the head-expand indicator, brought in at the first point and left in place): the body leaves it as found, so at every point it reads its block. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## Each written block is stored whole -/

/-- The score block's one stored piece is the whole block. -/
theorem cover1_7 (p : Vec F S4000x64 .f32) (y : S4000x64.Idx) :
    ∃ pc ∈ ([⟨rE, p⟩] : List (View.Piece (Elt F) S4000x64 .f32)), y ∈ pc.1.set :=
  View.cover_of_tiled [⟨rE, p⟩] S4000x64.size (by rfl) y

/-- The weighted-value block's one stored piece is the whole block. -/
theorem cover1_8 (p : Vec F S4000x64 .f32) (y : S4000x64.Idx) :
    ∃ pc ∈ ([⟨rE, p⟩] : List (View.Piece (Elt F) S4000x64 .f32)), y ∈ pc.1.set :=
  View.cover_of_tiled [⟨rE, p⟩] S4000x64.size (by rfl) y

/-- The per-head weight block's one stored piece is the whole block. -/
theorem cover1_9 (p : Vec F S4000x8 .f32) (y : S4000x8.Idx) :
    ∃ pc ∈ ([⟨rS, p⟩] : List (View.Piece (Elt F) S4000x8 .f32)), y ∈ pc.1.set :=
  View.cover_of_tiled [⟨rS, p⟩] S4000x8.size (by rfl) y

/-! ## The body's triple -/

set_option maxHeartbeats 1000000 in
/-- The body on whole blocks: the seven read blocks owned at x0 … x6 (e, K|V rows, Q rows, We, be, head-sum, head-expand)
    and the three written blocks at any contents. It reads the seven, reads and discards each written block just before
    storing it whole, and returns the read blocks unchanged with the score, weighted-value and per-head weight pieces
    over x0 … x6 in the written ones. -/
theorem sound_kernel1 (c : Dev nD) (E : Set ℕ) (i : grid1.Coords)
    (arg1 : Memref sig .tc .vmem S4000x64 .f32) (harg1 : arg1.IsWhole)
    (arg2 : Memref sig .tc .vmem S4000x128 .f32) (harg2 : arg2.IsWhole)
    (arg3 : Memref sig .tc .vmem S4000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S64x8 .f32) (harg6 : arg6.IsWhole)
    (arg7 : Memref sig .tc .vmem S8x64 .f32) (harg7 : arg7.IsWhole)
    (arg8 : Memref sig .tc .vmem S4000x64 .f32) (harg8 : arg8.IsWhole)
    (arg9 : Memref sig .tc .vmem S4000x64 .f32) (harg9 : arg9.IsWhole)
    (arg10 : Memref sig .tc .vmem S4000x8 .f32) (harg10 : arg10.IsWhole)
    (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)
            ∗ owns (c : Thread nD τ) arg9 fullShare (out1_8 x0 x1 x2 x3 x4 x5 x6)
            ∗ owns (c : Thread nD τ) arg10 fullShare (out1_9 x0 x1 x2 x3 x4 x5 x6)) -∗ K ⟨⟩))
      ⊢ wp frame (wpE (defs₀ (F := F)) Variants.none c none) E (cc1_edge_kernel i arg1 harg1 arg2 harg2 arg3 harg3 arg4 harg4 arg5 harg5 arg6 harg6 arg7 harg7 arg8 harg8 arg9 harg9 arg10 harg10) K := by
  simp only [cc1_edge_kernel_eq_skeleton]; unfold cc1_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The region's obligation at a grid point -/

/-- What the body is handed at point t: the region's invariant, the core's debt, and each window's current block
    at what the point finds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it hands back: the same invariant and debt, and each window's current block at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the seven read windows hold their blocks, so the triple applies at those blocks; the
    invariant and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of the whole program. The program is six items in a row: a host stretch, the node projection (a grid of 25
  points), two host stretches (the K|V rows and the Q rows gathered per edge), the edge stage (a grid of 400 points), and
  a closing host stretch. Between two items every unscoped buffer of the core is held at a valuation: the launch
  contents, then what each host stretch computes from the one before, then — after a region — the entry valuation
  with the region's output arrays replaced. Here: what the two regions leave in their output arrays (each array after
  the write-backs of all points of its grid, read off the region's record at its entry valuation; the edge stage's
  entry valuation depends on the node projection's outputs only, so the contents are fixed in two stages); each region
  as a segment between the valuation before it and the one after it (its arrays split out of the unscoped buffers on
  entry and put back on exit: a read-only array is as entered, an output array is at its stored blocks, every other
  buffer is untouched); and the run theorem: every weakly fair execution terminates and the final memory holds EVERY
  unscoped buffer at the last valuation. Stated at any float family.
-/
import proofs.«429990_j33088428049200_3_alg».proof.Proof.Region0Body
import proofs.«429990_j33088428049200_3_alg».proof.Proof.Region1Body
import proofs.«429990_j33088428049200_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The run, given the regions' records -/

/-- An unscoped reference of the core is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, conditionally: for any user algebra, level assignment, launch dues and ghost resources, any rest states
    the launch makes on every core at once and that end owing nothing, any contents the regions leave and any proof
    data — given, per region, a segment record entered from the held valuation before it and left at the one after it —
    every weakly fair execution of the program from memory m with zero counters terminates, and every final memory holds
    EVERY unscoped buffer of every core at the last valuation (the contents after the closing host stretch). -/
theorem run_all {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V4 m outs c) ∗ E 1 c) ⊢ R1.pre c)
    (hpost1 : ∀ c : Dev nD, R1.post c ⊢ iprop(StableHlo.held (c : Thread nD τ) (Pipeline.ucRefs τ sig) (Gen.V5 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = Gen.V6 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      -- the program is the chain of its six items: host stretch, node projection, two host stretches, edge stage, host stretch
      rewrite [main_chain c, Pipeline.Seg.run_eq_chain,
        show (Gen.segs m outs 𝒱₀ L lv E ι pdats R0 R1 c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V6 m outs c))
    (hch := fun c => ⟨.rfl, hpre0 c, hpost0 c, .rfl, hpre1 c, hpost1 c, sep_mono .rfl (hE2 c)⟩)
    (hinit := ?_)
    (QY := fun c s => ∀ b ∈ Pipeline.ucRefs τ sig, s.mem ((c : Thread nD τ).1, b) = Gen.V6 m outs c b)
    (hfin := fun c s' => ?_) (hQ := fun _ h => h)
  · -- the launch: every core's unscoped buffers are held at the launch contents; the rest of what the launch deals
    -- makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state, held beside a final state, says what that state's memory holds at every
    -- unscoped reference
    unfold StableHlo.held
    iintro ⟨Hh, HSI⟩
    imodintro
    iapply (pointsTo_read_all (Pipeline.ucRefs τ sig) (fun b => ((c : Thread nD τ).1, b)) (Gen.V6 m outs c) s')
    isplitl [Hh] <;> iassumption

variable (m : (ℓ : Loc nD τ sig) → Buf (Elt F) ℓ)

/-! ## What the two grid regions leave -/

/-- The buffers as the node projection is entered: the launch contents after the first host stretch. -/
abbrev VE0 : (c : Dev nD) → (b : Ref sig .tc) → Buf (Elt F) ((c : Thread nD τ).loc b) := fun c b => Gen.V1 m c b

/-- The buffers as the node projection leaves them: its arrays at what the write-backs of all 25 points leave
    (an input array as entered, the Q and K|V arrays with every block stored), every other buffer as entered. -/
def X0 (c : Dev nD) : Valuation τ sig (Elt F) :=
  Pipeline.withArrays spec0 c (Gen.V1 m c) fun w => (dat0 (VE0 m) c).arrAt w cfg0.N

/-- First stage: contents that are right for the node projection's two outputs (read at stage 2 only). -/
def outsA : Gen.Outs (F := F) := fun _ r c => X0 m c (Proc.devRef .tc r)

/-- The buffers as the edge stage is entered, over the first stage's contents. -/
abbrev VE1A : (c : Dev nD) → (b : Ref sig .tc) → Buf (Elt F) ((c : Thread nD τ).loc b) := fun c b => Gen.V4 m (outsA m) c b

/-- The buffers as the edge stage leaves them: its arrays at what the write-backs of all 400 points leave. -/
def X1 (c : Dev nD) : Valuation τ sig (Elt F) :=
  Pipeline.withArrays spec1 c (Gen.V4 m (outsA m) c) fun w => (dat1 (VE1A m) c).arrAt w cfg1.N

/-- What the regions leave: at stage 5 the edge stage's exit contents, at every other stage the node projection's. -/
def outsH : Gen.Outs (F := F) := fun J r c =>
  match J with
  | 5 => X1 m c (Proc.devRef .tc r)
  | _ => outsA m J r c

theorem outsA_eq (J : ℕ) (r : Ref sig .tc) (c : Dev nD) : outsA m J r c = X0 m c (Proc.devRef .tc r) := rfl
theorem outsH_two (r : Ref sig .tc) (c : Dev nD) : outsH m 2 r c = outsA m 2 r c := rfl
theorem outsH_five (r : Ref sig .tc) (c : Dev nD) : outsH m 5 r c = X1 m c (Proc.devRef .tc r) := rfl

/-- The final contents agree with the first stage's up to the edge stage's entry: stage 2 is read the same. -/
theorem V2_outsH (c : Dev nD) : Gen.V2 m (outsH m) c = Gen.V2 m (outsA m) c := rfl
theorem V3_outsH (c : Dev nD) : Gen.V3 m (outsH m) c = Gen.V3 m (outsA m) c := rfl
theorem V4_outsH (c : Dev nD) : Gen.V4 m (outsH m) c = Gen.V4 m (outsA m) c := rfl

/-- The buffers as the edge stage is entered. -/
abbrev VE1 : (c : Dev nD) → (b : Ref sig .tc) → Buf (Elt F) ((c : Thread nD τ).loc b) := fun c b => Gen.V4 m (outsH m) c b

theorem VE1_eq : VE1 m = VE1A m := rfl

/-- The Q array after the node projection (window 3): every block stored. -/
theorem outsH_v4_0 (c : Dev nD) : Gen.V2 m (outsH m) c main_v4_0 = (dat0 (fun c b => Gen.V1 m c b) c).arrAt 3 cfg0.N := by
  have h : Gen.V2 m (outsH m) c main_v4_0 = outsH m 2 main_v4_0 c := by
    simp only [Gen.V2, Function.update_of_ne (StableHlo.devRef_ne_of_ne (by decide) : (Proc.devRef .tc main_v4_0 : DevRef τ sig) ≠ Proc.devRef .tc main_v4_1), Function.update_self]
  rw [h, outsH_two, outsA_eq]
  exact Pipeline.withArrays_arr spec0 launch0.win.arr_inj c _ _ 3

/-- The K|V array after the node projection (window 4): every block stored. -/
theorem outsH_v4_1 (c : Dev nD) : Gen.V2 m (outsH m) c main_v4_1 = (dat0 (fun c b => Gen.V1 m c b) c).arrAt 4 cfg0.N := by
  have h : Gen.V2 m (outsH m) c main_v4_1 = outsH m 2 main_v4_1 c := by
    simp only [Gen.V2, Function.update_self]
  rw [h, outsH_two, outsA_eq]
  exact Pipeline.withArrays_arr spec0 launch0.win.arr_inj c _ _ 4

/-- The score array after the edge stage (window 7). -/
theorem outsH_v7_0 (c : Dev nD) : Gen.V5 m (outsH m) c main_v7_0 = (dat1 (fun c b => Gen.V4 m (outsH m) c b) c).arrAt 7 cfg1.N := by
  have h : Gen.V5 m (outsH m) c main_v7_0 = outsH m 5 main_v7_0 c := by
    simp only [Gen.V5, Function.update_of_ne (StableHlo.devRef_ne_of_ne (by decide) : (Proc.devRef .tc main_v7_0 : DevRef τ sig) ≠ Proc.devRef .tc main_v7_1), Function.update_of_ne (StableHlo.devRef_ne_of_ne (by decide) : (Proc.devRef .tc main_v7_0 : DevRef τ sig) ≠ Proc.devRef .tc main_v7_2), Function.update_self]
  rw [h, outsH_five]
  exact Pipeline.withArrays_arr spec1 launch1.win.arr_inj c _ _ 7

/-- The weighted-value array after the edge stage (window 8). -/
theorem outsH_v7_1 (c : Dev nD) : Gen.V5 m (outsH m) c main_v7_1 = (dat1 (fun c b => Gen.V4 m (outsH m) c b) c).arrAt 8 cfg1.N := by
  have h : Gen.V5 m (outsH m) c main_v7_1 = outsH m 5 main_v7_1 c := by
    simp only [Gen.V5, Function.update_of_ne (StableHlo.devRef_ne_of_ne (by decide) : (Proc.devRef .tc main_v7_1 : DevRef τ sig) ≠ Proc.devRef .tc main_v7_2), Function.update_self]
  rw [h, outsH_five]
  exact Pipeline.withArrays_arr spec1 launch1.win.arr_inj c _ _ 8

/-- The per-head weight array after the edge stage (window 9). -/
theorem outsH_v7_2 (c : Dev nD) : Gen.V5 m (outsH m) c main_v7_2 = (dat1 (fun c b => Gen.V4 m (outsH m) c b) c).arrAt 9 cfg1.N := by
  have h : Gen.V5 m (outsH m) c main_v7_2 = outsH m 5 main_v7_2 c := by
    simp only [Gen.V5, Function.update_self]
  rw [h, outsH_five]
  exact Pipeline.withArrays_arr spec1 launch1.win.arr_inj c _ _ 9

/-! ## Each region's exit contents against its entry contents -/

/-- The buffers as the node projection leaves them, read at the core's references. -/
abbrev VX0 : (c : Dev nD) → (b : Ref sig .tc) → Buf (Elt F) ((c : Thread nD τ).loc b) := fun c b => Gen.V2 m (outsH m) c b
/-- The buffers as the edge stage leaves them, read at the core's references. -/
abbrev VX1 : (c : Dev nD) → (b : Ref sig .tc) → Buf (Elt F) ((c : Thread nD τ).loc b) := fun c b => Gen.V5 m (outsH m) c b

/-- A read-only window's array is neither output of the node projection; the other windows are 3 and 4. -/
theorem in0_not_out : ∀ w : Fin 5, (cfg0.win w).isOut = false → Pipeline.arrRef spec0 w ∉ ([main_v4_0, main_v4_1] : List (Ref sig .tc)) := by decide
theorem out0_cases : ∀ w : Fin 5, ¬ (cfg0.win w).isOut = false → w = 3 ∨ w = 4 := by decide
/-- A read-only window's array is no output of the edge stage; the other windows are 7, 8 and 9. -/
theorem in1_not_out : ∀ w : Fin 10, (cfg1.win w).isOut = false → Pipeline.arrRef spec1 w ∉ ([main_v7_0, main_v7_1, main_v7_2] : List (Ref sig .tc)) := by decide
theorem out1_cases : ∀ w : Fin 10, ¬ (cfg1.win w).isOut = false → w = 7 ∨ w = 8 ∨ w = 9 := by decide

/-- Each array of the node projection ends at the exit contents: a read-only array (h, W, b) is never written back
    and no region output, so it is as entered on both sides; the Q and K|V arrays are at their stored blocks. -/
theorem hF0 (c : Dev nD) (w : Fin cfg0.W) : (dat0 (VE0 m) c).arrAt w cfg0.N = VX0 m c (Pipeline.arrRef spec0 w) := by
  by_cases hin : (cfg0.win w).isOut = false
  · exact ((dat0 (VE0 m) c).arrAt_in w hin _).trans ((A_eq0 (VE0 m) c w).trans (Gen.V2_of m (outsH m) c _ (in0_not_out w hin)).symm)
  · rcases out0_cases w hin with rfl | rfl
    · exact (outsH_v4_0 m c).symm
    · exact (outsH_v4_1 m c).symm

/-- Every buffer that is no array of the node projection is as entered. -/
theorem hrest0 (c : Dev nD) : ∀ b, b ∉ Finset.univ.image (Pipeline.arrRef spec0) → VX0 m c b = VE0 m c b := fun b hb =>
  Gen.V2_of m (outsH m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    exact absurd hmem (List.not_mem_nil))

/-- Each array of the edge stage ends at the exit contents: the seven read-only arrays as entered on both sides,
    the score, weighted-value and per-head weight arrays at their stored blocks. -/
theorem hF1 (c : Dev nD) (w : Fin cfg1.W) : (dat1 (VE1 m) c).arrAt w cfg1.N = VX1 m c (Pipeline.arrRef spec1 w) := by
  by_cases hin : (cfg1.win w).isOut = false
  · exact ((dat1 (VE1 m) c).arrAt_in w hin _).trans ((A_eq1 (VE1 m) c w).trans (Gen.V5_of m (outsH m) c _ (in1_not_out w hin)).symm)
  · rcases out1_cases w hin with rfl | rfl | rfl
    · exact (outsH_v7_0 m c).symm
    · exact (outsH_v7_1 m c).symm
    · exact (outsH_v7_2 m c).symm

/-- Every buffer that is no array of the edge stage is as entered. -/
theorem hrest1 (c : Dev nD) : ∀ b, b ∉ Finset.univ.image (Pipeline.arrRef spec1) → VX1 m c b = VE1 m c b := fun b hb =>
  Gen.V5_of m (outsH m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    exact absurd hmem (List.not_mem_nil))

/-! ## The proof data family and the thread states -/

/-- Both regions' records, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev L : GSem nD τ sig → Finset Unit := fun _ => ∅
abbrev lv : GSem nD τ sig → Unit → ℕ := fun _ _ => 0

/-- What rides beside the buffers between any two items: the core's generator register at some state (each region
    takes it into its invariant and gives it back) and the core owing nothing. -/
abbrev E : Fin 3 → Dev nD → sProp 𝕄 := fun _ c =>
  iprop((∃ r, prngReg c r) ∗ ∃ W, owes (c : Thread nD τ) (0 : CellTallies nD τ sig Unit) W)

/-! ## The regions as segments -/

set_option backward.isDefEq.respectTransparency.types false in
/-- THE NODE PROJECTION as a segment: entered with every unscoped buffer at the contents after the first host stretch,
    left with them at the exit contents. Its five arrays are split out of the unscoped buffers on entry and put back at
    their final contents on exit; the generator register goes into the region's invariant and comes back; nothing is
    owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outsH m) c) ∗ E 1 c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE EDGE STAGE as a segment: entered with every unscoped buffer at the contents after the two gather stretches,
    left with them at the exit contents. Its ten arrays are split out of the unscoped buffers on entry and put back at
    their final contents on exit; the generator register goes into the region's invariant and comes back; nothing is
    owed; the kernel has no semaphore of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V4 m (outsH m) c) ∗ E 1 c)
  post c := iprop(StableHlo.held (c : Thread nD τ) (Pipeline.ucRefs τ sig) (Gen.V5 m (outsH m) c) ∗ E 2 c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory m with zero counters and any generator registers, every weakly fair execution of the
    program terminates, and every final memory holds every unscoped buffer of every core at the contents after the
    closing host stretch, over what the two regions leave (outsH): the conditional run at the unit algebra with no
    level, nothing owed at launch, no ghost resource, and the two records above. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V6 m (outsH m) c b) :=
  run_all emb₁ () Variants.none L lv (fun _ _ => rfl) m ρ (outsH m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.KernelIdeal.Hand

end
-- ==== Proof.BitsRegion0Defs.lean ====
/-
  The node projection (the first of the program's two grid regions), as data. A grid point t owns rows
  2000·t … 2000·t+1999 of the node features: its block of h, the whole 64×192 weight [Wq | Wk | Wv] and the
  whole 1×192 bias are read, out = h_blk · W + b is formed once, and its columns 0…63 go to the Q output's
  block, columns 64…191 to the K|V output's block. Here: each window's block at a point read off the array
  the region finds, what the body leaves in the two output blocks as one stored piece over the body's
  arithmetic, and the region's bookkeeping record built from them. Stated at any float family.
-/
import proofs.«429990_j33088428049200_3_alg».proof.Proof.Gen.Kernel.Launch
import proofs.«429990_j33088428049200_3_alg».proof.Proof.Gen.Kernel.Skeleton
import proofs.«429990_j33088428049200_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the buffer contents of the core when the region is entered: every statement of this module is at such a parameter
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rH : Rect S2000x64 := Rect.unit (s := S2000x64) ![0, 0] S2000x64.size inb_S2000x64_S2000x64_0_0
abbrev rW : Rect S64x192 := Rect.unit (s := S64x192) ![0, 0] S64x192.size inb_S64x192_S64x192_0_0
abbrev rB : Rect S1x192 := Rect.unit (s := S1x192) ![0, 0] S1x192.size inb_S1x192_S1x192_0_0
abbrev rKV : Rect S2000x128 := Rect.unit (s := S2000x128) ![0, 0] S2000x128.size inb_S2000x128_S2000x128_0_0

/-- The Q block after the body: columns 0…63 of h_blk · W + b, stored whole. -/
def out0_3 (x0 : Vec F S2000x64 .f32) (x1 : Vec F S64x192 .f32) (x2 : Vec F S1x192 .f32) : Vec F S2000x64 .f32 :=
  View.canon [⟨rH, k0_pay2 (View.ld x0 rH) (View.ld x1 rW) (View.ld x2 rB)⟩]

/-- The K|V block after the body: columns 64…191 of h_blk · W + b, stored whole. -/
def out0_4 (x0 : Vec F S2000x64 .f32) (x1 : Vec F S64x192 .f32) (x2 : Vec F S1x192 .f32) : Vec F S2000x128 .f32 :=
  View.canon [⟨rKV, k0_pay3 (View.ld x0 rH) (View.ld x1 rW) (View.ld x2 rB)⟩]

/-- The region's record on core c: the arrays as found; after the body at point t each input block in place and
    each output block at its stored piece; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

end Cert.Kernel.Hand

end
-- ==== Proof.BitsRegion0Body.lean ====
/-
  The node projection's body, at one grid point. What it finds: each input window's buffer holds that window's
  block of the array the region found (the block of h moves with the point; the weight and the bias have one block,
  brought in at the first point and still in place at every later one). What it does: it reads the three input
  blocks whole, reads each output buffer (the value is not used), and stores columns 0…63 of h_blk · W + b over the
  whole Q buffer and columns 64…191 over the whole K|V buffer; a single whole-block store covers its buffer, so
  each output buffer ends at its stored piece whatever it held. From these, the obligation of the body at every
  point against the region's record.
-/
import proofs.«429990_j33088428049200_3_alg».proof.Proof.BitsRegion0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What the body finds in the input buffers -/

/-- The h buffer holds the point's block of h: the block is brought in at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight buffer holds the whole weight at every point: brought in at the first point, its block index never
    moves, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias buffer holds the whole bias at every point, for the same reason. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## One whole-block store covers its buffer -/

/-- The Q buffer's single store is through the whole 2000×64 rectangle: every index lies in it. -/
theorem cover0_3 (p0 : Vec F S2000x64 .f32) (y : S2000x64.Idx) :
    ∃ pc ∈ ([⟨rH, p0⟩] : List (View.Piece (Elt F) S2000x64 .f32)), y ∈ pc.1.set :=
  View.cover_of_tiled [⟨rH, p0⟩] S2000x64.size (by rfl) y

/-- The K|V buffer's single store is through the whole 2000×128 rectangle: every index lies in it. -/
theorem cover0_4 (p0 : Vec F S2000x128 .f32) (y : S2000x128.Idx) :
    ∃ pc ∈ ([⟨rKV, p0⟩] : List (View.Piece (Elt F) S2000x128 .f32)), y ∈ pc.1.set :=
  View.cover_of_tiled [⟨rKV, p0⟩] S2000x128.size (by rfl) y

/-! ## The body's triple -/

set_option maxHeartbeats 1000000 in
/-- The body on whole buffers — the three inputs read x0 (h block), x1 (weight), x2 (bias), the two outputs hold
    anything — runs to the continuation with the inputs as they were, the Q buffer at columns 0…63 and the K|V buffer
    at columns 64…191 of x0 · x1 + x2, each as its one stored piece. The reads of the output buffers before their
    stores change nothing; each store covers its buffer, so what was there before is gone. -/
theorem sound_kernel0 (c : Dev nD) (E : Set ℕ) (i : grid0.Coords)
    (arg1 : Memref sig .tc .vmem S2000x64 .f32) (harg1 : arg1.IsWhole)
    (arg2 : Memref sig .tc .vmem S64x192 .f32) (harg2 : arg2.IsWhole)
    (arg3 : Memref sig .tc .vmem S1x192 .f32) (harg3 : arg3.IsWhole)
    (arg4 : Memref sig .tc .vmem S2000x64 .f32) (harg4 : arg4.IsWhole)
    (arg5 : Memref sig .tc .vmem S2000x128 .f32) (harg5 : arg5.IsWhole)
    (x0 : Vec F S2000x64 .f32) (x1 : Vec F S64x192 .f32) (x2 : Vec F S1x192 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0_node_proj_kernel i arg1 harg1 arg2 harg2 arg3 harg3 arg4 harg4 arg5 harg5) K := by
  simp only [cc0_node_proj_kernel_eq_skeleton]; unfold cc0_node_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point t: the region's invariant, nothing owed, and the five windows' current
    buffers, each at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant, nothing owed, each buffer at what the record says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three input buffers hold their blocks, so the triple applies at those blocks; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's record, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Defs.lean ====
/-
  The edge stage (the second grid region), as data. A grid point t owns edges 4000·t … 4000·t+3999: its blocks
  of e, of the gathered K|V rows and of the gathered Q rows, and the whole We, be, the 64×8 head-sum indicator
  and the 8×64 head-expand indicator are read. The body forms pe = e_blk · We + be, score = ((k·q)·c)·pe with
  c the literal 1/√8, s = exp(clip(score · Msum, −5, 5)) per head, and v · (s · Mexp); score, v·(s·Mexp) and s are
  stored whole into the three output blocks. Here: each window's block at a point, what the body leaves in the
  three output blocks as one stored piece each over the body's arithmetic, and the region's bookkeeping record.
  Stated at any float family.
-/
import proofs.«429990_j33088428049200_3_alg».proof.Proof.Gen.Kernel.Launch
import proofs.«429990_j33088428049200_3_alg».proof.Proof.Gen.Kernel.Skeleton
import proofs.«429990_j33088428049200_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the buffer contents of the core when the region is entered: every statement of this module is at such a parameter
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rE : Rect S4000x64 := Rect.unit (s := S4000x64) ![0, 0] S4000x64.size inb_S4000x64_S4000x64_0_0
abbrev rG : Rect S4000x128 := Rect.unit (s := S4000x128) ![0, 0] S4000x128.size inb_S4000x128_S4000x128_0_0
abbrev rWe : Rect S64x64 := Rect.unit (s := S64x64) ![0, 0] S64x64.size inb_S64x64_S64x64_0_0
abbrev rBe : Rect S1x64 := Rect.unit (s := S1x64) ![0, 0] S1x64.size inb_S1x64_S1x64_0_0
abbrev rMs : Rect S64x8 := Rect.unit (s := S64x8) ![0, 0] S64x8.size inb_S64x8_S64x8_0_0
abbrev rMe : Rect S8x64 := Rect.unit (s := S8x64) ![0, 0] S8x64.size inb_S8x64_S8x64_0_0
abbrev rS : Rect S4000x8 := Rect.unit (s := S4000x8) ![0, 0] S4000x8.size inb_S4000x8_S4000x8_0_0

/-- The score block after the body (the input blocks in window order: e, K|V rows, Q rows, We, be, Msum, Mexp). -/
def out1_7 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x64 .f32 :=
  View.canon [⟨rE, k1_pay2 (View.ld x0 rE) (View.ld x3 rWe) (View.ld x4 rBe) (View.ld x1 rG) (View.ld x2 rE)⟩]

/-- The weighted-value block after the body. -/
def out1_8 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x64 .f32 :=
  View.canon [⟨rE, k1_pay4 (View.ld x0 rE) (View.ld x3 rWe) (View.ld x4 rBe) (View.ld x1 rG) (View.ld x2 rE) (View.ld x5 rMs) (View.ld x6 rMe)⟩]

/-- The per-head weight block after the body. -/
def out1_9 (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) : Vec F S4000x8 .f32 :=
  View.canon [⟨rS, k1_pay3 (View.ld x0 rE) (View.ld x3 rWe) (View.ld x4 rBe) (View.ld x1 rG) (View.ld x2 rE) (View.ld x5 rMs)⟩]

/-- The region's record on core c: the arrays as found; after the body at point t each input block in place and
    each output block at its stored piece; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) := by dsimp only [dat1]

end Cert.Kernel.Hand

end
-- ==== Proof.BitsRegion1Body.lean ====
/-
  The edge stage's body, proved. Each of the seven read windows holds its block at every grid point, whether the
  pipeline brought it in there or not (e and the two gathered row blocks move with the point; We, be and the two
  head indicators are brought in once and stay). Each of the three written blocks is stored whole, so its one
  stored piece covers it. The body's triple: with the seven read blocks owned at x0 … x6 and the three written
  blocks at any contents, the body returns the read blocks unchanged and the written ones at the score piece, the
  weighted-value piece and the per-head weight piece over x0 … x6. The obligation of the region at a grid point
  follows by reading the triple at the point's blocks.
-/
import proofs.«429990_j33088428049200_3_alg».proof.Proof.BitsRegion1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The read windows hold their blocks -/
/-- Window 0 (e's block, brought in at every point): the body leaves it as found, so at every point it reads its block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the gathered K|V rows' block, brought in at every point): the body leaves it as found, so at every point it reads its block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (the gathered Q rows' block, brought in at every point): the body leaves it as found, so at every point it reads its block. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (We, brought in at the first point and left in place): the body leaves it as found, so at every point it reads its block. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (be, brought in at the first point and left in place): the body leaves it as found, so at every point it reads its block. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Window 5 (the head-sum indicator, brought in at the first point and left in place): the body leaves it as found, so at every point it reads its block. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Window 6 (the head-expand indicator, brought in at the first point and left in place): the body leaves it as found, so at every point it reads its block. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## Each written block is stored whole -/

/-- The score block's one stored piece is the whole block. -/
theorem cover1_7 (p : Vec F S4000x64 .f32) (y : S4000x64.Idx) :
    ∃ pc ∈ ([⟨rE, p⟩] : List (View.Piece (Elt F) S4000x64 .f32)), y ∈ pc.1.set :=
  View.cover_of_tiled [⟨rE, p⟩] S4000x64.size (by rfl) y

/-- The weighted-value block's one stored piece is the whole block. -/
theorem cover1_8 (p : Vec F S4000x64 .f32) (y : S4000x64.Idx) :
    ∃ pc ∈ ([⟨rE, p⟩] : List (View.Piece (Elt F) S4000x64 .f32)), y ∈ pc.1.set :=
  View.cover_of_tiled [⟨rE, p⟩] S4000x64.size (by rfl) y

/-- The per-head weight block's one stored piece is the whole block. -/
theorem cover1_9 (p : Vec F S4000x8 .f32) (y : S4000x8.Idx) :
    ∃ pc ∈ ([⟨rS, p⟩] : List (View.Piece (Elt F) S4000x8 .f32)), y ∈ pc.1.set :=
  View.cover_of_tiled [⟨rS, p⟩] S4000x8.size (by rfl) y

/-! ## The body's triple -/

set_option maxHeartbeats 1000000 in
/-- The body on whole blocks: the seven read blocks owned at x0 … x6 (e, K|V rows, Q rows, We, be, head-sum, head-expand)
    and the three written blocks at any contents. It reads the seven, reads and discards each written block just before
    storing it whole, and returns the read blocks unchanged with the score, weighted-value and per-head weight pieces
    over x0 … x6 in the written ones. -/
theorem sound_kernel1 (c : Dev nD) (E : Set ℕ) (i : grid1.Coords)
    (arg1 : Memref sig .tc .vmem S4000x64 .f32) (harg1 : arg1.IsWhole)
    (arg2 : Memref sig .tc .vmem S4000x128 .f32) (harg2 : arg2.IsWhole)
    (arg3 : Memref sig .tc .vmem S4000x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S64x8 .f32) (harg6 : arg6.IsWhole)
    (arg7 : Memref sig .tc .vmem S8x64 .f32) (harg7 : arg7.IsWhole)
    (arg8 : Memref sig .tc .vmem S4000x64 .f32) (harg8 : arg8.IsWhole)
    (arg9 : Memref sig .tc .vmem S4000x64 .f32) (harg9 : arg9.IsWhole)
    (arg10 : Memref sig .tc .vmem S4000x8 .f32) (harg10 : arg10.IsWhole)
    (x0 : Vec F S4000x64 .f32) (x1 : Vec F S4000x128 .f32) (x2 : Vec F S4000x64 .f32) (x3 : Vec F S64x64 .f32)
    (x4 : Vec F S1x64 .f32) (x5 : Vec F S64x8 .f32) (x6 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)
            ∗ owns (c : Thread nD τ) arg9 fullShare (out1_8 x0 x1 x2 x3 x4 x5 x6)
            ∗ owns (c : Thread nD τ) arg10 fullShare (out1_9 x0 x1 x2 x3 x4 x5 x6)) -∗ K ⟨⟩))
      ⊢ wp frame (wpE (defs₀ (F := F)) Variants.none c none) E (cc1_edge_kernel i arg1 harg1 arg2 harg2 arg3 harg3 arg4 harg4 arg5 harg5 arg6 harg6 arg7 harg7 arg8 harg8 arg9 harg9 arg10 harg10) K := by
  simp only [cc1_edge_kernel_eq_skeleton]; unfold cc1_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The region's obligation at a grid point -/

/-- What the body is handed at point t: the region's invariant, the core's debt, and each window's current block
    at what the point finds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it hands back: the same invariant and debt, and each window's current block at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the seven read windows hold their blocks, so the triple applies at those blocks; the
    invariant and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The run of the whole program. The program is six items in a row: a host stretch, the node projection (a grid of 25
  points), two host stretches (the K|V rows and the Q rows gathered per edge), the edge stage (a grid of 400 points), and
  a closing host stretch. Between two items every unscoped buffer of the core is held at a valuation: the launch
  contents, then what each host stretch computes from the one before, then — after a region — the entry valuation
  with the region's output arrays replaced. Here: what the two regions leave in their output arrays (each array after
  the write-backs of all points of its grid, read off the region's record at its entry valuation; the edge stage's
  entry valuation depends on the node projection's outputs only, so the contents are fixed in two stages); each region
  as a segment between the valuation before it and the one after it (its arrays split out of the unscoped buffers on
  entry and put back on exit: a read-only array is as entered, an output array is at its stored blocks, every other
  buffer is untouched); and the run theorem: every weakly fair execution terminates and the final memory holds EVERY
  unscoped buffer at the last valuation. Stated at any float family.
-/
import proofs.«429990_j33088428049200_3_alg».proof.Proof.BitsRegion0Body
import proofs.«429990_j33088428049200_3_alg».proof.Proof.BitsRegion1Body
import proofs.«429990_j33088428049200_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The run, given the regions' records -/

/-- An unscoped reference of the core is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, conditionally: for any user algebra, level assignment, launch dues and ghost resources, any rest states
    the launch makes on every core at once and that end owing nothing, any contents the regions leave and any proof
    data — given, per region, a segment record entered from the held valuation before it and left at the one after it —
    every weakly fair execution of the program from memory m with zero counters terminates, and every final memory holds
    EVERY unscoped buffer of every core at the last valuation (the contents after the closing host stretch). -/
theorem run_all {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V4 m outs c) ∗ E 1 c) ⊢ R1.pre c)
    (hpost1 : ∀ c : Dev nD, R1.post c ⊢ iprop(StableHlo.held (c : Thread nD τ) (Pipeline.ucRefs τ sig) (Gen.V5 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = Gen.V6 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      -- the program is the chain of its six items: host stretch, node projection, two host stretches, edge stage, host stretch
      rewrite [main_chain c, Pipeline.Seg.run_eq_chain,
        show (Gen.segs m outs 𝒱₀ L lv E ι pdats R0 R1 c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V6 m outs c))
    (hch := fun c => ⟨.rfl, hpre0 c, hpost0 c, .rfl, hpre1 c, hpost1 c, sep_mono .rfl (hE2 c)⟩)
    (hinit := ?_)
    (QY := fun c s => ∀ b ∈ Pipeline.ucRefs τ sig, s.mem ((c : Thread nD τ).1, b) = Gen.V6 m outs c b)
    (hfin := fun c s' => ?_) (hQ := fun _ h => h)
  · -- the launch: every core's unscoped buffers are held at the launch contents; the rest of what the launch deals
    -- makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state, held beside a final state, says what that state's memory holds at every
    -- unscoped reference
    unfold StableHlo.held
    iintro ⟨Hh, HSI⟩
    imodintro
    iapply (pointsTo_read_all (Pipeline.ucRefs τ sig) (fun b => ((c : Thread nD τ).1, b)) (Gen.V6 m outs c) s')
    isplitl [Hh] <;> iassumption

variable (m : (ℓ : Loc nD τ sig) → Buf (Elt F) ℓ)

/-! ## What the two grid regions leave -/

/-- The buffers as the node projection is entered: the launch contents after the first host stretch. -/
abbrev VE0 : (c : Dev nD) → (b : Ref sig .tc) → Buf (Elt F) ((c : Thread nD τ).loc b) := fun c b => Gen.V1 m c b

/-- The buffers as the node projection leaves them: its arrays at what the write-backs of all 25 points leave
    (an input array as entered, the Q and K|V arrays with every block stored), every other buffer as entered. -/
def X0 (c : Dev nD) : Valuation τ sig (Elt F) :=
  Pipeline.withArrays spec0 c (Gen.V1 m c) fun w => (dat0 (VE0 m) c).arrAt w cfg0.N

/-- First stage: contents that are right for the node projection's two outputs (read at stage 2 only). -/
def outsA : Gen.Outs (F := F) := fun _ r c => X0 m c (Proc.devRef .tc r)

/-- The buffers as the edge stage is entered, over the first stage's contents. -/
abbrev VE1A : (c : Dev nD) → (b : Ref sig .tc) → Buf (Elt F) ((c : Thread nD τ).loc b) := fun c b => Gen.V4 m (outsA m) c b

/-- The buffers as the edge stage leaves them: its arrays at what the write-backs of all 400 points leave. -/
def X1 (c : Dev nD) : Valuation τ sig (Elt F) :=
  Pipeline.withArrays spec1 c (Gen.V4 m (outsA m) c) fun w => (dat1 (VE1A m) c).arrAt w cfg1.N

/-- What the regions leave: at stage 5 the edge stage's exit contents, at every other stage the node projection's. -/
def outsH : Gen.Outs (F := F) := fun J r c =>
  match J with
  | 5 => X1 m c (Proc.devRef .tc r)
  | _ => outsA m J r c

theorem outsA_eq (J : ℕ) (r : Ref sig .tc) (c : Dev nD) : outsA m J r c = X0 m c (Proc.devRef .tc r) := rfl
theorem outsH_two (r : Ref sig .tc) (c : Dev nD) : outsH m 2 r c = outsA m 2 r c := rfl
theorem outsH_five (r : Ref sig .tc) (c : Dev nD) : outsH m 5 r c = X1 m c (Proc.devRef .tc r) := rfl

/-- The final contents agree with the first stage's up to the edge stage's entry: stage 2 is read the same. -/
theorem V2_outsH (c : Dev nD) : Gen.V2 m (outsH m) c = Gen.V2 m (outsA m) c := rfl
theorem V3_outsH (c : Dev nD) : Gen.V3 m (outsH m) c = Gen.V3 m (outsA m) c := rfl
theorem V4_outsH (c : Dev nD) : Gen.V4 m (outsH m) c = Gen.V4 m (outsA m) c := rfl

/-- The buffers as the edge stage is entered. -/
abbrev VE1 : (c : Dev nD) → (b : Ref sig .tc) → Buf (Elt F) ((c : Thread nD τ).loc b) := fun c b => Gen.V4 m (outsH m) c b

theorem VE1_eq : VE1 m = VE1A m := rfl

/-- The Q array after the node projection (window 3): every block stored. -/
theorem outsH_v4_0 (c : Dev nD) : Gen.V2 m (outsH m) c main_v4_0 = (dat0 (fun c b => Gen.V1 m c b) c).arrAt 3 cfg0.N := by
  have h : Gen.V2 m (outsH m) c main_v4_0 = outsH m 2 main_v4_0 c := by
    simp only [Gen.V2, Function.update_of_ne (StableHlo.devRef_ne_of_ne (by decide) : (Proc.devRef .tc main_v4_0 : DevRef τ sig) ≠ Proc.devRef .tc main_v4_1), Function.update_self]
  rw [h, outsH_two, outsA_eq]
  exact Pipeline.withArrays_arr spec0 launch0.win.arr_inj c _ _ 3

/-- The K|V array after the node projection (window 4): every block stored. -/
theorem outsH_v4_1 (c : Dev nD) : Gen.V2 m (outsH m) c main_v4_1 = (dat0 (fun c b => Gen.V1 m c b) c).arrAt 4 cfg0.N := by
  have h : Gen.V2 m (outsH m) c main_v4_1 = outsH m 2 main_v4_1 c := by
    simp only [Gen.V2, Function.update_self]
  rw [h, outsH_two, outsA_eq]
  exact Pipeline.withArrays_arr spec0 launch0.win.arr_inj c _ _ 4

/-- The score array after the edge stage (window 7). -/
theorem outsH_v7_0 (c : Dev nD) : Gen.V5 m (outsH m) c main_v7_0 = (dat1 (fun c b => Gen.V4 m (outsH m) c b) c).arrAt 7 cfg1.N := by
  have h : Gen.V5 m (outsH m) c main_v7_0 = outsH m 5 main_v7_0 c := by
    simp only [Gen.V5, Function.update_of_ne (StableHlo.devRef_ne_of_ne (by decide) : (Proc.devRef .tc main_v7_0 : DevRef τ sig) ≠ Proc.devRef .tc main_v7_1), Function.update_of_ne (StableHlo.devRef_ne_of_ne (by decide) : (Proc.devRef .tc main_v7_0 : DevRef τ sig) ≠ Proc.devRef .tc main_v7_2), Function.update_self]
  rw [h, outsH_five]
  exact Pipeline.withArrays_arr spec1 launch1.win.arr_inj c _ _ 7

/-- The weighted-value array after the edge stage (window 8). -/
theorem outsH_v7_1 (c : Dev nD) : Gen.V5 m (outsH m) c main_v7_1 = (dat1 (fun c b => Gen.V4 m (outsH m) c b) c).arrAt 8 cfg1.N := by
  have h : Gen.V5 m (outsH m) c main_v7_1 = outsH m 5 main_v7_1 c := by
    simp only [Gen.V5, Function.update_of_ne (StableHlo.devRef_ne_of_ne (by decide) : (Proc.devRef .tc main_v7_1 : DevRef τ sig) ≠ Proc.devRef .tc main_v7_2), Function.update_self]
  rw [h, outsH_five]
  exact Pipeline.withArrays_arr spec1 launch1.win.arr_inj c _ _ 8

/-- The per-head weight array after the edge stage (window 9). -/
theorem outsH_v7_2 (c : Dev nD) : Gen.V5 m (outsH m) c main_v7_2 = (dat1 (fun c b => Gen.V4 m (outsH m) c b) c).arrAt 9 cfg1.N := by
  have h : Gen.V5 m (outsH m) c main_v7_2 = outsH m 5 main_v7_2 c := by
    simp only [Gen.V5, Function.update_self]
  rw [h, outsH_five]
  exact Pipeline.withArrays_arr spec1 launch1.win.arr_inj c _ _ 9

/-! ## Each region's exit contents against its entry contents -/

/-- The buffers as the node projection leaves them, read at the core's references. -/
abbrev VX0 : (c : Dev nD) → (b : Ref sig .tc) → Buf (Elt F) ((c : Thread nD τ).loc b) := fun c b => Gen.V2 m (outsH m) c b
/-- The buffers as the edge stage leaves them, read at the core's references. -/
abbrev VX1 : (c : Dev nD) → (b : Ref sig .tc) → Buf (Elt F) ((c : Thread nD τ).loc b) := fun c b => Gen.V5 m (outsH m) c b

/-- A read-only window's array is neither output of the node projection; the other windows are 3 and 4. -/
theorem in0_not_out : ∀ w : Fin 5, (cfg0.win w).isOut = false → Pipeline.arrRef spec0 w ∉ ([main_v4_0, main_v4_1] : List (Ref sig .tc)) := by decide
theorem out0_cases : ∀ w : Fin 5, ¬ (cfg0.win w).isOut = false → w = 3 ∨ w = 4 := by decide
/-- A read-only window's array is no output of the edge stage; the other windows are 7, 8 and 9. -/
theorem in1_not_out : ∀ w : Fin 10, (cfg1.win w).isOut = false → Pipeline.arrRef spec1 w ∉ ([main_v7_0, main_v7_1, main_v7_2] : List (Ref sig .tc)) := by decide
theorem out1_cases : ∀ w : Fin 10, ¬ (cfg1.win w).isOut = false → w = 7 ∨ w = 8 ∨ w = 9 := by decide

/-- Each array of the node projection ends at the exit contents: a read-only array (h, W, b) is never written back
    and no region output, so it is as entered on both sides; the Q and K|V arrays are at their stored blocks. -/
theorem hF0 (c : Dev nD) (w : Fin cfg0.W) : (dat0 (VE0 m) c).arrAt w cfg0.N = VX0 m c (Pipeline.arrRef spec0 w) := by
  by_cases hin : (cfg0.win w).isOut = false
  · exact ((dat0 (VE0 m) c).arrAt_in w hin _).trans ((A_eq0 (VE0 m) c w).trans (Gen.V2_of m (outsH m) c _ (in0_not_out w hin)).symm)
  · rcases out0_cases w hin with rfl | rfl
    · exact (outsH_v4_0 m c).symm
    · exact (outsH_v4_1 m c).symm

/-- Every buffer that is no array of the node projection is as entered. -/
theorem hrest0 (c : Dev nD) : ∀ b, b ∉ Finset.univ.image (Pipeline.arrRef spec0) → VX0 m c b = VE0 m c b := fun b hb =>
  Gen.V2_of m (outsH m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    exact absurd hmem (List.not_mem_nil))

/-- Each array of the edge stage ends at the exit contents: the seven read-only arrays as entered on both sides,
    the score, weighted-value and per-head weight arrays at their stored blocks. -/
theorem hF1 (c : Dev nD) (w : Fin cfg1.W) : (dat1 (VE1 m) c).arrAt w cfg1.N = VX1 m c (Pipeline.arrRef spec1 w) := by
  by_cases hin : (cfg1.win w).isOut = false
  · exact ((dat1 (VE1 m) c).arrAt_in w hin _).trans ((A_eq1 (VE1 m) c w).trans (Gen.V5_of m (outsH m) c _ (in1_not_out w hin)).symm)
  · rcases out1_cases w hin with rfl | rfl | rfl
    · exact (outsH_v7_0 m c).symm
    · exact (outsH_v7_1 m c).symm
    · exact (outsH_v7_2 m c).symm

/-- Every buffer that is no array of the edge stage is as entered. -/
theorem hrest1 (c : Dev nD) : ∀ b, b ∉ Finset.univ.image (Pipeline.arrRef spec1) → VX1 m c b = VE1 m c b := fun b hb =>
  Gen.V5_of m (outsH m) c b fun hmem => hb (by
    rcases List.mem_cons.mp hmem with rfl | hmem
    · exact Finset.mem_image.mpr ⟨7, Finset.mem_univ _, rfl⟩
    rcases List.mem_cons.mp hmem with rfl | hmem
    · exact Finset.mem_image.mpr ⟨8, Finset.mem_univ _, rfl⟩
    rcases List.mem_cons.mp hmem with rfl | hmem
    · exact Finset.mem_image.mpr ⟨9, Finset.mem_univ _, rfl⟩
    exact absurd hmem (List.not_mem_nil))

/-! ## The proof data family and the thread states -/

/-- Both regions' records, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev L : GSem nD τ sig → Finset Unit := fun _ => ∅
abbrev lv : GSem nD τ sig → Unit → ℕ := fun _ _ => 0

/-- What rides beside the buffers between any two items: the core's generator register at some state (each region
    takes it into its invariant and gives it back) and the core owing nothing. -/
abbrev E : Fin 3 → Dev nD → sProp 𝕄 := fun _ c =>
  iprop((∃ r, prngReg c r) ∗ ∃ W, owes (c : Thread nD τ) (0 : CellTallies nD τ sig Unit) W)

/-! ## The regions as segments -/

set_option backward.isDefEq.respectTransparency.types false in
/-- THE NODE PROJECTION as a segment: entered with every unscoped buffer at the contents after the first host stretch,
    left with them at the exit contents. Its five arrays are split out of the unscoped buffers on entry and put back at
    their final contents on exit; the generator register goes into the region's invariant and comes back; nothing is
    owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outsH m) c) ∗ E 1 c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE EDGE STAGE as a segment: entered with every unscoped buffer at the contents after the two gather stretches,
    left with them at the exit contents. Its ten arrays are split out of the unscoped buffers on entry and put back at
    their final contents on exit; the generator register goes into the region's invariant and comes back; nothing is
    owed; the kernel has no semaphore of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V4 m (outsH m) c) ∗ E 1 c)
  post c := iprop(StableHlo.held (c : Thread nD τ) (Pipeline.ucRefs τ sig) (Gen.V5 m (outsH m) c) ∗ E 2 c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory m with zero counters and any generator registers, every weakly fair execution of the
    program terminates, and every final memory holds every unscoped buffer of every core at the contents after the
    closing host stretch, over what the two regions leave (outsH): the conditional run at the unit algebra with no
    level, nothing owed at launch, no ghost resource, and the two records above. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V6 m (outsH m) c b) :=
  run_all emb₁ () Variants.none L lv (fun _ _ => rfl) m ρ (outsH m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.Kernel.Hand

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.Spec.lean ====
/-
  What both programs compute, index by index over the extended reals: the multi-head edge attention layer.

  Nodes n < 50000 carry features h[n, ·] (64 wide), edges r < 1600000 carry features e[r, ·] and two endpoint words
  src[r], dst[r]. With lin x W b n j = (∑ k, x[n,k] · W[k,j]) + b[j], the node projections are Q = lin h Wq bq,
  K = lin h Wk bk, Vv = lin h Wv bv, and the edge projection pe = lin e We be. A row of a table is selected by an
  endpoint word read as a signed integer and clamped into the table. The 64 columns are 8 heads of 8 lanes, column
  8·p + d being lane d of head p. Per edge and column, score = ((K[src] · Q[dst]) · c) · pe with c the literal 1/√8;
  per edge and head, weight = exp(clip(∑_d score, −5, 5)); the weighted value is Vv[src] · weight. A node's output is
  the sum of the weighted values of the edges whose dst word is that node, divided by the sum of their weights plus
  the literal 1e-6; the edge output is the score. The sums over a node's edges are written as sums over all edges of
  the term or zero. No finiteness is needed anywhere: only +, · , max, min, exp and one division occur, applied to the
  same operands on both sides.
-/
import Idealize.ShloMosaic.PureOps.Ideal
import Idealize.ShloMosaic.Lib.ValueIdx
import proofs.«429990_j33088428049200_3_alg».proof.Proof.LibGatherRow

noncomputable section

open scoped BigOperators

namespace Cert.Spec

open Idealize.ShloMosaic Idealize.ShloMosaic.ValueIdx Cert.LibGatherRow

abbrev NN : Nat := 50000
abbrev EE : Nat := 1600000
/-- Real-valued matrices and vectors over literal extents, and vectors of 32-bit words. -/
abbrev M2 (a b : Nat) : Type := (⟨2, ![a, b]⟩ : Shape).Idx → EReal
abbrev M1 (a : Nat) : Type := (⟨1, ![a]⟩ : Shape).Idx → EReal
abbrev M3 (a b c : Nat) : Type := (⟨3, ![a, b, c]⟩ : Shape).Idx → EReal
abbrev Wd (a : Nat) : Type := (⟨1, ![a]⟩ : Shape).Idx → BitVec 32

/-- The four literals both programs carry, as the extended reals their patterns denote. -/
def cS : EReal := Ideal.ofBits .f32 0x3EB504F3#32
def lo : EReal := Ideal.ofBits .f32 0xC0A00000#32
def hi : EReal := Ideal.ofBits .f32 0x40A00000#32
def eps : EReal := Ideal.ofBits .f32 0x358637BD#32

/-- Column 8·p + d: lane d of head p. -/
def hd (p d : Fin 8) : Fin 64 := ⟨8 * p.val + d.val, by omega⟩

/-- A linear layer read at row n, column j. -/
def lin {a : Nat} (x : M2 a 64) (W : M2 64 64) (b : M1 64) (n : Fin a) (j : Fin 64) : EReal :=
  (∑ k : Fin 64, x (ix2 n k) * W (ix2 k j)) + b (ix1 j)

/-- The twelve arguments. -/
structure Args where
  h : M2 NN 64
  e : M2 EE 64
  Wq : M2 64 64
  bq : M1 64
  Wk : M2 64 64
  bk : M1 64
  Wv : M2 64 64
  bv : M1 64
  We : M2 64 64
  be : M1 64
  src : Wd EE
  dst : Wd EE

/-- The table row an endpoint word selects. -/
def row (v : BitVec 32) : Fin NN := clampRow NN (by decide) v

variable (A : Args)

def srcRow (r : Fin EE) : Fin NN := row (A.src (ix1 r))
def dstRow (r : Fin EE) : Fin NN := row (A.dst (ix1 r))

def score (r : Fin EE) (j : Fin 64) : EReal :=
  ((lin A.h A.Wk A.bk (srcRow A r) j * lin A.h A.Wq A.bq (dstRow A r) j) * cS) * lin A.e A.We A.be r j

def weight (r : Fin EE) (p : Fin 8) : EReal :=
  Ideal.exp (min hi (max lo (∑ d : Fin 8, score A r (hd p d))))

def wvalue (r : Fin EE) (p d : Fin 8) : EReal :=
  lin A.h A.Wv A.bv (srcRow A r) (hd p d) * weight A r p

/-- The sum of u over the edges whose dst word, read signed, is node n. -/
def intoNode (n : Fin NN) (u : Fin EE → EReal) : EReal :=
  ∑ r : Fin EE, if (A.dst (ix1 r)).toInt = (n.val : Int) then u r else 0

def nodeOut (n : Fin NN) (p d : Fin 8) : EReal :=
  Ideal.div (intoNode A n (fun r => wvalue A r p d)) (intoNode A n (fun r => weight A r p) + eps)

def edgeOut (r : Fin EE) (p d : Fin 8) : EReal := score A r (hd p d)

/-- The two results as arrays. -/
def nodeOutArr : M3 NN 8 8 := fun i => nodeOut A ⟨(i 0).val, (i 0).isLt⟩ ⟨(i 1).val, (i 1).isLt⟩ ⟨(i 2).val, (i 2).isLt⟩
def edgeOutArr : M3 EE 8 8 := fun i => edgeOut A ⟨(i 0).val, (i 0).isLt⟩ ⟨(i 1).val, (i 1).isLt⟩ ⟨(i 2).val, (i 2).isLt⟩

theorem nodeOutArr_apply (n : Fin NN) (p d : Fin 8) : nodeOutArr A (ix3 n p d) = nodeOut A n p d := rfl
theorem edgeOutArr_apply (r : Fin EE) (p d : Fin 8) : edgeOutArr A (ix3 r p d) = edgeOut A r p d := rfl

/-- Both endpoint words of every edge name a node. -/
def InRange : Prop :=
  (∀ r : Fin EE, 0 ≤ (A.src (ix1 r)).toInt ∧ (A.src (ix1 r)).toInt < 50000)
  ∧ (∀ r : Fin EE, 0 ≤ (A.dst (ix1 r)).toInt ∧ (A.dst (ix1 r)).toInt < 50000)

end Cert.Spec

end
-- ==== Proof.HeadSums.lean ====
/-
  The two sums through which the kernel's head indicators act.

  The 64 columns are 8 heads of 8 lanes, column 8·p + d being lane d of head p. Multiplying a row by the 64×8 matrix
  whose (j, p) entry is 1 when column j lies in head p and 0 otherwise sums the row over each head; multiplying a
  vector of 8 head values by the transposed matrix repeats each head's value over its 8 columns. Over the extended
  reals x · 1 = x and x · 0 = 0 hold for every x, infinite ones included, so neither law needs finiteness.
-/
import Mathlib.Algebra.BigOperators.Fin
import Mathlib.Logic.Equiv.Fin.Basic
import Mathlib.Data.EReal.Operations
import proofs.«429990_j33088428049200_3_alg».proof.Proof.Spec

open scoped BigOperators

namespace Cert.HeadSums

open Cert.Spec

/-- The column of lane d of head p is x.2 + 8 · x.1 under the standard pairing of Fin 8 × Fin 8 with Fin 64. -/
theorem pair_eq_hd (p d : Fin 8) : (finProdFinEquiv (p, d) : Fin 64) = hd p d := by
  refine Fin.ext ?_
  rw [finProdFinEquiv_apply_val]
  show d.val + 8 * p.val = 8 * p.val + d.val
  omega

theorem hd_div (p d : Fin 8) : (hd p d).val / 8 = p.val := by
  show (8 * p.val + d.val) / 8 = p.val
  have := d.isLt
  omega

/-- A sum over the 64 columns, head by head. -/
theorem sum_cols (g : Fin 64 → EReal) : ∑ j : Fin 64, g j = ∑ p : Fin 8, ∑ d : Fin 8, g (hd p d) := by
  rw [← Equiv.sum_comp (finProdFinEquiv : Fin 8 × Fin 8 ≃ Fin 64) g, Fintype.sum_prod_type]
  refine Finset.sum_congr rfl fun p _ => Finset.sum_congr rfl fun d _ => ?_
  rw [pair_eq_hd]

/-- Summing a row against the head indicator picks out the head's 8 lanes. -/
theorem sum_head (f : Fin 64 → EReal) (p : Fin 8) :
    ∑ j : Fin 64, f j * (if j.val / 8 = p.val then (1 : EReal) else 0) = ∑ d : Fin 8, f (hd p d) := by
  rw [sum_cols]
  rw [Finset.sum_eq_single p]
  · refine Finset.sum_congr rfl fun d _ => ?_
    rw [if_pos (hd_div p d), mul_one]
  · intro q _ hq
    refine Finset.sum_eq_zero fun d _ => ?_
    rw [if_neg (fun h => hq (Fin.ext ((hd_div q d).symm.trans h))), mul_zero]
  · intro h; exact absurd (Finset.mem_univ p) h

/-- Expanding head values against the transposed indicator repeats each head's value over its columns. -/
theorem sum_expand (s : Fin 8 → EReal) (j : Fin 64) :
    ∑ p : Fin 8, s p * (if j.val / 8 = p.val then (1 : EReal) else 0) = s ⟨j.val / 8, by have := j.isLt; omega⟩ := by
  rw [Finset.sum_eq_single (⟨j.val / 8, by have := j.isLt; omega⟩ : Fin 8)]
  · rw [if_pos rfl, mul_one]
  · intro q _ hq
    rw [if_neg (fun h => hq (Fin.ext h.symm)), mul_zero]
  · intro h; exact absurd (Finset.mem_univ _) h

end Cert.HeadSums
-- ==== Proof.LibNary3.lean ====
/-
  The result of an operation over a LITERAL family of three operand references.

  An operation over a family `xs : Fin n → reference` writes, at its result reference, its function applied to the
  family of the operands' contents `fun k => V (xs k)`. When the family is the literal triple `![x, a, b]`, the
  operand contents are read here at the three references themselves — the family `V x, V a, V b` built by
  `Fin.cons` — so that a rewriting of a straight line of operations can go on through each operand: under the binder
  the reference `![x, a, b] k` is no literal. Stated once for rewriting and once, the result reference un-indexed,
  for simplification; the same pair as the library's lemma for a literal family of four.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- An operation over the literal family `![x, a, b]` writes, at its result reference, its function at the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplification pass fires on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.HostPre.lean ====
/-
  What the host lines before the node projection leave, read at an index. The three projection weights laid side by
  side along the columns make the 64×192 weight [Wq | Wk | Wv]: column j is column j of Wq below 64, column j − 64 of
  Wk below 128, column j − 128 of Wv from there on. The three biases laid end to end make the 192-vector
  [bq | bk | bv], then read as a 1×192 row; the edge bias is read as a 1×64 row. The two literal tables are the
  head indicators: entry (j, p) of the 64×8 table, and entry (p, j) of the 8×64 one, is 1 when column j lies in
  head p (j / 8 = p) and 0 otherwise. Last, which buffers the later host lines and the node projection leave as
  these lines left them.
-/
import proofs.«429990_j33088428049200_3_alg».proof.Proof.Gen.KernelIdeal.Regions
import proofs.«429990_j33088428049200_3_alg».proof.Proof.LibNary3
import Idealize.ShloMosaic.Lib.Pipeline.Value
import Idealize.ShloMosaic.Lib.ValueIdx
import Idealize.ShloMosaic.Lib.IdealHost
import Idealize.ShloMosaic.PureOps.Ideal.Laws

noncomputable section

namespace Cert.KV

open Idealize.ShloMosaic Idealize.ShloMosaic.TcCoe Idealize.ShloMosaic.ValueIdx Idealize.ShloMosaic.StableHlo
open Idealize.SL Idealize.SL.Sem
open Cert.KernelIdeal Cert.KernelIdeal.Gen Cert.LibNary3

variable (m : (ℓ : Loc nD τ sig) → Buf (Elt Ideal) ℓ) (c : Dev nD)

/-- Each line's result at its own buffer, any other buffer as it was; a three-operand line reads its operands at
    their own buffers. -/
local macro "host_results" : tactic =>
  `(tactic| (simp only [after_cons, after_nil]
             repeat (first
               | rw [nary3_result] | rw [nullary_result] | rw [reshape_result]
               | (rw [nullary_result_ne]; rotate_left; decide)
               | (rw [reshape_result_ne]; rotate_left; decide)
               | (rw [nary_result_ne]; rotate_left; decide))))

/-! ## The buffers as terms over the arguments -/

theorem v0_eq : (Gen.V1 m c main_v0 : S64x192.Idx → EReal)
    = concatenate S64x192 1 [⟨S64x64, (m ((c : Thread nD τ).loc main_arg2) : S64x64.Idx → EReal)⟩,
        ⟨S64x64, (m ((c : Thread nD τ).loc main_arg4) : S64x64.Idx → EReal)⟩,
        ⟨S64x64, (m ((c : Thread nD τ).loc main_arg6) : S64x64.Idx → EReal)⟩] concatenates_S64x64_S64x64_S64x64_S64x192_d1 := by
  show StableHlo.after Gen.hostOps0 (fun b => m (c, b)) (Proc.devRef .tc main_v0) = _
  host_results
  rfl

theorem v2_eq : (Gen.V1 m c main_v2 : S1x192.Idx → EReal)
    = shapeCast S1x192 (concatenate S192 0 [⟨S64, (m ((c : Thread nD τ).loc main_arg3) : S64.Idx → EReal)⟩,
        ⟨S64, (m ((c : Thread nD τ).loc main_arg5) : S64.Idx → EReal)⟩,
        ⟨S64, (m ((c : Thread nD τ).loc main_arg7) : S64.Idx → EReal)⟩] concatenates_S64_S64_S64_S192_d0) shapeCasts_S192_S1x192 := by
  show StableHlo.after Gen.hostOps0 (fun b => m (c, b)) (Proc.devRef .tc main_v2) = _
  host_results
  rfl

theorem v3_eq : (Gen.V1 m c main_v3 : S1x64.Idx → EReal)
    = shapeCast S1x64 (m ((c : Thread nD τ).loc main_arg9) : S64.Idx → EReal) shapeCasts_S64_S1x64 := by
  show StableHlo.after Gen.hostOps0 (fun b => m (c, b)) (Proc.devRef .tc main_v3) = _
  host_results
  rfl

theorem cst_eq : (Gen.V1 m c main_cst : S64x8.Idx → EReal)
    = fun i => Ideal.ofBits .f32 (lit0 (S64x8.rowMajor i)) := by
  show StableHlo.after Gen.hostOps0 (fun b => m (c, b)) (Proc.devRef .tc main_cst) = _
  host_results
  rfl

theorem cst0_eq : (Gen.V1 m c main_cst_0 : S8x64.Idx → EReal)
    = fun i => Ideal.ofBits .f32 (lit1 (S8x64.rowMajor i)) := by
  show StableHlo.after Gen.hostOps0 (fun b => m (c, b)) (Proc.devRef .tc main_cst_0) = _
  host_results
  rfl

/-! ## Three pieces side by side, read at an index -/

/-- Three 64-column matrices laid side by side along the columns: column j comes from the piece that holds it. -/
theorem cat3_cols (x0 x1 x2 : S64x64.Idx → EReal) (k : Fin 64) (j : Fin 192) :
    concatenate S64x192 1 [⟨S64x64, x0⟩, ⟨S64x64, x1⟩, ⟨S64x64, x2⟩] concatenates_S64x64_S64x64_S64x64_S64x192_d1 (ix2 k j)
      = if h : j.val < 64 then x0 (ix2 k ⟨j.val, h⟩)
        else if h2 : j.val < 128 then x1 (ix2 k ⟨j.val - 64, by omega⟩)
        else x2 (ix2 k ⟨j.val - 128, by omega⟩) := by
  split_ifs with h h2
  · refine concatenate_apply_piece (t := S64x192) (1 : Fin 2) [⟨S64x64, x0⟩, ⟨S64x64, x1⟩, ⟨S64x64, x2⟩] concatenates_S64x64_S64x64_S64x64_S64x192_d1 (ix2 k j) 0 (by show (0 : ℕ) < 3; omega) S64x64 x0 rfl rfl 0 rfl (ix2 k ⟨j.val, h⟩) ?_ ?_
    · intro b hb
      match b with
      | ⟨0, _⟩ => rfl
      | ⟨1, _⟩ => exact absurd rfl hb
    · show 0 + j.val = j.val; omega
  · refine concatenate_apply_piece (t := S64x192) (1 : Fin 2) [⟨S64x64, x0⟩, ⟨S64x64, x1⟩, ⟨S64x64, x2⟩] concatenates_S64x64_S64x64_S64x64_S64x192_d1 (ix2 k j) 1 (by show (1 : ℕ) < 3; omega) S64x64 x1 rfl rfl 64 rfl (ix2 k ⟨j.val - 64, by omega⟩) ?_ ?_
    · intro b hb
      match b with
      | ⟨0, _⟩ => rfl
      | ⟨1, _⟩ => exact absurd rfl hb
    · show 64 + (j.val - 64) = j.val; omega
  · refine concatenate_apply_piece (t := S64x192) (1 : Fin 2) [⟨S64x64, x0⟩, ⟨S64x64, x1⟩, ⟨S64x64, x2⟩] concatenates_S64x64_S64x64_S64x64_S64x192_d1 (ix2 k j) 2 (by show (2 : ℕ) < 3; omega) S64x64 x2 rfl rfl 128 rfl (ix2 k ⟨j.val - 128, by omega⟩) ?_ ?_
    · intro b hb
      match b with
      | ⟨0, _⟩ => rfl
      | ⟨1, _⟩ => exact absurd rfl hb
    · show 128 + (j.val - 128) = j.val; omega

/-- Three 64-vectors laid end to end: entry j comes from the piece that holds it. -/
theorem cat3_vec (x0 x1 x2 : S64.Idx → EReal) (j : Fin 192) :
    concatenate S192 0 [⟨S64, x0⟩, ⟨S64, x1⟩, ⟨S64, x2⟩] concatenates_S64_S64_S64_S192_d0 (ix1 j)
      = if h : j.val < 64 then x0 (ix1 ⟨j.val, h⟩)
        else if h2 : j.val < 128 then x1 (ix1 ⟨j.val - 64, by omega⟩)
        else x2 (ix1 ⟨j.val - 128, by omega⟩) := by
  split_ifs with h h2
  · refine concatenate_apply_piece (t := S192) (0 : Fin 1) [⟨S64, x0⟩, ⟨S64, x1⟩, ⟨S64, x2⟩] concatenates_S64_S64_S64_S192_d0 (ix1 j) 0 (by show (0 : ℕ) < 3; omega) S64 x0 rfl rfl 0 rfl (ix1 ⟨j.val, h⟩) ?_ ?_
    · intro b hb
      match b with
      | ⟨0, _⟩ => exact absurd rfl hb
    · show 0 + j.val = j.val; omega
  · refine concatenate_apply_piece (t := S192) (0 : Fin 1) [⟨S64, x0⟩, ⟨S64, x1⟩, ⟨S64, x2⟩] concatenates_S64_S64_S64_S192_d0 (ix1 j) 1 (by show (1 : ℕ) < 3; omega) S64 x1 rfl rfl 64 rfl (ix1 ⟨j.val - 64, by omega⟩) ?_ ?_
    · intro b hb
      match b with
      | ⟨0, _⟩ => exact absurd rfl hb
    · show 64 + (j.val - 64) = j.val; omega
  · refine concatenate_apply_piece (t := S192) (0 : Fin 1) [⟨S64, x0⟩, ⟨S64, x1⟩, ⟨S64, x2⟩] concatenates_S64_S64_S64_S192_d0 (ix1 j) 2 (by show (2 : ℕ) < 3; omega) S64 x2 rfl rfl 128 rfl (ix1 ⟨j.val - 128, by omega⟩) ?_ ?_
    · intro b hb
      match b with
      | ⟨0, _⟩ => exact absurd rfl hb
    · show 128 + (j.val - 128) = j.val; omega

/-- A vector read as a one-row matrix: entry (0, j) is entry j. -/
theorem row_of_vec192 (x : S192.Idx → EReal) (j : Fin 192) :
    shapeCast S1x192 x shapeCasts_S192_S1x192 (ix2 (0 : Fin 1) j) = x (ix1 j) := by
  refine shapeCast_apply x _ _ _ ?_
  rw [Shape.rowMajor_val_one, Shape.rowMajor_val_two]
  show j.val = 0 * 192 + j.val
  omega

theorem row_of_vec64 (x : S64.Idx → EReal) (j : Fin 64) :
    shapeCast S1x64 x shapeCasts_S64_S1x64 (ix2 (0 : Fin 1) j) = x (ix1 j) := by
  refine shapeCast_apply x _ _ _ ?_
  rw [Shape.rowMajor_val_one, Shape.rowMajor_val_two]
  show j.val = 0 * 64 + j.val
  omega

/-! ## The weight, the biases -/

/-- The 64×192 weight is [Wq | Wk | Wv]. -/
theorem wqkv_apply (k : Fin 64) (j : Fin 192) :
    (Gen.V1 m c main_v0 : S64x192.Idx → EReal) (ix2 k j)
      = if h : j.val < 64 then (m ((c : Thread nD τ).loc main_arg2) : S64x64.Idx → EReal) (ix2 k ⟨j.val, h⟩)
        else if h2 : j.val < 128 then (m ((c : Thread nD τ).loc main_arg4) : S64x64.Idx → EReal) (ix2 k ⟨j.val - 64, by omega⟩)
        else (m ((c : Thread nD τ).loc main_arg6) : S64x64.Idx → EReal) (ix2 k ⟨j.val - 128, by omega⟩) := by
  rw [v0_eq]
  exact cat3_cols _ _ _ k j

/-- The 1×192 bias row is [bq | bk | bv]. -/
theorem bqkv_apply (j : Fin 192) :
    (Gen.V1 m c main_v2 : S1x192.Idx → EReal) (ix2 (0 : Fin 1) j)
      = if h : j.val < 64 then (m ((c : Thread nD τ).loc main_arg3) : S64.Idx → EReal) (ix1 ⟨j.val, h⟩)
        else if h2 : j.val < 128 then (m ((c : Thread nD τ).loc main_arg5) : S64.Idx → EReal) (ix1 ⟨j.val - 64, by omega⟩)
        else (m ((c : Thread nD τ).loc main_arg7) : S64.Idx → EReal) (ix1 ⟨j.val - 128, by omega⟩) := by
  rw [v2_eq, row_of_vec192]
  exact cat3_vec _ _ _ j

/-- The 1×64 edge bias row is the edge bias. -/
theorem be2_apply (j : Fin 64) :
    (Gen.V1 m c main_v3 : S1x64.Idx → EReal) (ix2 (0 : Fin 1) j)
      = (m ((c : Thread nD τ).loc main_arg9) : S64.Idx → EReal) (ix1 j) := by
  rw [v3_eq, row_of_vec64]

/-! ## The head indicators -/

/-- The 64×8 table's 512 words, row-major: word 8·j + p is the pattern of one when j / 8 = p, of zero otherwise. -/
theorem lit0_spec : ∀ n : Fin 512, lit0 n = if (n.val / 8) / 8 = n.val % 8 then 0x3F800000#32 else 0x00000000#32 := by
  decide +kernel

/-- The 8×64 table's 512 words, row-major: word 64·p + j is the pattern of one when j / 8 = p, of zero otherwise. -/
theorem lit1_spec : ∀ n : Fin 512, lit1 n = if (n.val % 64) / 8 = n.val / 64 then 0x3F800000#32 else 0x00000000#32 := by
  decide +kernel

/-- A word of the 64×8 table at row-major position 8·j + p denotes 1 when j / 8 = p, and 0 otherwise. -/
theorem lit0_at (n : Fin 512) (j p : Nat) (hn : n.val = j * 8 + p) (hj : j < 64) (hp : p < 8) :
    Ideal.ofBits .f32 (lit0 n) = (if j / 8 = p then 1 else 0 : EReal) := by
  have h1 : (j * 8 + p) / 8 = j := by omega
  have h2 : (j * 8 + p) % 8 = p := by omega
  rw [lit0_spec, hn, h1, h2]
  by_cases hc : j / 8 = p
  · rw [if_pos hc, if_pos hc, Ideal.ofBits_one_f32]
  · rw [if_neg hc, if_neg hc, Ideal.ofBits_zero_f32]

/-- A word of the 8×64 table at row-major position 64·p + j denotes 1 when j / 8 = p, and 0 otherwise. -/
theorem lit1_at (n : Fin 512) (p j : Nat) (hn : n.val = p * 64 + j) (hj : j < 64) (hp : p < 8) :
    Ideal.ofBits .f32 (lit1 n) = (if j / 8 = p then 1 else 0 : EReal) := by
  have h1 : (p * 64 + j) % 64 = j := by omega
  have h2 : (p * 64 + j) / 64 = p := by omega
  rw [lit1_spec, hn, h1, h2]
  by_cases hc : j / 8 = p
  · rw [if_pos hc, if_pos hc, Ideal.ofBits_one_f32]
  · rw [if_neg hc, if_neg hc, Ideal.ofBits_zero_f32]

/-- Entry (j, p) of the 64×8 table: 1 when column j lies in head p, else 0. -/
theorem msum_apply (j : Fin 64) (p : Fin 8) :
    (Gen.V1 m c main_cst : S64x8.Idx → EReal) (ix2 j p) = (if j.val / 8 = p.val then 1 else 0 : EReal) := by
  rw [cst_eq]
  exact lit0_at _ j.val p.val (Shape.rowMajor_val_two _) j.isLt p.isLt

/-- Entry (p, j) of the 8×64 table: 1 when column j lies in head p, else 0. -/
theorem mexp_apply (p : Fin 8) (j : Fin 64) :
    (Gen.V1 m c main_cst_0 : S8x64.Idx → EReal) (ix2 p j) = (if j.val / 8 = p.val then 1 else 0 : EReal) := by
  rw [cst0_eq]
  exact lit1_at _ p.val j.val (Shape.rowMajor_val_two _) j.isLt p.isLt

/-! ## What the later lines and the node projection leave alone -/

variable (outs : Gen.Outs (F := Ideal))

/-- A buffer neither gather stretch writes and the node projection does not own holds, when the edge kernel is
    entered, what the first host lines left in it. -/
theorem V4_eq_V1 (r : Ref sig .tc) (h4 : r ∉ hostOps1_1_W) (h3 : r ∉ hostOps1_W)
    (h2 : r ∉ ([main_v4_0, main_v4_1] : List (Ref sig .tc))) : Gen.V4 m outs c r = Gen.V1 m c r :=
  (Gen.V4_of m outs c r h4).trans <| (Gen.V3_of m outs c r h3).trans (Gen.V2_of m outs c r h2)

theorem V4_main_arg0 : Gen.V4 m outs c main_arg0 = Gen.V1 m c main_arg0 := V4_eq_V1 m c outs _ (by decide) (by decide) (by decide)
theorem V4_main_arg1 : Gen.V4 m outs c main_arg1 = Gen.V1 m c main_arg1 := V4_eq_V1 m c outs _ (by decide) (by decide) (by decide)
theorem V4_main_arg8 : Gen.V4 m outs c main_arg8 = Gen.V1 m c main_arg8 := V4_eq_V1 m c outs _ (by decide) (by decide) (by decide)
theorem V4_main_v0 : Gen.V4 m outs c main_v0 = Gen.V1 m c main_v0 := V4_eq_V1 m c outs _ (by decide) (by decide) (by decide)
theorem V4_main_v2 : Gen.V4 m outs c main_v2 = Gen.V1 m c main_v2 := V4_eq_V1 m c outs _ (by decide) (by decide) (by decide)
theorem V4_main_v3 : Gen.V4 m outs c main_v3 = Gen.V1 m c main_v3 := V4_eq_V1 m c outs _ (by decide) (by decide) (by decide)
theorem V4_main_cst : Gen.V4 m outs c main_cst = Gen.V1 m c main_cst := V4_eq_V1 m c outs _ (by decide) (by decide) (by decide)
theorem V4_main_cst_0 : Gen.V4 m outs c main_cst_0 = Gen.V1 m c main_cst_0 := V4_eq_V1 m c outs _ (by decide) (by decide) (by decide)

/-- The first host lines write no argument: h, e and We are as launched. -/
theorem V1_main_arg0 : Gen.V1 m c main_arg0 = m ((c : Thread nD τ).loc main_arg0) := Gen.V1_of m c main_arg0 (by decide)
theorem V1_main_arg1 : Gen.V1 m c main_arg1 = m ((c : Thread nD τ).loc main_arg1) := Gen.V1_of m c main_arg1 (by decide)
theorem V1_main_arg8 : Gen.V1 m c main_arg8 = m ((c : Thread nD τ).loc main_arg8) := Gen.V1_of m c main_arg8 (by decide)

end Cert.KV

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.Region0Value.lean ====
/-
  What the node projection leaves in its two output arrays, index by index, at the ideal values.

  The region's body forms out = h_blk · W + b once per grid point, for the point's 2000 rows of the node
  features h, the whole 64×192 weight W and the whole 1×192 bias b; columns 0…63 of out go to the first output's
  block, columns 64…191 to the second's. Here: one entry of out as a sum over the 64 contracted columns plus the
  bias entry; each input block as rows of its array (row 2000·t + y of h at point t; W and b whole); what point t
  writes back as block t of one function of the three arrays; every row n lies in point n / 2000's block; so each
  output array is that function, entry by entry.
-/
import proofs.«429990_j33088428049200_3_alg».proof.Proof.Region0Defs
import proofs.«429990_j33088428049200_3_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KV.NodeProj

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## One entry of h_blk · W + b -/

/-- Entry (y, q) of the body's product-plus-bias: row y of the block of h against column q of W, plus b at q. -/
theorem proj_apply (x0 : Vec Ideal S2000x64 .f32) (x1 : Vec Ideal S64x192 .f32) (x2 : Vec Ideal S1x192 .f32)
    (y : Fin 2000) (q : Fin 192) :
    k0_pay1 x0 x1 x2 (ix2 y q) = (∑ k : Fin 64, x0 (ix2 y k) * x1 (ix2 k q)) + x2 (ix2 (0 : Fin 1) q) := by
  unfold k0_pay1
  refine (addf_apply _ _ _).trans ?_
  refine congrArg₂ (· + ·) ?_ ?_
  · refine (Cert.LibDot.matmul_plain_apply dot_S2000x64_S64x192_S2000x192_1_0_0_1_n_n rfl rfl rfl rfl rfl rfl none _ _ y q).trans ?_
    refine Finset.sum_congr rfl fun k _ => ?_
    show x0 (ix2 y k) * (shapeCast S64x192 x1 shapeCasts_S64x192_S64x192) (ix2 k q) = _
    rw [shapeCast_self]
  · refine (broadcastTo_1b_ab_apply _ _ y q).trans ?_
    rw [shapeCast_self]

/-- The first output's block keeps columns 0…63 of it. -/
theorem qpay_apply (x0 : Vec Ideal S2000x64 .f32) (x1 : Vec Ideal S64x192 .f32) (x2 : Vec Ideal S1x192 .f32)
    (y : Fin 2000) (j : Fin 64) :
    k0_pay2 x0 x1 x2 (ix2 y j)
      = (∑ k : Fin 64, x0 (ix2 y k) * x1 (ix2 k (⟨j.val, by omega⟩ : Fin 192))) + x2 (ix2 (0 : Fin 1) (⟨j.val, by omega⟩ : Fin 192)) := by
  unfold k0_pay2
  refine (slice2_axis1_apply 0 _ _ y j (⟨j.val, by omega⟩ : Fin 192) (Nat.zero_add _).symm).trans ?_
  exact proj_apply x0 x1 x2 y _

/-- The second output's block keeps columns 64…191 of it. -/
theorem kvpay_apply (x0 : Vec Ideal S2000x64 .f32) (x1 : Vec Ideal S64x192 .f32) (x2 : Vec Ideal S1x192 .f32)
    (y : Fin 2000) (j : Fin 128) :
    k0_pay3 x0 x1 x2 (ix2 y j)
      = (∑ k : Fin 64, x0 (ix2 y k) * x1 (ix2 k (⟨64 + j.val, by omega⟩ : Fin 192))) + x2 (ix2 (0 : Fin 1) (⟨64 + j.val, by omega⟩ : Fin 192)) := by
  unfold k0_pay3
  refine (slice2_axis1_apply 64 _ _ y j (⟨64 + j.val, by omega⟩ : Fin 192) rfl).trans ?_
  exact proj_apply x0 x1 x2 y _

/-! ## The two outputs as functions of the three arrays -/

/-- Row n, column q of h · W + b over the whole arrays. -/
def projAt (h : S50000x64.Idx → EReal) (W : S64x192.Idx → EReal) (b : S1x192.Idx → EReal) (n : Fin 50000) (q : Fin 192) : EReal :=
  (∑ k : Fin 64, h (ix2 n k) * W (ix2 k q)) + b (ix2 (0 : Fin 1) q)

/-- The first output: columns 0…63 of h · W + b. -/
def qFn (h : S50000x64.Idx → EReal) (W : S64x192.Idx → EReal) (b : S1x192.Idx → EReal) : S50000x64.Idx → EReal :=
  fun i => projAt h W b ⟨(i 0).val, idx2_lt0 i⟩ ⟨(i 1).val, by have := idx2_lt1 i; omega⟩

/-- The second output: columns 64…191 of h · W + b. -/
def kvFn (h : S50000x64.Idx → EReal) (W : S64x192.Idx → EReal) (b : S1x192.Idx → EReal) : S50000x128.Idx → EReal :=
  fun i => projAt h W b ⟨(i 0).val, idx2_lt0 i⟩ ⟨64 + (i 1).val, by have := idx2_lt1 i; omega⟩

/-- A block of the first output, over any three blocks that are rows 2000·t … of h, the whole W and the whole b:
    its entry y is the first output's entry at row 2000·t + y, same column. -/
theorem q_block (x0 : Vec Ideal S2000x64 .f32) (x1 : Vec Ideal S64x192 .f32) (x2 : Vec Ideal S1x192 .f32)
    (h : S50000x64.Idx → EReal) (W : S64x192.Idx → EReal) (b : S1x192.Idx → EReal) (t : Nat) (ht : t < 25)
    (e0 : ∀ (y : Fin 2000) (k : Fin 64), x0 (ix2 y k) = h (ix2 (⟨2000 * t + y.val, by omega⟩ : Fin 50000) k))
    (e1 : x1 = W) (e2 : x2 = b)
    (y : S2000x64.Idx) (i : S50000x64.Idx) (hi0 : (i 0).val = 2000 * t + (y 0).val) (hi1 : (i 1).val = (y 1).val) :
    k0_pay2 x0 x1 x2 y = qFn h W b i := by
  subst e1 e2
  obtain ⟨p, q, rfl⟩ : ∃ (p : Fin 2000) (q : Fin 64), y = ix2 p q := ⟨y 0, y 1, eq_ix2 y⟩
  have hi0' : (i 0).val = 2000 * t + p.val := hi0
  have hi1' : (i 1).val = q.val := hi1
  refine (qpay_apply x0 x1 x2 p q).trans ?_
  unfold qFn projAt
  have hp : (⟨(i 0).val, idx2_lt0 i⟩ : Fin 50000) = ⟨2000 * t + p.val, by omega⟩ := Fin.ext hi0'
  have hq : (⟨(i 1).val, by have := idx2_lt1 i; omega⟩ : Fin 192) = ⟨q.val, by omega⟩ := Fin.ext hi1'
  rw [hp, hq]
  simp only [e0]

/-- The same for the second output, 64 columns further along. -/
theorem kv_block (x0 : Vec Ideal S2000x64 .f32) (x1 : Vec Ideal S64x192 .f32) (x2 : Vec Ideal S1x192 .f32)
    (h : S50000x64.Idx → EReal) (W : S64x192.Idx → EReal) (b : S1x192.Idx → EReal) (t : Nat) (ht : t < 25)
    (e0 : ∀ (y : Fin 2000) (k : Fin 64), x0 (ix2 y k) = h (ix2 (⟨2000 * t + y.val, by omega⟩ : Fin 50000) k))
    (e1 : x1 = W) (e2 : x2 = b)
    (y : S2000x128.Idx) (i : S50000x128.Idx) (hi0 : (i 0).val = 2000 * t + (y 0).val) (hi1 : (i 1).val = (y 1).val) :
    k0_pay3 x0 x1 x2 y = kvFn h W b i := by
  subst e1 e2
  obtain ⟨p, q, rfl⟩ : ∃ (p : Fin 2000) (q : Fin 128), y = ix2 p q := ⟨y 0, y 1, eq_ix2 y⟩
  have hi0' : (i 0).val = 2000 * t + p.val := hi0
  have hi1' : (i 1).val = q.val := hi1
  refine (kvpay_apply x0 x1 x2 p q).trans ?_
  unfold kvFn projAt
  have hp : (⟨(i 0).val, idx2_lt0 i⟩ : Fin 50000) = ⟨2000 * t + p.val, by omega⟩ := Fin.ext hi0'
  have hq : (⟨64 + (i 1).val, by have := idx2_lt1 i; omega⟩ : Fin 192) = ⟨64 + q.val, by omega⟩ := Fin.ext (by show 64 + (i 1).val = 64 + q.val; omega)
  rw [hp, hq]
  simp only [e0]

/-! ## Each block as rows of its array -/

variable (V : (c : Dev nD) → (b : Ref sig .tc) → Buf (Elt Ideal) ((c : Thread nD τ).loc b)) (c : Dev nD)

/-- The three arrays the region reads, as it finds them: the node features h, the weight W = [Wq | Wk | Wv], the bias b. -/
abbrev feat : S50000x64.Idx → EReal := V c main_arg0
abbrev wcat : S64x192.Idx → EReal := V c main_v0
abbrev bcat : S1x192.Idx → EReal := V c main_v2

theorem hz : (![0, 0] : Fin 2 → Nat) = fun _ => 0 := funext fun a => by fin_cases a <;> rfl

/-- The block indices over the 25 points: h and the two outputs move down one block of rows per point; W and b stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Point t's block of h is rows 2000·t … 2000·t + 1999 of h. -/
theorem hblk_apply (t : Fin cfg0.N) (y : Fin 2000) (k : Fin 64) (ht : t.val < 25) :
    (iblk0 V c 0 t : Vec Ideal S2000x64 .f32) (ix2 y k)
      = (V c main_arg0 : S50000x64.Idx → EReal) (ix2 (⟨2000 * t.val + y.val, by omega⟩ : Fin 50000) k) := by
  obtain ⟨e0, e1, -⟩ := idx_facts t
  show (V c main_arg0 : S50000x64.Idx → EReal) (((cfg0.win 0).blk t).view.emb (ix2 y k)) = _
  refine congrArg _ (funext fun a => Fin.ext ?_)
  match a with
  | ⟨0, _⟩ => show win0_0.index t (0 : Fin 2) * 2000 + 1 * y.val = 2000 * t.val + y.val; rw [e0]; omega
  | ⟨1, _⟩ => show win0_0.index t (1 : Fin 2) * 64 + 1 * k.val = k.val; rw [e1]; omega

/-- Point t's block of W is W. -/
theorem wblk_eq (t : Fin cfg0.N) : (iblk0 V c 1 t : Vec Ideal S64x192 .f32) = (V c main_v0 : S64x192.Idx → EReal) := by
  obtain ⟨-, -, e0, e1, -⟩ := idx_facts t
  funext y
  show (V c main_v0 : S64x192.Idx → EReal) (((cfg0.win 1).blk t).view.emb y) = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 192 + 1 * (y 1).val = (y 1).val; rw [e1]; omega

/-- Point t's block of b is b. -/
theorem bblk_eq (t : Fin cfg0.N) : (iblk0 V c 2 t : Vec Ideal S1x192 .f32) = (V c main_v2 : S1x192.Idx → EReal) := by
  obtain ⟨-, -, -, -, e0, e1, -⟩ := idx_facts t
  funext y
  show (V c main_v2 : S1x192.Idx → EReal) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 192 + 1 * (y 1).val = (y 1).val; rw [e1]; omega

/-! ## What a point writes back, the cover, the arrays -/

/-- What point t writes back to the first output is block t of `qFn` of the three arrays. -/
theorem flushed3_eq (t : Fin cfg0.N) :
    (dat0 V c).flushed 3 t
      = ((cfg0.win 3).blk t).view.read (Elt Ideal) (qFn (V c main_arg0) (V c main_v0) (V c main_v2)) := by
  have ht : t.val < 25 := lt_of_lt_of_eq t.isLt (N_0 : cfg0.N = 25)
  obtain ⟨-, -, -, -, -, -, e0, e1, -⟩ := idx_facts t
  show (cfg0.win 3).cut (grid0.coords t) ((dat0 V c).after 3 t) = _
  rw [after0_3]
  unfold out0_3
  rw [View.canon_unit_zero hz]
  simp only [View.ld_unit_zero (S := S2000x64) hz, View.ld_unit_zero (S := S64x192) hz, View.ld_unit_zero (S := S1x192) hz]
  funext y
  show k0_pay2 (iblk0 V c 0 t) (iblk0 V c 1 t) (iblk0 V c 2 t) y
    = qFn (V c main_arg0) (V c main_v0) (V c main_v2) (((cfg0.win 3).blk t).view.emb y)
  refine q_block (iblk0 V c 0 t) (iblk0 V c 1 t) (iblk0 V c 2 t) (V c main_arg0) (V c main_v0) (V c main_v2) t.val ht
    (fun p k => hblk_apply V c t p k ht) (wblk_eq V c t) (bblk_eq V c t) y (((cfg0.win 3).blk t).view.emb y) ?_ ?_
  · show win0_3.index t (0 : Fin 2) * 2000 + 1 * (y 0).val = 2000 * t.val + (y 0).val; rw [e0]; omega
  · show win0_3.index t (1 : Fin 2) * 64 + 1 * (y 1).val = (y 1).val; rw [e1]; omega

/-- What point t writes back to the second output is block t of `kvFn` of the three arrays. -/
theorem flushed4_eq (t : Fin cfg0.N) :
    (dat0 V c).flushed 4 t
      = ((cfg0.win 4).blk t).view.read (Elt Ideal) (kvFn (V c main_arg0) (V c main_v0) (V c main_v2)) := by
  have ht : t.val < 25 := lt_of_lt_of_eq t.isLt (N_0 : cfg0.N = 25)
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S2000x64) hz, View.ld_unit_zero (S := S64x192) hz, View.ld_unit_zero (S := S1x192) hz]
  funext y
  show k0_pay3 (iblk0 V c 0 t) (iblk0 V c 1 t) (iblk0 V c 2 t) y
    = kvFn (V c main_arg0) (V c main_v0) (V c main_v2) (((cfg0.win 4).blk t).view.emb y)
  refine kv_block (iblk0 V c 0 t) (iblk0 V c 1 t) (iblk0 V c 2 t) (V c main_arg0) (V c main_v0) (V c main_v2) t.val ht
    (fun p k => hblk_apply V c t p k ht) (wblk_eq V c t) (bblk_eq V c t) y (((cfg0.win 4).blk t).view.emb y) ?_ ?_
  · show win0_4.index t (0 : Fin 2) * 2000 + 1 * (y 0).val = 2000 * t.val + (y 0).val; rw [e0]; omega
  · show win0_4.index t (1 : Fin 2) * 128 + 1 * (y 1).val = (y 1).val; rw [e1]; omega

/-- An index of the first output is in point t's block iff each coordinate is in the block's range on its axis. -/
theorem mem_blk3 (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v4_0).slice (win0_3.rect t)).set ↔ _
  rw [View.set_slice_whole, Rect.mem_set_unit]
  exact Iff.rfl

/-- The same for the second output. -/
theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v4_1).slice (win0_4.rect t)).set ↔ _
  rw [View.set_slice_whole, Rect.mem_set_unit]
  exact Iff.rfl

/-- Row n of the first output lies in the block of point n / 2000. -/
theorem cover3 (i : S50000x64.Idx) : ∃ t : Fin cfg0.N, (cfg0.win 3).flush t = true ∧ i ∈ ((cfg0.win 3).blk t).view.set := by
  have h0 : (i 0).val < 50000 := idx2_lt0 i
  have h1 : (i 1).val < 64 := idx2_lt1 i
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; rw [e0]; omega
  | ⟨1, _⟩ => show win0_3.index t (1 : Fin 2) * 64 ≤ (i 1).val ∧ (i 1).val < win0_3.index t (1 : Fin 2) * 64 + 64; rw [e1]; omega

/-- Row n of the second output lies in the block of point n / 2000. -/
theorem cover4 (i : S50000x128.Idx) : ∃ t : Fin cfg0.N, (cfg0.win 4).flush t = true ∧ i ∈ ((cfg0.win 4).blk t).view.set := by
  have h0 : (i 0).val < 50000 := idx2_lt0 i
  have h1 : (i 1).val < 128 := idx2_lt1 i
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; rw [e0]; omega
  | ⟨1, _⟩ => show win0_4.index t (1 : Fin 2) * 128 ≤ (i 1).val ∧ (i 1).val < win0_4.index t (1 : Fin 2) * 128 + 128; rw [e1]; omega

/-- The first output after the region is `qFn` of the three arrays. -/
theorem qArr_eq : (dat0 V c).arrAt 3 cfg0.N = qFn (V c main_arg0) (V c main_v0) (V c main_v2) :=
  (dat0 V c).arrAt_eq_of_cover 3 (qFn (V c main_arg0) (V c main_v0) (V c main_v2)) (fun t _ => flushed3_eq V c t) cover3

/-- The second output after the region is `kvFn` of the three arrays. -/
theorem kvArr_eq : (dat0 V c).arrAt 4 cfg0.N = kvFn (V c main_arg0) (V c main_v0) (V c main_v2) :=
  (dat0 V c).arrAt_eq_of_cover 4 (kvFn (V c main_arg0) (V c main_v0) (V c main_v2)) (fun t _ => flushed4_eq V c t) cover4

end Cert.KV.NodeProj

namespace Cert.KV

open Idealize.ShloMosaic Idealize.ShloMosaic.TcCoe Idealize.ShloMosaic.ValueIdx Idealize.SL.Sem
open Cert.KernelIdeal Cert.KernelIdeal.Gen Cert.KernelIdeal.Hand Cert.KV.NodeProj

variable (V : (c : Dev nD) → (b : Ref sig .tc) → Buf (Elt Ideal) ((c : Thread nD τ).loc b)) (c : Dev nD)

/-- THE FIRST OUTPUT, entry (n, j): row n of h against column j of W, plus b at j. -/
theorem qArr_apply (n : Fin 50000) (j : Fin 64) :
    ((dat0 V c).arrAt 3 cfg0.N : S50000x64.Idx → EReal) (ix2 n j)
      = (∑ k : Fin 64, feat V c (ix2 n k) * wcat V c (ix2 k (⟨j.val, by omega⟩ : Fin 192)))
        + bcat V c (ix2 (0 : Fin 1) (⟨j.val, by omega⟩ : Fin 192)) := by
  rw [qArr_eq]
  rfl

/-- THE SECOND OUTPUT, entry (n, j): row n of h against column 64 + j of W, plus b at 64 + j. -/
theorem kvArr_apply (n : Fin 50000) (j : Fin 128) :
    ((dat0 V c).arrAt 4 cfg0.N : S50000x128.Idx → EReal) (ix2 n j)
      = (∑ k : Fin 64, feat V c (ix2 n k) * wcat V c (ix2 k (⟨64 + j.val, by omega⟩ : Fin 192)))
        + bcat V c (ix2 (0 : Fin 1) (⟨64 + j.val, by omega⟩ : Fin 192)) := by
  rw [kvArr_eq]
  rfl

end Cert.KV

end
-- ==== Proof.Region1Block.lean ====
/-
  The edge stage's arithmetic on one block of 4000 edges, read entry by entry over the extended reals.

  With e the block of edge features, g the block of gathered K|V rows (columns 0…63 the K row, 64…127 the V row),
  q the block of gathered Q rows, We, be the edge projection, Msum the 64×8 head-sum indicator and Mexp the 8×64
  head-expand indicator: the score entry (a, j) is ((g[a,j] · q[a,j]) · c) · ((∑ k, e[a,k] · We[k,j]) + be[0,j]);
  the weight entry (a, p) is exp(min(hi, max(lo, ∑ j, score[a,j] · Msum[j,p]))); the weighted-value entry (a, j) is
  g[a,64+j] · (∑ p, weight[a,p] · Mexp[p,j]). The three matrix products accumulate into zero and read as plain sums;
  the narrowing conversions are the identity on the extended reals.
-/
import proofs.«429990_j33088428049200_3_alg».proof.Proof.Gen.KernelIdeal.Skeleton
import proofs.«429990_j33088428049200_3_alg».proof.Proof.LibDot
import proofs.«429990_j33088428049200_3_alg».proof.Proof.Spec
import Idealize.ShloMosaic.Lib.Pipeline.Value
import Idealize.ShloMosaic.Lib.ValueIdx

noncomputable section

open scoped BigOperators

namespace Cert.KV

open Idealize.ShloMosaic Idealize.ShloMosaic.ValueIdx
open Cert.KernelIdeal Cert.KernelIdeal.Gen

/-- The score of edge a of the block in column j. -/
def blkScore (e : Vec Ideal S4000x64 .f32) (g : Vec Ideal S4000x128 .f32) (q : Vec Ideal S4000x64 .f32)
    (we : Vec Ideal S64x64 .f32) (b2 : Vec Ideal S1x64 .f32) (a : Fin 4000) (j : Fin 64) : EReal :=
  ((g (ix2 a (⟨j.val, by omega⟩ : Fin 128)) * q (ix2 a j)) * Cert.Spec.cS)
    * ((∑ k : Fin 64, e (ix2 a k) * we (ix2 k j)) + b2 (ix2 (0 : Fin 1) j))

/-- The stored score block, entry (a, j). -/
theorem pay2_apply (e : Vec Ideal S4000x64 .f32) (g : Vec Ideal S4000x128 .f32) (q : Vec Ideal S4000x64 .f32)
    (we : Vec Ideal S64x64 .f32) (b2 : Vec Ideal S1x64 .f32) (a : Fin 4000) (j : Fin 64) :
    k1_pay2 e we b2 g q (ix2 a j) = blkScore e g q we b2 a j := by
  have hg : extractStridedSlice S4000x64 ![0, 0] (shapeCast S4000x128 g shapeCasts_S4000x128_S4000x128)
      slices_S4000x128_o0_0_S4000x64 (ix2 a j) = g (ix2 a (⟨j.val, by omega⟩ : Fin 128)) := by
    rw [shapeCast_self]
    refine extractStridedSlice_apply _ _ _ _ _ fun x => ?_
    match x with
    | ⟨0, _⟩ => show a.val = 0 + a.val; omega
    | ⟨1, _⟩ => show j.val = 0 + j.val; omega
  have hb : broadcastTo S4000x64 (shapeCast S1x64 b2 shapeCasts_S1x64_S1x64) broadcasts_S1x64_S4000x64 (ix2 a j)
      = b2 (ix2 (0 : Fin 1) j) := by
    rw [shapeCast_self]
    refine broadcastTo_apply _ _ _ _ fun x => ?_
    match x with
    | ⟨0, _⟩ => rfl
    | ⟨1, _⟩ => rfl
  have hm : matmul dot_S4000x64_S64x64_S4000x64_1_0_0_1_n_n none (truncf (F := Ideal) .bf16 e bitsLt_bf16_f32)
      (truncf (F := Ideal) .bf16 we bitsLt_bf16_f32) (constant S4000x64 .f32 0x00000000#32) (ix2 a j)
      = ∑ k : Fin 64, e (ix2 a k) * we (ix2 k j) :=
    Cert.LibDot.matmul_plain_apply dot_S4000x64_S64x64_S4000x64_1_0_0_1_n_n rfl rfl rfl rfl rfl rfl none _ _ a j
  unfold k1_pay2 k1_pay1 blkScore
  dsimp only
  show ((_ * _) * _) * (_ + _) = _
  rw [hg, hb, hm, shapeCast_self]
  rfl

/-- The weight of edge a of the block for head p. -/
def blkWeight (e : Vec Ideal S4000x64 .f32) (g : Vec Ideal S4000x128 .f32) (q : Vec Ideal S4000x64 .f32)
    (we : Vec Ideal S64x64 .f32) (b2 : Vec Ideal S1x64 .f32) (ms : Vec Ideal S64x8 .f32) (a : Fin 4000) (p : Fin 8) : EReal :=
  Ideal.exp (min Cert.Spec.hi (max Cert.Spec.lo (∑ j : Fin 64, blkScore e g q we b2 a j * ms (ix2 j p))))

/-- The stored weight block, entry (a, p): the head sum of the scores, clipped, exponentiated. -/
theorem pay3_apply (e : Vec Ideal S4000x64 .f32) (g : Vec Ideal S4000x128 .f32) (q : Vec Ideal S4000x64 .f32)
    (we : Vec Ideal S64x64 .f32) (b2 : Vec Ideal S1x64 .f32) (ms : Vec Ideal S64x8 .f32) (a : Fin 4000) (p : Fin 8) :
    k1_pay3 e we b2 g q ms (ix2 a p) = blkWeight e g q we b2 ms a p := by
  have hm : matmul dot_S4000x64_S64x8_S4000x8_1_0_0_1_n_n none (truncf (F := Ideal) .bf16 (k1_pay2 e we b2 g q) bitsLt_bf16_f32)
      (truncf (F := Ideal) .bf16 ms bitsLt_bf16_f32) (constant S4000x8 .f32 0x00000000#32) (ix2 a p)
      = ∑ j : Fin 64, k1_pay2 e we b2 g q (ix2 a j) * ms (ix2 j p) :=
    Cert.LibDot.matmul_plain_apply dot_S4000x64_S64x8_S4000x8_1_0_0_1_n_n rfl rfl rfl rfl rfl rfl none _ _ a p
  unfold k1_pay3 blkWeight
  show Ideal.exp (min _ (max _ _)) = _
  rw [hm]
  simp only [pay2_apply]
  rfl

/-- The weighted value of edge a of the block in column j. -/
def blkWval (e : Vec Ideal S4000x64 .f32) (g : Vec Ideal S4000x128 .f32) (q : Vec Ideal S4000x64 .f32)
    (we : Vec Ideal S64x64 .f32) (b2 : Vec Ideal S1x64 .f32) (ms : Vec Ideal S64x8 .f32) (me : Vec Ideal S8x64 .f32)
    (a : Fin 4000) (j : Fin 64) : EReal :=
  g (ix2 a (⟨64 + j.val, by omega⟩ : Fin 128)) * (∑ p : Fin 8, blkWeight e g q we b2 ms a p * me (ix2 p j))

/-- The stored weighted-value block, entry (a, j): the V half of the gathered row times the head's weight expanded to its lanes. -/
theorem pay4_apply (e : Vec Ideal S4000x64 .f32) (g : Vec Ideal S4000x128 .f32) (q : Vec Ideal S4000x64 .f32)
    (we : Vec Ideal S64x64 .f32) (b2 : Vec Ideal S1x64 .f32) (ms : Vec Ideal S64x8 .f32) (me : Vec Ideal S8x64 .f32)
    (a : Fin 4000) (j : Fin 64) :
    k1_pay4 e we b2 g q ms me (ix2 a j) = blkWval e g q we b2 ms me a j := by
  have hg : extractStridedSlice S4000x64 ![0, 64] (shapeCast S4000x128 g shapeCasts_S4000x128_S4000x128)
      slices_S4000x128_o0_64_S4000x64 (ix2 a j) = g (ix2 a (⟨64 + j.val, by omega⟩ : Fin 128)) := by
    rw [shapeCast_self]
    refine extractStridedSlice_apply _ _ _ _ _ fun x => ?_
    match x with
    | ⟨0, _⟩ => show a.val = 0 + a.val; omega
    | ⟨1, _⟩ => show 64 + j.val = 64 + j.val; rfl
  have hm : matmul dot_S4000x8_S8x64_S4000x64_1_0_0_1_n_n none (truncf (F := Ideal) .bf16 (k1_pay3 e we b2 g q ms) bitsLt_bf16_f32)
      (truncf (F := Ideal) .bf16 me bitsLt_bf16_f32) (constant S4000x64 .f32 0x00000000#32) (ix2 a j)
      = ∑ p : Fin 8, k1_pay3 e we b2 g q ms (ix2 a p) * me (ix2 p j) :=
    Cert.LibDot.matmul_plain_apply dot_S4000x8_S8x64_S4000x64_1_0_0_1_n_n rfl rfl rfl rfl rfl rfl none _ _ a j
  unfold k1_pay4 k1_pay1 blkWval
  dsimp only
  show _ * _ = _
  rw [hg, hm]
  simp only [pay3_apply]

end Cert.KV

end
-- ==== Proof.Region1Index.lean ====
/-
  The edge stage's index maps over its 400 grid points: point t's block of the edge-indexed windows (the edge
  features, the gathered K|V rows, the gathered Q rows, and the three outputs) is block t along the rows and block 0
  along the columns; the four whole-array windows (We, be and the two head indicators) are at block (0, 0) at every
  point.
-/
import proofs.«429990_j33088428049200_3_alg».proof.Proof.Gen.KernelIdeal.Launch
import proofs.«429990_j33088428049200_3_alg».proof.Proof.Gen.KernelIdeal.Points

noncomputable section

namespace Cert.KV

open Idealize.ShloMosaic
open Cert.KernelIdeal Cert.KernelIdeal.Gen

/-- The edge-indexed windows move with the grid point along the rows. -/
theorem idx_rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The whole-array windows stay at block (0, 0). -/
theorem idx_whole1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

end Cert.KV

end
-- ==== Proof.Region1Rows.lean ====
/-
  The edge stage's arithmetic at a grid point, as formulas of the arrays row by row.

  The blocks of the edge features, of the gathered K|V rows and of the gathered Q rows at point t are the rows
  4000·t … 4000·t + 3999 of their arrays, and We, be and the two head indicators are read whole at every point.
  So row a of the point's block arithmetic is one formula of the arrays at edge r = 4000·t + a: the score sc r j,
  the weight sw r p, and the weighted value g[r, 64 + j] · ∑ p, sw r p · Mexp[p, j].
-/
import proofs.«429990_j33088428049200_3_alg».proof.Proof.Region1Defs
import proofs.«429990_j33088428049200_3_alg».proof.Proof.Region1Block
import proofs.«429990_j33088428049200_3_alg».proof.Proof.Region1Index
import Idealize.ShloMosaic.Lib.Pipeline.Value
import Idealize.ShloMosaic.Lib.ValueIdx

noncomputable section

open scoped BigOperators

namespace Cert.KV

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b)) (c : Dev nD)

/-- The seven arrays the edge stage reads, as it finds them: the edge features, the gathered K|V rows, the
    gathered Q rows, We, be, the head-sum indicator and the head-expand indicator. -/
abbrev eArr : S1600000x64.Idx → EReal := V c main_arg1
abbrev gArr : S1600000x128.Idx → EReal := V c main_v5
abbrev qArr : S1600000x64.Idx → EReal := V c main_v6
abbrev weArr : S64x64.Idx → EReal := V c main_arg8
abbrev beArr : S1x64.Idx → EReal := V c main_v3
abbrev msArr : S64x8.Idx → EReal := V c main_cst
abbrev meArr : S8x64.Idx → EReal := V c main_cst_0

/-- The score of edge r in column j. -/
def sc (r : Fin 1600000) (j : Fin 64) : EReal :=
  ((gArr V c (ix2 r (⟨j.val, by omega⟩ : Fin 128)) * qArr V c (ix2 r j)) * Cert.Spec.cS)
    * ((∑ k : Fin 64, eArr V c (ix2 r k) * weArr V c (ix2 k j)) + beArr V c (ix2 (0 : Fin 1) j))

/-- The weight of edge r for head p. -/
def sw (r : Fin 1600000) (p : Fin 8) : EReal :=
  Ideal.exp (min Cert.Spec.hi (max Cert.Spec.lo (∑ j : Fin 64, sc V c r j * msArr V c (ix2 j p))))

/-- The seven input blocks at a grid point, at their literal shapes. -/
def eBlk (t : Fin cfg1.N) : Vec Ideal S4000x64 .f32 := iblk1 V c 0 t
def gBlk (t : Fin cfg1.N) : Vec Ideal S4000x128 .f32 := iblk1 V c 1 t
def qBlk (t : Fin cfg1.N) : Vec Ideal S4000x64 .f32 := iblk1 V c 2 t
def weBlk (t : Fin cfg1.N) : Vec Ideal S64x64 .f32 := iblk1 V c 3 t
def beBlk (t : Fin cfg1.N) : Vec Ideal S1x64 .f32 := iblk1 V c 4 t
def msBlk (t : Fin cfg1.N) : Vec Ideal S64x8 .f32 := iblk1 V c 5 t
def meBlk (t : Fin cfg1.N) : Vec Ideal S8x64 .f32 := iblk1 V c 6 t

/-! ## Each block entry is an array entry: rows 4000·t + a of the edge-indexed arrays, the small arrays whole -/

theorem eBlk_apply (t : Fin cfg1.N) (a : Fin 4000) (k : Fin 64) (r : Fin 1600000) (hr : r.val = 4000 * t.val + a.val) :
    eBlk V c t (ix2 a k) = eArr V c (ix2 r k) := by
  obtain ⟨h0, h1, -⟩ := idx_rows1 t
  unfold eBlk iblk1
  rw [View.read_apply]
  show V c main_arg1 _ = V c main_arg1 _
  congr 1
  funext x
  apply Fin.ext
  match x with
  | ⟨0, _⟩ => show win1_0.index t 0 * 4000 + 1 * a.val = r.val; rw [h0, hr]; omega
  | ⟨1, _⟩ => show win1_0.index t 1 * 64 + 1 * k.val = k.val; rw [h1]; omega

theorem gBlk_apply (t : Fin cfg1.N) (a : Fin 4000) (k : Fin 128) (r : Fin 1600000) (hr : r.val = 4000 * t.val + a.val) :
    gBlk V c t (ix2 a k) = gArr V c (ix2 r k) := by
  obtain ⟨-, -, h0, h1, -⟩ := idx_rows1 t
  unfold gBlk iblk1
  rw [View.read_apply]
  show V c main_v5 _ = V c main_v5 _
  congr 1
  funext x
  apply Fin.ext
  match x with
  | ⟨0, _⟩ => show win1_1.index t 0 * 4000 + 1 * a.val = r.val; rw [h0, hr]; omega
  | ⟨1, _⟩ => show win1_1.index t 1 * 128 + 1 * k.val = k.val; rw [h1]; omega

theorem qBlk_apply (t : Fin cfg1.N) (a : Fin 4000) (k : Fin 64) (r : Fin 1600000) (hr : r.val = 4000 * t.val + a.val) :
    qBlk V c t (ix2 a k) = qArr V c (ix2 r k) := by
  obtain ⟨-, -, -, -, h0, h1, -⟩ := idx_rows1 t
  unfold qBlk iblk1
  rw [View.read_apply]
  show V c main_v6 _ = V c main_v6 _
  congr 1
  funext x
  apply Fin.ext
  match x with
  | ⟨0, _⟩ => show win1_2.index t 0 * 4000 + 1 * a.val = r.val; rw [h0, hr]; omega
  | ⟨1, _⟩ => show win1_2.index t 1 * 64 + 1 * k.val = k.val; rw [h1]; omega

theorem weBlk_apply (t : Fin cfg1.N) (a : Fin 64) (k : Fin 64) :
    weBlk V c t (ix2 a k) = weArr V c (ix2 a k) := by
  obtain ⟨h0, h1, -⟩ := idx_whole1 t
  unfold weBlk iblk1
  rw [View.read_apply]
  show V c main_arg8 _ = V c main_arg8 _
  congr 1
  funext x
  apply Fin.ext
  match x with
  | ⟨0, _⟩ => show win1_3.index t 0 * 64 + 1 * a.val = a.val; rw [h0]; omega
  | ⟨1, _⟩ => show win1_3.index t 1 * 64 + 1 * k.val = k.val; rw [h1]; omega

theorem beBlk_apply (t : Fin cfg1.N) (a : Fin 1) (k : Fin 64) :
    beBlk V c t (ix2 a k) = beArr V c (ix2 a k) := by
  obtain ⟨-, -, h0, h1, -⟩ := idx_whole1 t
  unfold beBlk iblk1
  rw [View.read_apply]
  show V c main_v3 _ = V c main_v3 _
  congr 1
  funext x
  apply Fin.ext
  match x with
  | ⟨0, _⟩ => show win1_4.index t 0 * 1 + 1 * a.val = a.val; rw [h0]; omega
  | ⟨1, _⟩ => show win1_4.index t 1 * 64 + 1 * k.val = k.val; rw [h1]; omega

theorem msBlk_apply (t : Fin cfg1.N) (a : Fin 64) (k : Fin 8) :
    msBlk V c t (ix2 a k) = msArr V c (ix2 a k) := by
  obtain ⟨-, -, -, -, h0, h1, -⟩ := idx_whole1 t
  unfold msBlk iblk1
  rw [View.read_apply]
  show V c main_cst _ = V c main_cst _
  congr 1
  funext x
  apply Fin.ext
  match x with
  | ⟨0, _⟩ => show win1_5.index t 0 * 64 + 1 * a.val = a.val; rw [h0]; omega
  | ⟨1, _⟩ => show win1_5.index t 1 * 8 + 1 * k.val = k.val; rw [h1]; omega

theorem meBlk_apply (t : Fin cfg1.N) (a : Fin 8) (k : Fin 64) :
    meBlk V c t (ix2 a k) = meArr V c (ix2 a k) := by
  obtain ⟨-, -, -, -, -, -, h0, h1⟩ := idx_whole1 t
  unfold meBlk iblk1
  rw [View.read_apply]
  show V c main_cst_0 _ = V c main_cst_0 _
  congr 1
  funext x
  apply Fin.ext
  match x with
  | ⟨0, _⟩ => show win1_6.index t 0 * 8 + 1 * a.val = a.val; rw [h0]; omega
  | ⟨1, _⟩ => show win1_6.index t 1 * 64 + 1 * k.val = k.val; rw [h1]; omega

/-! ## The block arithmetic of a point is the row formulas of the arrays -/

theorem blkScore_eq (t : Fin cfg1.N) (a : Fin 4000) (j : Fin 64) (r : Fin 1600000) (hr : r.val = 4000 * t.val + a.val) :
    blkScore (eBlk V c t) (gBlk V c t) (qBlk V c t) (weBlk V c t) (beBlk V c t) a j = sc V c r j := by
  have hs : (∑ k : Fin 64, eBlk V c t (ix2 a k) * weBlk V c t (ix2 k j)) = ∑ k : Fin 64, eArr V c (ix2 r k) * weArr V c (ix2 k j) :=
    Finset.sum_congr rfl fun k _ => by rw [eBlk_apply V c t a k r hr, weBlk_apply V c t k j]
  unfold blkScore sc
  rw [hs, gBlk_apply V c t a _ r hr, qBlk_apply V c t a j r hr, beBlk_apply V c t 0 j]

theorem blkWeight_eq (t : Fin cfg1.N) (a : Fin 4000) (p : Fin 8) (r : Fin 1600000) (hr : r.val = 4000 * t.val + a.val) :
    blkWeight (eBlk V c t) (gBlk V c t) (qBlk V c t) (weBlk V c t) (beBlk V c t) (msBlk V c t) a p = sw V c r p := by
  have hs : (∑ j : Fin 64, blkScore (eBlk V c t) (gBlk V c t) (qBlk V c t) (weBlk V c t) (beBlk V c t) a j * msBlk V c t (ix2 j p))
      = ∑ j : Fin 64, sc V c r j * msArr V c (ix2 j p) :=
    Finset.sum_congr rfl fun j _ => by rw [blkScore_eq V c t a j r hr, msBlk_apply V c t j p]
  unfold blkWeight sw
  rw [hs]

theorem blkWval_eq (t : Fin cfg1.N) (a : Fin 4000) (j : Fin 64) (r : Fin 1600000) (hr : r.val = 4000 * t.val + a.val) :
    blkWval (eBlk V c t) (gBlk V c t) (qBlk V c t) (weBlk V c t) (beBlk V c t) (msBlk V c t) (meBlk V c t) a j
      = gArr V c (ix2 r (⟨64 + j.val, by omega⟩ : Fin 128)) * (∑ p : Fin 8, sw V c r p * meArr V c (ix2 p j)) := by
  have hs : (∑ p : Fin 8, blkWeight (eBlk V c t) (gBlk V c t) (qBlk V c t) (weBlk V c t) (beBlk V c t) (msBlk V c t) a p * meBlk V c t (ix2 p j))
      = ∑ p : Fin 8, sw V c r p * meArr V c (ix2 p j) :=
    Finset.sum_congr rfl fun p _ => by rw [blkWeight_eq V c t a p r hr, meBlk_apply V c t p j]
  unfold blkWval
  rw [hs, gBlk_apply V c t a _ r hr]

end Cert.KV

end
-- ==== Proof.Region1Value.lean ====
/-
  What the edge stage leaves in its three output arrays, index by index.

  Edge r belongs to grid point r / 4000 and is row r mod 4000 of that point's blocks. What a point writes back to
  each output array is its block of one whole-array formula: the score sc r j, the weight sw r p, and the weighted
  value g[r, 64 + j] · ∑ p, sw r p · Mexp[p, j]. Every point writes its three blocks back and the blocks tile the
  arrays, so the arrays end holding these formulas at every index.
-/
import proofs.«429990_j33088428049200_3_alg».proof.Proof.Region1Rows
import Idealize.ShloMosaic.Lib.Pipeline.Value
import Idealize.ShloMosaic.Lib.ValueIdx

noncomputable section

open scoped BigOperators

namespace Cert.KV

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b)) (c : Dev nD)

/-! ## From the blocks to the arrays -/

/-- The blocks are loaded and stored whole: from offset zero on both axes. -/
theorem offsets_zero1 : (![0, 0] : Fin 2 → Nat) = fun _ => 0 := funext fun a => by fin_cases a <;> rfl

/-- The three arrays the stage is to leave: the row formulas at every index. -/
def scoreArr : S1600000x64.Idx → EReal := fun i => sc V c ⟨(i 0).val, (i 0).isLt⟩ ⟨(i 1).val, (i 1).isLt⟩
def weightArr : S1600000x8.Idx → EReal := fun i => sw V c ⟨(i 0).val, (i 0).isLt⟩ ⟨(i 1).val, (i 1).isLt⟩
def wvalArr : S1600000x64.Idx → EReal := fun i =>
  gArr V c (ix2 (⟨(i 0).val, (i 0).isLt⟩ : Fin 1600000) (⟨64 + (i 1).val, by have : (i 1).val < 64 := (i 1).isLt; omega⟩ : Fin 128))
    * (∑ p : Fin 8, sw V c ⟨(i 0).val, (i 0).isLt⟩ p * meArr V c (ix2 p (⟨(i 1).val, (i 1).isLt⟩ : Fin 64)))

/-- What point t writes back to this array is its block of the row formula. -/
theorem flushed7_eq (t : Fin cfg1.N) :
    (dat1 V c).flushed 7 t = ((cfg1.win 7).blk t).view.read (Elt Ideal) (scoreArr V c) := by
  have ht : t.val < 400 := lt_of_lt_of_eq t.isLt N_1
  obtain ⟨-, -, -, -, -, -, h0, h1, -⟩ := idx_rows1 t
  show (cfg1.win 7).cut (grid1.coords t) ((dat1 V c).after 7 t) = _
  rw [after1_7]
  unfold out1_7
  rw [View.canon_unit_zero offsets_zero1]
  simp only [View.ld_unit_zero (S := S4000x64) offsets_zero1, View.ld_unit_zero (S := S4000x128) offsets_zero1, View.ld_unit_zero (S := S64x64) offsets_zero1,
    View.ld_unit_zero (S := S1x64) offsets_zero1, View.ld_unit_zero (S := S64x8) offsets_zero1, View.ld_unit_zero (S := S8x64) offsets_zero1]
  have key : ∀ y : S4000x64.Idx, k1_pay2 (eBlk V c t) (weBlk V c t) (beBlk V c t) (gBlk V c t) (qBlk V c t) y = scoreArr V c (((cfg1.win 7).blk t).view.emb y) := by
    intro y
    obtain ⟨a, j, rfl⟩ : ∃ (a : Fin 4000) (j : Fin 64), y = ix2 a j := ⟨y 0, y 1, eq_ix2 y⟩
    have hemb : ((cfg1.win 7).blk t).view.emb (ix2 a j) = ix2 (⟨4000 * t.val + a.val, by omega⟩ : Fin 1600000) j := by
      funext x
      apply Fin.ext
      match x with
      | ⟨0, _⟩ => show win1_7.index t 0 * 4000 + 1 * a.val = 4000 * t.val + a.val; rw [h0]; omega
      | ⟨1, _⟩ => show win1_7.index t 1 * 64 + 1 * j.val = j.val; rw [h1]; omega
    refine (pay2_apply _ _ _ _ _ a j).trans ?_
    refine (blkScore_eq V c t a j ⟨4000 * t.val + a.val, by omega⟩ rfl).trans ?_
    exact (congrArg (scoreArr V c) hemb).symm
  exact funext key

/-- Every index of the array is in the block of the point its row belongs to. -/
theorem cover7 (i : S1600000x64.Idx) :
    ∃ t : Fin cfg1.N, (cfg1.win 7).flush t = true ∧ i ∈ ((cfg1.win 7).blk t).view.set := by
  have hi0 : (i 0).val < 1600000 := (i 0).isLt
  have hi1 : (i 1).val < 64 := (i 1).isLt
  have hN : grid1.N = 400 := N_1
  have hq : (i 0).val / 4000 < grid1.N := by rw [hN]; omega
  obtain ⟨-, -, -, -, -, -, h0, h1, -⟩ := idx_rows1 ⟨(i 0).val / 4000, hq⟩
  refine ⟨⟨(i 0).val / 4000, hq⟩, flush1_7 _, ?_⟩
  show i ∈ ((View.whole main_v7_0).slice (win1_7.rect ⟨(i 0).val / 4000, hq⟩)).set
  rw [View.set_slice_whole, Rect.mem_set_unit]
  intro a
  match a with
  | ⟨0, _⟩ =>
    show win1_7.index ⟨(i 0).val / 4000, hq⟩ 0 * 4000 ≤ (i 0).val ∧ (i 0).val < win1_7.index ⟨(i 0).val / 4000, hq⟩ 0 * 4000 + 4000
    rw [h0]; show (i 0).val / 4000 * 4000 ≤ (i 0).val ∧ (i 0).val < (i 0).val / 4000 * 4000 + 4000; omega
  | ⟨1, _⟩ =>
    show win1_7.index ⟨(i 0).val / 4000, hq⟩ 1 * 64 ≤ (i 1).val ∧ (i 1).val < win1_7.index ⟨(i 0).val / 4000, hq⟩ 1 * 64 + 64
    rw [h1]; omega

/-- So the array ends holding the row formula at every index. -/
theorem final7 : (dat1 V c).arrAt 7 cfg1.N = scoreArr V c :=
  (dat1 V c).arrAt_eq_of_cover 7 (scoreArr V c) (fun t _ => flushed7_eq V c t) (cover7)

/-- What point t writes back to this array is its block of the row formula. -/
theorem flushed9_eq (t : Fin cfg1.N) :
    (dat1 V c).flushed 9 t = ((cfg1.win 9).blk t).view.read (Elt Ideal) (weightArr V c) := by
  have ht : t.val < 400 := lt_of_lt_of_eq t.isLt N_1
  obtain ⟨-, -, -, -, -, -, -, -, -, -, h0, h1⟩ := idx_rows1 t
  show (cfg1.win 9).cut (grid1.coords t) ((dat1 V c).after 9 t) = _
  rw [after1_9]
  unfold out1_9
  rw [View.canon_unit_zero offsets_zero1]
  simp only [View.ld_unit_zero (S := S4000x64) offsets_zero1, View.ld_unit_zero (S := S4000x128) offsets_zero1, View.ld_unit_zero (S := S64x64) offsets_zero1,
    View.ld_unit_zero (S := S1x64) offsets_zero1, View.ld_unit_zero (S := S64x8) offsets_zero1, View.ld_unit_zero (S := S8x64) offsets_zero1]
  have key : ∀ y : S4000x8.Idx, k1_pay3 (eBlk V c t) (weBlk V c t) (beBlk V c t) (gBlk V c t) (qBlk V c t) (msBlk V c t) y = weightArr V c (((cfg1.win 9).blk t).view.emb y) := by
    intro y
    obtain ⟨a, j, rfl⟩ : ∃ (a : Fin 4000) (j : Fin 8), y = ix2 a j := ⟨y 0, y 1, eq_ix2 y⟩
    have hemb : ((cfg1.win 9).blk t).view.emb (ix2 a j) = ix2 (⟨4000 * t.val + a.val, by omega⟩ : Fin 1600000) j := by
      funext x
      apply Fin.ext
      match x with
      | ⟨0, _⟩ => show win1_9.index t 0 * 4000 + 1 * a.val = 4000 * t.val + a.val; rw [h0]; omega
      | ⟨1, _⟩ => show win1_9.index t 1 * 8 + 1 * j.val = j.val; rw [h1]; omega
    refine (pay3_apply _ _ _ _ _ _ a j).trans ?_
    refine (blkWeight_eq V c t a j ⟨4000 * t.val + a.val, by omega⟩ rfl).trans ?_
    exact (congrArg (weightArr V c) hemb).symm
  exact funext key

/-- Every index of the array is in the block of the point its row belongs to. -/
theorem cover9 (i : S1600000x8.Idx) :
    ∃ t : Fin cfg1.N, (cfg1.win 9).flush t = true ∧ i ∈ ((cfg1.win 9).blk t).view.set := by
  have hi0 : (i 0).val < 1600000 := (i 0).isLt
  have hi1 : (i 1).val < 8 := (i 1).isLt
  have hN : grid1.N = 400 := N_1
  have hq : (i 0).val / 4000 < grid1.N := by rw [hN]; omega
  obtain ⟨-, -, -, -, -, -, -, -, -, -, h0, h1⟩ := idx_rows1 ⟨(i 0).val / 4000, hq⟩
  refine ⟨⟨(i 0).val / 4000, hq⟩, flush1_9 _, ?_⟩
  show i ∈ ((View.whole main_v7_2).slice (win1_9.rect ⟨(i 0).val / 4000, hq⟩)).set
  rw [View.set_slice_whole, Rect.mem_set_unit]
  intro a
  match a with
  | ⟨0, _⟩ =>
    show win1_9.index ⟨(i 0).val / 4000, hq⟩ 0 * 4000 ≤ (i 0).val ∧ (i 0).val < win1_9.index ⟨(i 0).val / 4000, hq⟩ 0 * 4000 + 4000
    rw [h0]; show (i 0).val / 4000 * 4000 ≤ (i 0).val ∧ (i 0).val < (i 0).val / 4000 * 4000 + 4000; omega
  | ⟨1, _⟩ =>
    show win1_9.index ⟨(i 0).val / 4000, hq⟩ 1 * 8 ≤ (i 1).val ∧ (i 1).val < win1_9.index ⟨(i 0).val / 4000, hq⟩ 1 * 8 + 8
    rw [h1]; omega

/-- So the array ends holding the row formula at every index. -/
theorem final9 : (dat1 V c).arrAt 9 cfg1.N = weightArr V c :=
  (dat1 V c).arrAt_eq_of_cover 9 (weightArr V c) (fun t _ => flushed9_eq V c t) (cover9)

/-- What point t writes back to this array is its block of the row formula. -/
theorem flushed8_eq (t : Fin cfg1.N) :
    (dat1 V c).flushed 8 t = ((cfg1.win 8).blk t).view.read (Elt Ideal) (wvalArr V c) := by
  have ht : t.val < 400 := lt_of_lt_of_eq t.isLt N_1
  obtain ⟨-, -, -, -, -, -, -, -, h0, h1, -⟩ := idx_rows1 t
  show (cfg1.win 8).cut (grid1.coords t) ((dat1 V c).after 8 t) = _
  rw [after1_8]
  unfold out1_8
  rw [View.canon_unit_zero offsets_zero1]
  simp only [View.ld_unit_zero (S := S4000x64) offsets_zero1, View.ld_unit_zero (S := S4000x128) offsets_zero1, View.ld_unit_zero (S := S64x64) offsets_zero1,
    View.ld_unit_zero (S := S1x64) offsets_zero1, View.ld_unit_zero (S := S64x8) offsets_zero1, View.ld_unit_zero (S := S8x64) offsets_zero1]
  have key : ∀ y : S4000x64.Idx, k1_pay4 (eBlk V c t) (weBlk V c t) (beBlk V c t) (gBlk V c t) (qBlk V c t) (msBlk V c t) (meBlk V c t) y = wvalArr V c (((cfg1.win 8).blk t).view.emb y) := by
    intro y
    obtain ⟨a, j, rfl⟩ : ∃ (a : Fin 4000) (j : Fin 64), y = ix2 a j := ⟨y 0, y 1, eq_ix2 y⟩
    have hemb : ((cfg1.win 8).blk t).view.emb (ix2 a j) = ix2 (⟨4000 * t.val + a.val, by omega⟩ : Fin 1600000) j := by
      funext x
      apply Fin.ext
      match x with
      | ⟨0, _⟩ => show win1_8.index t 0 * 4000 + 1 * a.val = 4000 * t.val + a.val; rw [h0]; omega
      | ⟨1, _⟩ => show win1_8.index t 1 * 64 + 1 * j.val = j.val; rw [h1]; omega
    refine (pay4_apply _ _ _ _ _ _ _ a j).trans ?_
    refine (blkWval_eq V c t a j ⟨4000 * t.val + a.val, by omega⟩ rfl).trans ?_
    exact (congrArg (wvalArr V c) hemb).symm
  exact funext key

/-- Every index of the array is in the block of the point its row belongs to. -/
theorem cover8 (i : S1600000x64.Idx) :
    ∃ t : Fin cfg1.N, (cfg1.win 8).flush t = true ∧ i ∈ ((cfg1.win 8).blk t).view.set := by
  have hi0 : (i 0).val < 1600000 := (i 0).isLt
  have hi1 : (i 1).val < 64 := (i 1).isLt
  have hN : grid1.N = 400 := N_1
  have hq : (i 0).val / 4000 < grid1.N := by rw [hN]; omega
  obtain ⟨-, -, -, -, -, -, -, -, h0, h1, -⟩ := idx_rows1 ⟨(i 0).val / 4000, hq⟩
  refine ⟨⟨(i 0).val / 4000, hq⟩, flush1_8 _, ?_⟩
  show i ∈ ((View.whole main_v7_1).slice (win1_8.rect ⟨(i 0).val / 4000, hq⟩)).set
  rw [View.set_slice_whole, Rect.mem_set_unit]
  intro a
  match a with
  | ⟨0, _⟩ =>
    show win1_8.index ⟨(i 0).val / 4000, hq⟩ 0 * 4000 ≤ (i 0).val ∧ (i 0).val < win1_8.index ⟨(i 0).val / 4000, hq⟩ 0 * 4000 + 4000
    rw [h0]; show (i 0).val / 4000 * 4000 ≤ (i 0).val ∧ (i 0).val < (i 0).val / 4000 * 4000 + 4000; omega
  | ⟨1, _⟩ =>
    show win1_8.index ⟨(i 0).val / 4000, hq⟩ 1 * 64 ≤ (i 1).val ∧ (i 1).val < win1_8.index ⟨(i 0).val / 4000, hq⟩ 1 * 64 + 64
    rw [h1]; omega

/-- So the array ends holding the row formula at every index. -/
theorem final8 : (dat1 V c).arrAt 8 cfg1.N = wvalArr V c :=
  (dat1 V c).arrAt_eq_of_cover 8 (wvalArr V c) (fun t _ => flushed8_eq V c t) (cover8)

/-! ## The three arrays, read at an index -/

theorem scoreArr_apply (r : Fin 1600000) (j : Fin 64) :
    ((dat1 V c).arrAt 7 cfg1.N : S1600000x64.Idx → EReal) (ix2 r j) = sc V c r j :=
  congrFun (final7 V c) (ix2 r j)

theorem weightArr_apply (r : Fin 1600000) (p : Fin 8) :
    ((dat1 V c).arrAt 9 cfg1.N : S1600000x8.Idx → EReal) (ix2 r p) = sw V c r p :=
  congrFun (final9 V c) (ix2 r p)

theorem wvalArr_apply (r : Fin 1600000) (j : Fin 64) :
    ((dat1 V c).arrAt 8 cfg1.N : S1600000x64.Idx → EReal) (ix2 r j)
      = gArr V c (ix2 r (⟨64 + j.val, by omega⟩ : Fin 128)) * (∑ p : Fin 8, sw V c r p * meArr V c (ix2 p j)) :=
  congrFun (final8 V c) (ix2 r j)

end Cert.KV

end
-- ==== Proof.HostTake.lean ====
/-
  The two masked row gathers between the two grid regions, read at an index.

  A take of rows of a table [50000, C] at 1600000 index words is written as: each index word, raised by 50000 when it is
  negative; the words as a column of start indices; a mask, per word, "0 ≤ start ≤ 49999"; a gather of whole rows, the
  start index clamped into the table; and a select of the gathered row where the mask holds, of a fill word elsewhere.
  Under the hypothesis that every index word names a row (0 ≤ word < 50000, read signed) no word is raised, every mask
  bit is 1, and row r of the result is the table's row the r-th word names. Stated once for a table of any row width C,
  then read off the program's two stretches of host operations: the K|V rows by the src words (width 128) and the Q
  rows by the dst words (width 64).
-/
import proofs.«429990_j33088428049200_3_alg».proof.Proof.Gen.KernelIdeal.Regions
import Idealize.ShloMosaic.Lib.ValueIdx
import Idealize.ShloMosaic.PureOps.Reduce
import proofs.«429990_j33088428049200_3_alg».proof.Proof.LibGatherRow
import proofs.«429990_j33088428049200_3_alg».proof.Proof.Spec

set_option maxRecDepth 16384

noncomputable section

namespace Cert.KV

open Idealize.ShloMosaic Idealize.ShloMosaic.ValueIdx Cert.LibGatherRow

/-! ## Words, bits and a broadcast -/

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_one f hf l

/-- An `and`-reduction from 1 of an array of bits that are all 1 is 1 at every result index. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x hx _

/-- A word that names a row of a table of 50000 rows is not below 0, is at least 0 and is at most 49999. -/
theorem word_in_table (w : BitVec 32) (h0 : 0 ≤ w.toInt) (h1 : w.toInt < 50000) :
    IntOp.cmpi .slt w 0#32 = 0#1 ∧ IntOp.cmpi .sge w 0#32 = 1#1 ∧ IntOp.cmpi .sle w 49999#32 = 1#1 := by
  have z : (0#32 : BitVec 32).toInt = 0 := by decide
  have t : (49999#32 : BitVec 32).toInt = 49999 := by decide
  refine ⟨?_, ?_, ?_⟩
  · show BitVec.ofBool (decide (w.toInt < (0#32 : BitVec 32).toInt)) = 0#1
    rw [z, decide_eq_false (by omega)]; rfl
  · show BitVec.ofBool (decide ((0#32 : BitVec 32).toInt ≤ w.toInt)) = 1#1
    rw [z, decide_eq_true (by omega)]; rfl
  · show BitVec.ofBool (decide (w.toInt ≤ (49999#32 : BitVec 32).toInt)) = 1#1
    rw [t, decide_eq_true (by omega)]; rfl

/-- A vector laid along the rows of an [n × k] rectangle reads, at (p, q), the vector at p. -/
theorem bcast_rows_apply {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-! ## The masked take of rows of a table of 50000 rows at 1600000 index words, for any row width C -/

abbrev Sc : Shape := ⟨0, ![]⟩
abbrev Se : Shape := ⟨1, ![1600000]⟩
abbrev Se1 : Shape := ⟨2, ![1600000, 1]⟩
abbrev So : Shape := ⟨1, ![1]⟩
abbrev Soo : Shape := ⟨2, ![1, 1]⟩

section Take

variable {α : Type} {C : Nat}
variable (hcE : Sc.BroadcastsInDim Se ![]) (hEcol : Se.BroadcastsInDim Se1 ![0]) (hcE1 : Sc.BroadcastsInDim Se1 ![])
variable (hoo : So.BroadcastsInDim Soo ![1]) (hooE1 : Soo.BroadcastsInDim Se1 ![0, 1]) (hred : Se1.ReducesTo [1] Se)
variable (hu : 0 < Sc.numel)
variable (hEC : Se.BroadcastsInDim ⟨2, ![1600000, C]⟩ ![0]) (hcEC : Sc.BroadcastsInDim ⟨2, ![1600000, C]⟩ ![])
variable (d : GatherDims ⟨2, ![50000, C]⟩ Se1 ⟨2, ![1600000, C]⟩)

/-- The start indices: each index word, a negative one raised by the table's height, as a column. -/
def takeIdx (src : IVec Se 32) : IVec Se1 32 :=
  broadcastInDim Se1 ![0] hEcol
    (select (cmpi .slt src (broadcastInDim Se ![] hcE (constantI Sc 32 0#32)))
      (addi src (broadcastInDim Se ![] hcE (constantI Sc 32 50000#32))) src)

/-- The mask of a column of start indices: per row, whether the start index lies in [0, 49999]. -/
def idxMask (idx : IVec Se1 32) : IVec Se 1 :=
  Host.reduce IntOp.andi
    (andi (cmpi .sge idx (broadcastInDim Se1 ![] hcE1 (constantI Sc 32 0#32)))
      (cmpi .sle idx (broadcastInDim Se1 ![0, 1] hooE1 (broadcastInDim Soo ![1] hoo (constantI So 32 49999#32)))))
    (constantI Sc 1 1#1) hred hu

/-- The gathered rows where the mask holds, the fill elsewhere. -/
def maskedRows (mask : IVec Se 1) (idx : IVec Se1 32) (x : (⟨2, ![50000, C]⟩ : Shape).Idx → α) (fill : Sc.Idx → α) :
    (⟨2, ![1600000, C]⟩ : Shape).Idx → α :=
  select (broadcastInDim ⟨2, ![1600000, C]⟩ ![0] hEC mask) (Host.gather d x idx)
    (broadcastInDim ⟨2, ![1600000, C]⟩ ![] hcEC fill)

/-- The take: the three together, from the index words. -/
def takeOut (src : IVec Se 32) (x : (⟨2, ![50000, C]⟩ : Shape).Idx → α) (fill : Sc.Idx → α) :
    (⟨2, ![1600000, C]⟩ : Shape).Idx → α :=
  maskedRows hEC hcEC d (idxMask hcE1 hoo hooE1 hred hu (takeIdx hcE hEcol src)) (takeIdx hcE hEcol src) x fill

variable (src : IVec Se 32) (hs : ∀ r : Fin 1600000, 0 ≤ (src (ix1 r)).toInt ∧ (src (ix1 r)).toInt < 50000)

include hs in
/-- Under the range hypothesis the start index of row r is its index word. -/
theorem takeIdx_apply (r : Fin 1600000) : takeIdx hcE hEcol src (ix2 r 0) = src (ix1 r) := by
  unfold takeIdx
  rw [bcast_rows_apply]
  show Scalar.select (IntOp.cmpi .slt (src (ix1 r)) 0#32) (IntOp.addi (src (ix1 r)) 50000#32) (src (ix1 r)) = _
  rw [(word_in_table _ (hs r).1 (hs r).2).1, select_zero]

include hs in
/-- Under the range hypothesis every mask bit is 1. -/
theorem idxMask_apply (r : Fin 1600000) : idxMask hcE1 hoo hooE1 hred hu (takeIdx hcE hEcol src) (ix1 r) = 1#1 := by
  unfold idxMask
  refine reduce_andi_of_all _ hred hu (fun i => ?_) _
  obtain ⟨p, q, rfl⟩ : ∃ p q, i = ix2 p q := ⟨i 0, i 1, eq_ix2 i⟩
  have hq : q = 0 := Subsingleton.elim _ _
  subst hq
  show IntOp.andi (IntOp.cmpi .sge (takeIdx hcE hEcol src (ix2 p 0)) 0#32)
    (IntOp.cmpi .sle (takeIdx hcE hEcol src (ix2 p 0)) 49999#32) = 1#1
  rw [takeIdx_apply hcE hEcol src hs p, (word_in_table _ (hs p).1 (hs p).2).2.1, (word_in_table _ (hs p).1 (hs p).2).2.2]
  decide

include hs in
/-- THE TAKE AT AN INDEX: under the range hypothesis, row r of the result is the table's row the r-th index word names. -/
theorem takeOut_apply (hoff : d.offsetDims = [1]) (hcoll : d.collapsedSliceDims = [0]) (hob : d.operandBatchingDims = [])
    (hsim : d.startIndexMap = [0]) (hivd : d.indexVectorDim = 1)
    (x : (⟨2, ![50000, C]⟩ : Shape).Idx → α) (fill : Sc.Idx → α) (r : Fin 1600000) (j : Fin C) :
    takeOut hcE hEcol hcE1 hoo hooE1 hred hu hEC hcEC d src x fill (ix2 r j)
      = x (ix2 (clampRow 50000 (by decide) (src (ix1 r))) j) := by
  unfold takeOut maskedRows
  rw [select_apply, bcast_rows_apply, idxMask_apply hcE hEcol hcE1 hoo hooE1 hred hu src hs r, select_one,
    gather_row2 (by decide) d hoff hcoll hob hsim hivd x _ r j, takeIdx_apply hcE hEcol src hs r]

end Take

section Program

open Idealize.ShloMosaic.TcCoe
open Cert.KernelIdeal Cert.KernelIdeal.Gen

/-! ## The first stretch: the K|V rows by the src words (row width 128) -/

section Kv

variable {F : FTy → Type} [FloatOps F] (W : Valuation τ sig (Elt F))

/-- The stretch in three parts: the start indices (eight operations), the mask (ten), the gather and the select (five). -/
theorem opsKv_split : (Gen.hostOps1 (F := F))
    = (Gen.hostOps1 (F := F)).take 8 ++ (((Gen.hostOps1 (F := F)).drop 8).take 10 ++ (Gen.hostOps1 (F := F)).drop 18) := rfl

/-- The first part leaves the start indices of the index words, … -/
theorem idxKv : (StableHlo.after ((Gen.hostOps1 (F := F)).take 8) W (Proc.devRef .tc main_call0_v5) : S1600000x1.Idx → BitVec 32)
    = takeIdx bcast_S_S1600000 bcast_S1600000_S1600000x1_0 (W (Proc.devRef .tc main_arg10)) := by
  simp only [Gen.hostOps1, List.take_succ_cons, List.take_zero]
  after_results
  simp only [StableHlo.TRef.ofBuf, StableHlo.TRef.toBuf, cast_eq]
  rfl

/-- … and the table as it was. -/
theorem idxKv_table : StableHlo.after ((Gen.hostOps1 (F := F)).take 8) W (Proc.devRef .tc main_v4_1) = W (Proc.devRef .tc main_v4_1) := by
  simp only [Gen.hostOps1, List.take_succ_cons, List.take_zero]
  after_results

/-- The second part leaves the mask of the start indices, … -/
theorem maskKv : (StableHlo.after (((Gen.hostOps1 (F := F)).drop 8).take 10) W (Proc.devRef .tc main_call0_v12) : S1600000.Idx → BitVec 1)
    = idxMask bcast_S_S1600000x1 bcast_S1_S1x1_1 bcast_S1x1_S1600000x1_0_1 reducesTo_S1600000x1_S1600000_d1 h_S_
        (W (Proc.devRef .tc main_call0_v5)) := by
  simp only [Gen.hostOps1, List.drop_succ_cons, List.drop_zero, List.take_succ_cons, List.take_zero]
  after_results
  simp only [StableHlo.TRef.ofBuf, StableHlo.TRef.toBuf, cast_eq]
  rfl

/-- … the start indices as they were, … -/
theorem maskKv_idx : StableHlo.after (((Gen.hostOps1 (F := F)).drop 8).take 10) W (Proc.devRef .tc main_call0_v5) = W (Proc.devRef .tc main_call0_v5) := by
  simp only [Gen.hostOps1, List.drop_succ_cons, List.drop_zero, List.take_succ_cons, List.take_zero]
  after_results

/-- … and the table as it was. -/
theorem maskKv_table : StableHlo.after (((Gen.hostOps1 (F := F)).drop 8).take 10) W (Proc.devRef .tc main_v4_1) = W (Proc.devRef .tc main_v4_1) := by
  simp only [Gen.hostOps1, List.drop_succ_cons, List.drop_zero, List.take_succ_cons, List.take_zero]
  after_results

/-- The third part leaves the gathered rows where the mask holds, the fill word's value elsewhere. -/
theorem rowsKv : (StableHlo.after ((Gen.hostOps1 (F := F)).drop 18) W (Proc.devRef .tc main_v5) : S1600000x128.Idx → Elt F .f32)
    = maskedRows (α := Elt F .f32) bcast_S1600000_S1600000x128_0 bcast_S_S1600000x128 gather_S50000x128_S1600000x1_S1600000x128_1_0_n_n_0_1_1128
        (W (Proc.devRef .tc main_call0_v12)) (W (Proc.devRef .tc main_call0_v5)) (W (Proc.devRef .tc main_v4_1))
        (constant (F := F) S_ .f32 0x7FC00000#32) := by
  simp only [Gen.hostOps1, List.drop_succ_cons, List.drop_zero]
  after_results
  simp only [StableHlo.TRef.ofBuf, StableHlo.TRef.toBuf, cast_eq]
  rfl

/-- The whole stretch leaves the take of the table's rows at the index words. -/
theorem takeKv : (StableHlo.after (Gen.hostOps1 (F := F)) W (Proc.devRef .tc main_v5) : S1600000x128.Idx → Elt F .f32)
    = takeOut (α := Elt F .f32) bcast_S_S1600000 bcast_S1600000_S1600000x1_0 bcast_S_S1600000x1 bcast_S1_S1x1_1
        bcast_S1x1_S1600000x1_0_1 reducesTo_S1600000x1_S1600000_d1 h_S_ bcast_S1600000_S1600000x128_0 bcast_S_S1600000x128 gather_S50000x128_S1600000x1_S1600000x128_1_0_n_n_0_1_1128
        (W (Proc.devRef .tc main_arg10)) (W (Proc.devRef .tc main_v4_1)) (constant (F := F) S_ .f32 0x7FC00000#32) := by
  rw [opsKv_split, StableHlo.after_append, StableHlo.after_append, rowsKv, maskKv, maskKv_idx, maskKv_table, idxKv,
    idxKv_table]
  rfl

end Kv

/-! ## The second stretch: the Q rows by the dst words (row width 64) -/

section Q

variable {F : FTy → Type} [FloatOps F] (W : Valuation τ sig (Elt F))

/-- The stretch in three parts: the start indices (eight operations), the mask (ten), the gather and the select (five). -/
theorem opsQ_split : (Gen.hostOps1_1 (F := F))
    = (Gen.hostOps1_1 (F := F)).take 8 ++ (((Gen.hostOps1_1 (F := F)).drop 8).take 10 ++ (Gen.hostOps1_1 (F := F)).drop 18) := rfl

/-- The first part leaves the start indices of the index words, … -/
theorem idxQ : (StableHlo.after ((Gen.hostOps1_1 (F := F)).take 8) W (Proc.devRef .tc main_call1_v5) : S1600000x1.Idx → BitVec 32)
    = takeIdx bcast_S_S1600000 bcast_S1600000_S1600000x1_0 (W (Proc.devRef .tc main_arg11)) := by
  simp only [Gen.hostOps1_1, List.take_succ_cons, List.take_zero]
  after_results
  simp only [StableHlo.TRef.ofBuf, StableHlo.TRef.toBuf, cast_eq]
  rfl

/-- … and the table as it was. -/
theorem idxQ_table : StableHlo.after ((Gen.hostOps1_1 (F := F)).take 8) W (Proc.devRef .tc main_v4_0) = W (Proc.devRef .tc main_v4_0) := by
  simp only [Gen.hostOps1_1, List.take_succ_cons, List.take_zero]
  after_results

/-- The second part leaves the mask of the start indices, … -/
theorem maskQ : (StableHlo.after (((Gen.hostOps1_1 (F := F)).drop 8).take 10) W (Proc.devRef .tc main_call1_v12) : S1600000.Idx → BitVec 1)
    = idxMask bcast_S_S1600000x1 bcast_S1_S1x1_1 bcast_S1x1_S1600000x1_0_1 reducesTo_S1600000x1_S1600000_d1 h_S_
        (W (Proc.devRef .tc main_call1_v5)) := by
  simp only [Gen.hostOps1_1, List.drop_succ_cons, List.drop_zero, List.take_succ_cons, List.take_zero]
  after_results
  simp only [StableHlo.TRef.ofBuf, StableHlo.TRef.toBuf, cast_eq]
  rfl

/-- … the start indices as they were, … -/
theorem maskQ_idx : StableHlo.after (((Gen.hostOps1_1 (F := F)).drop 8).take 10) W (Proc.devRef .tc main_call1_v5) = W (Proc.devRef .tc main_call1_v5) := by
  simp only [Gen.hostOps1_1, List.drop_succ_cons, List.drop_zero, List.take_succ_cons, List.take_zero]
  after_results

/-- … and the table as it was. -/
theorem maskQ_table : StableHlo.after (((Gen.hostOps1_1 (F := F)).drop 8).take 10) W (Proc.devRef .tc main_v4_0) = W (Proc.devRef .tc main_v4_0) := by
  simp only [Gen.hostOps1_1, List.drop_succ_cons, List.drop_zero, List.take_succ_cons, List.take_zero]
  after_results

/-- The third part leaves the gathered rows where the mask holds, the fill word's value elsewhere. -/
theorem rowsQ : (StableHlo.after ((Gen.hostOps1_1 (F := F)).drop 18) W (Proc.devRef .tc main_v6) : S1600000x64.Idx → Elt F .f32)
    = maskedRows (α := Elt F .f32) bcast_S1600000_S1600000x64_0 bcast_S_S1600000x64 gather_S50000x64_S1600000x1_S1600000x64_1_0_n_n_0_1_164
        (W (Proc.devRef .tc main_call1_v12)) (W (Proc.devRef .tc main_call1_v5)) (W (Proc.devRef .tc main_v4_0))
        (constant (F := F) S_ .f32 0x7FC00000#32) := by
  simp only [Gen.hostOps1_1, List.drop_succ_cons, List.drop_zero]
  after_results
  simp only [StableHlo.TRef.ofBuf, StableHlo.TRef.toBuf, cast_eq]
  rfl

/-- The whole stretch leaves the take of the table's rows at the index words. -/
theorem takeQ : (StableHlo.after (Gen.hostOps1_1 (F := F)) W (Proc.devRef .tc main_v6) : S1600000x64.Idx → Elt F .f32)
    = takeOut (α := Elt F .f32) bcast_S_S1600000 bcast_S1600000_S1600000x1_0 bcast_S_S1600000x1 bcast_S1_S1x1_1
        bcast_S1x1_S1600000x1_0_1 reducesTo_S1600000x1_S1600000_d1 h_S_ bcast_S1600000_S1600000x64_0 bcast_S_S1600000x64 gather_S50000x64_S1600000x1_S1600000x64_1_0_n_n_0_1_164
        (W (Proc.devRef .tc main_arg11)) (W (Proc.devRef .tc main_v4_0)) (constant (F := F) S_ .f32 0x7FC00000#32) := by
  rw [opsQ_split, StableHlo.after_append, StableHlo.after_append, rowsQ, maskQ, maskQ_idx, maskQ_table, idxQ,
    idxQ_table]
  rfl

end Q

/-! ## The two gathered arrays as the second region finds them -/

/-- Under the hypothesis that every src word names a node, row r of the gathered array is the table's row that word names. -/
theorem kvg_apply (m : (ℓ : Loc nD τ sig) → Buf (Elt Ideal) ℓ) (outs : Gen.Outs (F := Ideal)) (c : Dev nD)
    (hs : ∀ r : Fin 1600000, 0 ≤ ((m ((c : Thread nD τ).loc main_arg10) : S1600000.Idx → BitVec 32) (ix1 r)).toInt ∧ ((m ((c : Thread nD τ).loc main_arg10) : S1600000.Idx → BitVec 32) (ix1 r)).toInt < 50000)
    (r : Fin 1600000) (j : Fin 128) :
    (Gen.V4 m outs c main_v5 : S1600000x128.Idx → EReal) (ix2 r j)
      = (Gen.V2 m outs c main_v4_1 : S50000x128.Idx → EReal) (ix2 (Cert.Spec.row ((m ((c : Thread nD τ).loc main_arg10) : S1600000.Idx → BitVec 32) (ix1 r))) j) := by
  have ea : Gen.V2 m outs c main_arg10 = m ((c : Thread nD τ).loc main_arg10) :=
    (Gen.V2_of m outs c main_arg10 (by decide)).trans ((Gen.V1_of m c main_arg10 (by decide)).trans rfl)
  have ev : ∀ r : Fin 1600000, (Gen.V2 m outs c main_arg10 : S1600000.Idx → BitVec 32) (ix1 r) = (m ((c : Thread nD τ).loc main_arg10) : S1600000.Idx → BitVec 32) (ix1 r) :=
    fun r => congrFun ea (ix1 r)
  refine (congrFun (Gen.V4_of m outs c main_v5 (by decide)) (ix2 r j)).trans ?_
  refine (congrFun (takeKv (F := Ideal) (Gen.V2 m outs c)) (ix2 r j)).trans ?_
  refine (takeOut_apply bcast_S_S1600000 bcast_S1600000_S1600000x1_0 bcast_S_S1600000x1 bcast_S1_S1x1_1
    bcast_S1x1_S1600000x1_0_1 reducesTo_S1600000x1_S1600000_d1 h_S_ bcast_S1600000_S1600000x128_0 bcast_S_S1600000x128 gather_S50000x128_S1600000x1_S1600000x128_1_0_n_n_0_1_1128
    (Gen.V2 m outs c main_arg10 : S1600000.Idx → BitVec 32) (fun r => by rw [ev r]; exact hs r) rfl rfl rfl rfl rfl
    (Gen.V2 m outs c main_v4_1 : S50000x128.Idx → EReal) (constant (F := Ideal) S_ .f32 0x7FC00000#32) r j).trans ?_
  rw [ev r]
  rfl

/-- Under the hypothesis that every dst word names a node, row r of the gathered array is the table's row that word names. -/
theorem qg_apply (m : (ℓ : Loc nD τ sig) → Buf (Elt Ideal) ℓ) (outs : Gen.Outs (F := Ideal)) (c : Dev nD)
    (hs : ∀ r : Fin 1600000, 0 ≤ ((m ((c : Thread nD τ).loc main_arg11) : S1600000.Idx → BitVec 32) (ix1 r)).toInt ∧ ((m ((c : Thread nD τ).loc main_arg11) : S1600000.Idx → BitVec 32) (ix1 r)).toInt < 50000)
    (r : Fin 1600000) (j : Fin 64) :
    (Gen.V4 m outs c main_v6 : S1600000x64.Idx → EReal) (ix2 r j)
      = (Gen.V2 m outs c main_v4_0 : S50000x64.Idx → EReal) (ix2 (Cert.Spec.row ((m ((c : Thread nD τ).loc main_arg11) : S1600000.Idx → BitVec 32) (ix1 r))) j) := by
  have ea : Gen.V2 m outs c main_arg11 = m ((c : Thread nD τ).loc main_arg11) :=
    (Gen.V2_of m outs c main_arg11 (by decide)).trans ((Gen.V1_of m c main_arg11 (by decide)).trans rfl)
  have ev : ∀ r : Fin 1600000, (Gen.V2 m outs c main_arg11 : S1600000.Idx → BitVec 32) (ix1 r) = (m ((c : Thread nD τ).loc main_arg11) : S1600000.Idx → BitVec 32) (ix1 r) :=
    fun r => congrFun ea (ix1 r)
  have et : Gen.V3 m outs c main_v4_0 = Gen.V2 m outs c main_v4_0 := Gen.V3_of m outs c main_v4_0 (by decide)
  have es : Gen.V3 m outs c main_arg11 = Gen.V2 m outs c main_arg11 := Gen.V3_of m outs c main_arg11 (by decide)
  refine (congrFun (takeQ (F := Ideal) (Gen.V3 m outs c)) (ix2 r j)).trans ?_
  rw [et, es]
  refine (takeOut_apply bcast_S_S1600000 bcast_S1600000_S1600000x1_0 bcast_S_S1600000x1 bcast_S1_S1x1_1
    bcast_S1x1_S1600000x1_0_1 reducesTo_S1600000x1_S1600000_d1 h_S_ bcast_S1600000_S1600000x64_0 bcast_S_S1600000x64 gather_S50000x64_S1600000x1_S1600000x64_1_0_n_n_0_1_164
    (Gen.V2 m outs c main_arg11 : S1600000.Idx → BitVec 32) (fun r => by rw [ev r]; exact hs r) rfl rfl rfl rfl rfl
    (Gen.V2 m outs c main_v4_0 : S50000x64.Idx → EReal) (constant (F := Ideal) S_ .f32 0x7FC00000#32) r j).trans ?_
  rw [ev r]
  rfl

end Program

end Cert.KV

end
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.HostTail.lean ====
/-
  The last lines of the program, after the edge stage, read at an index.

  Every edge r carries a row of 64 weighted values (column 8p + d is lane d of head p) and a row of 8 per-head weights.
  Laid side by side they are one row of 72 columns. Starting from zero, every edge's row is added to the node row its
  dst word names, the word read as a signed integer; an edge whose word names no node adds nothing. Entry (n, j) of
  the sums is therefore the sum over ALL edges of "column j of the edge's row if its dst word is n, else zero". The
  first 64 columns of the sums, regrouped as 8 heads of 8 lanes, are the numerators; column 64 + p plus the literal
  eps, repeated along the 8 lanes, is head p's denominator; the node result is the quotient:

      node(n, p, d) = (∑_{r : dst r = n} wv(r, 8p + d)) / ((∑_{r : dst r = n} w(r, p)) + eps).

  The edge result is the score array regrouped the same way: edge(r, p, d) = score(r, 8p + d).

  First the layout operations of these lines, each at an index over arbitrary extents (a column view of a vector, a
  last unit axis repeated, the two regroupings, the two halves of rows laid side by side). Then the sums and the
  quotient as functions of the dst words, the weighted values and the weights alone, read at an index. Last, the
  program's two final arrays are these functions of what the edge stage left.
-/
import proofs.«429990_j33088428049200_3_alg».proof.Proof.Gen.KernelIdeal.Regions
import proofs.«429990_j33088428049200_3_alg».proof.Proof.LibScatterRows
import proofs.«429990_j33088428049200_3_alg».proof.Proof.Spec
import Idealize.ShloMosaic.Lib.ValueLayout
import Idealize.ShloMosaic.Lib.IdealHost

set_option maxRecDepth 16384

noncomputable section

open scoped BigOperators

namespace Cert.KV

open Idealize.ShloMosaic Idealize.ShloMosaic.TcCoe Idealize.ShloMosaic.ValueIdx
open Cert.KernelIdeal Cert.KernelIdeal.Gen

/-! ## The layout operations of the tail, each read at an index -/

section Layout

variable {α : Type}

/-- A vector of K entries laid out as a K × 1 column reads, at (k, 0), entry k. -/
theorem column_apply {K : Nat} (h : (⟨1, ![K]⟩ : Shape).BroadcastsInDim ⟨2, ![K, 1]⟩ ![0])
    (v : (⟨1, ![K]⟩ : Shape).Idx → α) (k : Fin K) (z : Fin 1) :
    broadcastInDim ⟨2, ![K, 1]⟩ ![0] h v (ix2 k z) = v (ix1 k) :=
  broadcastInDim_apply _ h v _ _ (fun a => by
    match a with
    | ⟨0, _⟩ =>
      show k.val = if K = 1 then 0 else k.val
      have := k.isLt
      split
      · omega
      · rfl)

/-- An N × P × 1 array repeated along its last axis reads, at (n, p, d), the entry (n, p, 0). -/
theorem repeatLast_apply {N P D : Nat}
    (h : (⟨3, ![N, P, 1]⟩ : Shape).BroadcastsInDim ⟨3, ![N, P, D]⟩ ![0, 1, 2])
    (v : (⟨3, ![N, P, 1]⟩ : Shape).Idx → α) (n : Fin N) (p : Fin P) (d : Fin D) :
    broadcastInDim ⟨3, ![N, P, D]⟩ ![0, 1, 2] h v (ix3 n p d) = v (ix3 n p ⟨0, Nat.one_pos⟩) :=
  broadcastInDim_apply _ h v _ _ (fun a => by
    match a with
    | ⟨0, _⟩ =>
      show n.val = if N = 1 then 0 else n.val
      have := n.isLt
      split
      · omega
      · rfl
    | ⟨1, _⟩ =>
      show p.val = if P = 1 then 0 else p.val
      have := p.isLt
      split
      · omega
      · rfl
    | ⟨2, _⟩ =>
      show 0 = if 1 = 1 then 0 else d.val
      rfl)

/-- N rows of 64 columns regrouped as N × 8 × 8 read, at (n, p, d), column 8p + d of row n. -/
theorem heads_apply {N : Nat} (x : (⟨2, ![N, 64]⟩ : Shape).Idx → α)
    (h : (⟨2, ![N, 64]⟩ : Shape).ShapeCasts ⟨3, ![N, 8, 8]⟩) (n : Fin N) (p d : Fin 8) :
    shapeCast ⟨3, ![N, 8, 8]⟩ x h (ix3 n p d) = x (ix2 n (Cert.Spec.hd p d)) :=
  shapeCast_apply x h _ _ (by
    rw [Shape.rowMajor_val_two, Shape.rowMajor_val_three]
    show n.val * 64 + (8 * p.val + d.val) = (n.val * 8 + p.val) * 8 + d.val
    omega)

/-- N rows of 8 columns with a unit axis appended read, at (n, p, 0), column p of row n. -/
theorem unitLast_apply {N : Nat} (x : (⟨2, ![N, 8]⟩ : Shape).Idx → α)
    (h : (⟨2, ![N, 8]⟩ : Shape).ShapeCasts ⟨3, ![N, 8, 1]⟩) (n : Fin N) (p : Fin 8) (z : Fin 1) :
    shapeCast ⟨3, ![N, 8, 1]⟩ x h (ix3 n p z) = x (ix2 n p) :=
  shapeCast_apply x h _ _ (by
    rw [Shape.rowMajor_val_two, Shape.rowMajor_val_three]
    show n.val * 8 + p.val = (n.val * 8 + p.val) * 1 + z.val
    have := z.isLt
    omega)

/-- Rows of 64 and rows of 8 laid side by side: a column below 64 reads the first piece. -/
theorem beside_left {K : Nat} (a : (⟨2, ![K, 64]⟩ : Shape).Idx → α) (b : (⟨2, ![K, 8]⟩ : Shape).Idx → α)
    (h : Shape.Concatenates [(⟨2, ![K, 64]⟩ : Shape), ⟨2, ![K, 8]⟩] ⟨2, ![K, 72]⟩ 1) (k : Fin K) (j : Fin 64) :
    concatenate ⟨2, ![K, 72]⟩ 1 [⟨⟨2, ![K, 64]⟩, a⟩, ⟨⟨2, ![K, 8]⟩, b⟩] h (ix2 k ⟨j.val, by omega⟩) = a (ix2 k j) :=
  concatenate_pair_apply_left 1 a b h _ rfl _ (fun ax => by
    match ax with
    | ⟨0, _⟩ => rfl
    | ⟨1, _⟩ => rfl)

/-- … and column 64 + p reads column p of the second piece. -/
theorem beside_right {K : Nat} (a : (⟨2, ![K, 64]⟩ : Shape).Idx → α) (b : (⟨2, ![K, 8]⟩ : Shape).Idx → α)
    (h : Shape.Concatenates [(⟨2, ![K, 64]⟩ : Shape), ⟨2, ![K, 8]⟩] ⟨2, ![K, 72]⟩ 1) (k : Fin K) (p : Fin 8) :
    concatenate ⟨2, ![K, 72]⟩ 1 [⟨⟨2, ![K, 64]⟩, a⟩, ⟨⟨2, ![K, 8]⟩, b⟩] h (ix2 k ⟨64 + p.val, by omega⟩) = b (ix2 k p) :=
  concatenate_pair_apply_right 1 a b h _ rfl rfl _ (fun ax hne => by
    match ax with
    | ⟨0, _⟩ => rfl
    | ⟨1, _⟩ => exact absurd rfl hne) (by
    show p.val + 64 = 64 + p.val
    omega)

end Layout

/-! ## The sums into node rows -/

section Sums

variable (dst : S1600000.Idx → BitVec 32) (wv : S1600000x64.Idx → EReal) (s : S1600000x8.Idx → EReal)

/-- The weighted values (64 columns) and the weights (8 columns) of every edge laid side by side, and each of the 72
    columns summed into the node rows from zero: edge r adds its row to the row its dst word, read signed, names. -/
def nodeSums : S50000x72.Idx → EReal :=
  Host.scatterAdd (F := Ideal) (φ := .f32) scatter_S50000x72_S1600000x1_S1600000x72_1_0_0_1
    (broadcastInDim S50000x72 ![] bcast_S_S50000x72 (constant (F := Ideal) S_ .f32 0x00000000#32))
    (broadcastInDim S1600000x1 ![0] bcast_S1600000_S1600000x1_0 dst)
    (concatenate S1600000x72 1 [⟨S1600000x64, wv⟩, ⟨S1600000x8, s⟩] concatenates_S1600000x64_S1600000x8_S1600000x72_d1)

/-- The row scatter-add of the tail at an index, over any operand, indices and updates. -/
theorem tailScatter_apply (x : S50000x72.Idx → EReal) (idx : IVec S1600000x1 32) (upd : S1600000x72.Idx → EReal)
    (n : Fin 50000) (j : Fin 72) :
    Host.scatterAdd (F := Ideal) (φ := .f32) scatter_S50000x72_S1600000x1_S1600000x72_1_0_0_1 x idx upd (ix2 n j)
      = x (ix2 n j) + ∑ k : Fin 1600000, if (idx (ix2 k ⟨0, Nat.one_pos⟩)).toInt = (n.val : Int) then upd (ix2 k j) else 0 :=
  Cert.LibScatterRows.scatterAdd_rows_apply scatter_S50000x72_S1600000x1_S1600000x72_1_0_0_1 rfl rfl rfl rfl x idx upd n j

/-- Row n, column j of the sums: the sum over the edges whose dst word is n of column j of the edge's laid-out row. -/
theorem nodeSums_apply (n : Fin 50000) (j : Fin 72) :
    nodeSums dst wv s (ix2 n j)
      = ∑ r : Fin 1600000, if (dst (ix1 r)).toInt = (n.val : Int)
          then concatenate S1600000x72 1 [⟨S1600000x64, wv⟩, ⟨S1600000x8, s⟩]
            concatenates_S1600000x64_S1600000x8_S1600000x72_d1 (ix2 r j) else 0 := by
  unfold nodeSums
  rw [tailScatter_apply]
  rw [broadcastInDim_scalar_apply, constant_apply, Ideal.ofBits_zero_f32, zero_add]
  refine Finset.sum_congr rfl fun r _ => ?_
  rw [column_apply]

/-- A value column 8p + d of the sums: the weighted values of the edges into node n. -/
theorem nodeSums_value (n : Fin 50000) (p d : Fin 8) :
    nodeSums dst wv s (ix2 n ⟨(Cert.Spec.hd p d).val, by have := (Cert.Spec.hd p d).isLt; omega⟩)
      = ∑ r : Fin 1600000, if (dst (ix1 r)).toInt = (n.val : Int) then wv (ix2 r (Cert.Spec.hd p d)) else 0 := by
  rw [nodeSums_apply]
  refine Finset.sum_congr rfl fun r _ => ?_
  rw [beside_left]

/-- Column 64 + p of the sums: the weights of head p of the edges into node n. -/
theorem nodeSums_weight (n : Fin 50000) (p : Fin 8) :
    nodeSums dst wv s (ix2 n ⟨64 + p.val, by omega⟩)
      = ∑ r : Fin 1600000, if (dst (ix1 r)).toInt = (n.val : Int) then s (ix2 r p) else 0 := by
  rw [nodeSums_apply]
  refine Finset.sum_congr rfl fun r _ => ?_
  rw [beside_right]

/-- The node result: the first 64 columns of the sums regrouped by head, divided by the head's weight sum plus the
    literal eps. -/
def nodeTail : S50000x8x8.Idx → EReal :=
  Host.divf (F := Ideal)
    (shapeCast S50000x8x8
      (extractStridedSlice S50000x64 ![0, 0] (nodeSums dst wv s) slices_S50000x72_S50000x64_0_0)
      shapeCasts_S50000x64_S50000x8x8)
    (broadcastInDim S50000x8x8 ![0, 1, 2] bcast_S50000x8x1_S50000x8x8_0_1_2
      (addf
        (shapeCast S50000x8x1
          (extractStridedSlice S50000x8 ![0, 64] (nodeSums dst wv s) slices_S50000x72_S50000x8_0_64)
          shapeCasts_S50000x8_S50000x8x1)
        (broadcastInDim S50000x8x1 ![] bcast_S_S50000x8x1 (constant (F := Ideal) S_ .f32 0x358637BD#32))))

theorem nodeTail_apply (n : Fin 50000) (p d : Fin 8) :
    nodeTail dst wv s (ix3 n p d)
      = Ideal.div (∑ r : Fin 1600000, if (dst (ix1 r)).toInt = (n.val : Int) then wv (ix2 r (Cert.Spec.hd p d)) else 0)
          ((∑ r : Fin 1600000, if (dst (ix1 r)).toInt = (n.val : Int) then s (ix2 r p) else 0) + Cert.Spec.eps) := by
  have hv : extractStridedSlice S50000x64 ![0, 0] (nodeSums dst wv s) slices_S50000x72_S50000x64_0_0
        (ix2 n (Cert.Spec.hd p d))
      = ∑ r : Fin 1600000, if (dst (ix1 r)).toInt = (n.val : Int) then wv (ix2 r (Cert.Spec.hd p d)) else 0 :=
    (slice2_axis1_apply 0 _ slices_S50000x72_S50000x64_0_0 n (Cert.Spec.hd p d)
      ⟨(Cert.Spec.hd p d).val, by have := (Cert.Spec.hd p d).isLt; omega⟩ (Nat.zero_add _).symm).trans
      (nodeSums_value dst wv s n p d)
  have hw : extractStridedSlice S50000x8 ![0, 64] (nodeSums dst wv s) slices_S50000x72_S50000x8_0_64 (ix2 n p)
      = ∑ r : Fin 1600000, if (dst (ix1 r)).toInt = (n.val : Int) then s (ix2 r p) else 0 :=
    (slice2_axis1_apply 64 _ slices_S50000x72_S50000x8_0_64 n p ⟨64 + p.val, by omega⟩ rfl).trans
      (nodeSums_weight dst wv s n p)
  unfold nodeTail Cert.Spec.eps
  rw [hostDivf_apply, heads_apply, repeatLast_apply, addf_apply, unitLast_apply, broadcastInDim_scalar_apply,
    constant_apply, hv, hw]

end Sums

/-! ## The two results of the program -/

section Results

variable (m : (ℓ : Loc nD τ sig) → Buf (Elt Ideal) ℓ) (outs : Gen.Outs (F := Ideal)) (c : Dev nD)

/-- The dst words of the edges: the launch contents of the last argument. -/
abbrev tailDst : S1600000.Idx → BitVec 32 := m ((c : Thread nD τ).loc main_arg11)
/-- What the edge stage left: the weighted values, the per-head weights and the scores of every edge. -/
abbrev tailWV : S1600000x64.Idx → EReal := Gen.V5 m outs c main_v7_1
abbrev tailW : S1600000x8.Idx → EReal := Gen.V5 m outs c main_v7_2
abbrev tailScore : S1600000x64.Idx → EReal := Gen.V5 m outs c main_v7_0

/-- No line before the tail writes the dst words: they are the launch contents. -/
theorem dst_launch : Gen.V5 m outs c main_arg11 = m ((c : Thread nD τ).loc main_arg11) :=
  (V5_of m outs c main_arg11 (by decide)).trans <| (V4_of m outs c main_arg11 (by decide)).trans <|
    (V3_of m outs c main_arg11 (by decide)).trans <| (V2_of m outs c main_arg11 (by decide)).trans <|
    (V1_of m c main_arg11 (by decide)).trans rfl

/-- The node result is the tail over the dst words as the tail's lines find them and the weighted values and weights
    the edge stage left. -/
theorem out19_eq' :
    (Gen.V6 m outs c main_v19 : S50000x8x8.Idx → EReal)
      = nodeTail (Gen.V5 m outs c main_arg11 : S1600000.Idx → BitVec 32) (tailWV m outs c) (tailW m outs c) := by
  show StableHlo.after Gen.hostOps2 _ (Proc.devRef .tc main_v19) = _
  after_results
  unfold nodeTail nodeSums
  rfl

/-- … and the dst words are the launch contents. -/
theorem out19_eq :
    (Gen.V6 m outs c main_v19 : S50000x8x8.Idx → EReal)
      = nodeTail (tailDst m c) (tailWV m outs c) (tailW m outs c) :=
  (out19_eq' m outs c).trans
    (congrArg (fun x : S1600000.Idx → BitVec 32 => nodeTail x (tailWV m outs c) (tailW m outs c)) (dst_launch m outs c))

/-- The node result at (n, p, d): the weighted values of column 8p + d summed over the edges whose dst word is n,
    divided by the weights of head p summed over the same edges plus eps. -/
theorem out19_apply (n : Fin 50000) (p d : Fin 8) :
    (Gen.V6 m outs c main_v19 : S50000x8x8.Idx → EReal) (ix3 n p d)
      = Ideal.div
          (∑ r : Fin 1600000, if (tailDst m c (ix1 r)).toInt = (n.val : Int)
            then tailWV m outs c (ix2 r (Cert.Spec.hd p d)) else 0)
          ((∑ r : Fin 1600000, if (tailDst m c (ix1 r)).toInt = (n.val : Int)
            then tailW m outs c (ix2 r p) else 0) + Cert.Spec.eps) :=
  (congrFun (out19_eq m outs c) (ix3 n p d)).trans
    (nodeTail_apply (tailDst m c) (tailWV m outs c) (tailW m outs c) n p d)

/-- The edge result is the score array regrouped by head: at (r, p, d) it reads column 8p + d of row r. -/
theorem out20_apply (r : Fin 1600000) (p d : Fin 8) :
    (Gen.V6 m outs c main_v20 : S1600000x8x8.Idx → EReal) (ix3 r p d)
      = tailScore m outs c (ix2 r (Cert.Spec.hd p d)) := by
  have e : (Gen.V6 m outs c main_v20 : S1600000x8x8.Idx → EReal)
      = shapeCast S1600000x8x8 (tailScore m outs c) shapeCasts_S1600000x64_S1600000x8x8 := by
    show StableHlo.after Gen.hostOps2 _ (Proc.devRef .tc main_v20) = _
    after_results
    rfl
  rw [e, heads_apply]

end Results

end Cert.KV

end
-- ==== Proof.Bridge.lean ====
/-
  THE KERNEL'S TWO RESULTS ARE THE SPECIFICATION'S TWO ARRAYS.

  The program runs in five stages. A first host stretch fuses the three node weights into one 64×192 matrix
  [Wq | Wk | Wv] and the three biases into one 1×192 row, reshapes the edge bias, and writes the two head
  indicators (64×8 and its transpose). The first grid region forms h · [Wq | Wk | Wv] + bias and leaves columns
  0…63 in the Q array and columns 64…191 in the K|V array. Two host stretches gather, for every edge, the K|V row
  of its src node and the Q row of its dst node (the endpoint word clamped into the table; under the range
  hypothesis the clamp is the word itself). The second grid region forms, per edge, the score
  ((k · q) · c) · (e · We + be), the per-head weight exp(clip(score · indicator)) and the weighted value
  v · (weight · indicatorᵀ). The last host stretch sums weighted values and weights into each node over the edges
  whose dst word is that node, divides, and reshapes the score.

  Each stage is read at an index in its own module; here the five readings are composed. Column block by column
  block the fused weight and bias are Wq, Wk, Wv and bq, bk, bv, so the Q array at (n, j) is lin h Wq bq n j and
  the K|V array at (n, j) is lin h Wk bk n j for j < 64 and lin h Wv bv n (j − 64) above. Summing a row of scores
  against the head indicator adds up the 8 lanes of a head; summing the 8 head weights against the transposed
  indicator at column 8p + d picks head p. With these the second region's three arrays are the specification's
  score, weight and weighted value entry by entry, and the last stretch's two results are the specification's
  node and edge outputs, the node sums matching term by term.
-/
import proofs.«429990_j33088428049200_3_alg».proof.Proof.Spec
import proofs.«429990_j33088428049200_3_alg».proof.Proof.HeadSums
import proofs.«429990_j33088428049200_3_alg».proof.Proof.Run
import proofs.«429990_j33088428049200_3_alg».proof.Proof.HostPre
import proofs.«429990_j33088428049200_3_alg».proof.Proof.Region0Value
import proofs.«429990_j33088428049200_3_alg».proof.Proof.Region1Value
import proofs.«429990_j33088428049200_3_alg».proof.Proof.HostTake
import proofs.«429990_j33088428049200_3_alg».proof.Proof.HostTail

noncomputable section

open scoped BigOperators

namespace Cert.KV
open Idealize.ShloMosaic
/-- An array of extended reals over a literal shape, named at that type so that its entries add and multiply. -/
abbrev asArr (S : Shape) (x : S.Idx → EReal) : S.Idx → EReal := x
end Cert.KV

namespace Cert.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec

variable (m : (ℓ : Loc nD τ sig) → Buf (Elt Ideal) ℓ) (c : Dev nD)

/-- The twelve launch arrays of core c, in the order h, e, Wq, bq, Wk, bk, Wv, bv, We, be, src, dst. -/
def argsOf : Cert.Spec.Args where
  h := m ((c : Thread nD τ).loc main_arg0)
  e := m ((c : Thread nD τ).loc main_arg1)
  Wq := m ((c : Thread nD τ).loc main_arg2)
  bq := m ((c : Thread nD τ).loc main_arg3)
  Wk := m ((c : Thread nD τ).loc main_arg4)
  bk := m ((c : Thread nD τ).loc main_arg5)
  Wv := m ((c : Thread nD τ).loc main_arg6)
  bv := m ((c : Thread nD τ).loc main_arg7)
  We := m ((c : Thread nD τ).loc main_arg8)
  be := m ((c : Thread nD τ).loc main_arg9)
  src := m ((c : Thread nD τ).loc main_arg10)
  dst := m ((c : Thread nD τ).loc main_arg11)

/-! ## Arrays that reach the edge stage as launched, or as the first host stretch left them -/

theorem v1_arg0 : Gen.V1 m c main_arg0 = (argsOf m c).h := Gen.V1_of m c main_arg0 (by decide)
theorem v4_arg1 (outs : Gen.Outs (F := Ideal)) : Gen.V4 m outs c main_arg1 = (argsOf m c).e :=
  (Gen.V4_of m outs c main_arg1 (by decide)).trans <| (Gen.V3_of m outs c main_arg1 (by decide)).trans <|
    (Gen.V2_of m outs c main_arg1 (by decide)).trans <| Gen.V1_of m c main_arg1 (by decide)
theorem v4_arg8 (outs : Gen.Outs (F := Ideal)) : Gen.V4 m outs c main_arg8 = (argsOf m c).We :=
  (Gen.V4_of m outs c main_arg8 (by decide)).trans <| (Gen.V3_of m outs c main_arg8 (by decide)).trans <|
    (Gen.V2_of m outs c main_arg8 (by decide)).trans <| Gen.V1_of m c main_arg8 (by decide)
theorem v4_v3 (outs : Gen.Outs (F := Ideal)) : Gen.V4 m outs c main_v3 = Gen.V1 m c main_v3 :=
  (Gen.V4_of m outs c main_v3 (by decide)).trans <| (Gen.V3_of m outs c main_v3 (by decide)).trans <|
    Gen.V2_of m outs c main_v3 (by decide)
theorem v4_cst (outs : Gen.Outs (F := Ideal)) : Gen.V4 m outs c main_cst = Gen.V1 m c main_cst :=
  (Gen.V4_of m outs c main_cst (by decide)).trans <| (Gen.V3_of m outs c main_cst (by decide)).trans <|
    Gen.V2_of m outs c main_cst (by decide)
theorem v4_cst_0 (outs : Gen.Outs (F := Ideal)) : Gen.V4 m outs c main_cst_0 = Gen.V1 m c main_cst_0 :=
  (Gen.V4_of m outs c main_cst_0 (by decide)).trans <| (Gen.V3_of m outs c main_cst_0 (by decide)).trans <|
    Gen.V2_of m outs c main_cst_0 (by decide)

/-! ## The fused weight and bias, column block by column block -/

/-- Columns 0…63 of the fused weight are Wq. -/
theorem wcol_q (k j : Fin 64) :
    asArr S64x192 (Gen.V1 m c main_v0) (ix2 k ⟨j.val, by omega⟩) = (argsOf m c).Wq (ix2 k j) := by
  refine (wqkv_apply m c k ⟨j.val, by omega⟩).trans ?_
  exact dif_pos j.isLt
/-- Columns 64…127 of the fused weight are Wk. -/
theorem wcol_k (k j : Fin 64) :
    asArr S64x192 (Gen.V1 m c main_v0) (ix2 k ⟨64 + j.val, by omega⟩) = (argsOf m c).Wk (ix2 k j) := by
  refine (wqkv_apply m c k ⟨64 + j.val, by omega⟩).trans ?_
  rw [dif_neg (Nat.not_lt.2 (Nat.le_add_right 64 j.val)), dif_pos (show 64 + j.val < 128 by omega)]
  exact congrArg (fun x : Fin 64 => (argsOf m c).Wk (ix2 k x)) (Fin.ext (Nat.add_sub_cancel_left 64 j.val))
/-- Columns 128…191 of the fused weight are Wv. -/
theorem wcol_v (k j : Fin 64) :
    asArr S64x192 (Gen.V1 m c main_v0) (ix2 k ⟨64 + (64 + j.val), by omega⟩) = (argsOf m c).Wv (ix2 k j) := by
  refine (wqkv_apply m c k ⟨64 + (64 + j.val), by omega⟩).trans ?_
  rw [dif_neg (show ¬ 64 + (64 + j.val) < 64 by omega), dif_neg (show ¬ 64 + (64 + j.val) < 128 by omega)]
  exact congrArg (fun x : Fin 64 => (argsOf m c).Wv (ix2 k x)) (Fin.ext (show 64 + (64 + j.val) - 128 = j.val by omega))
theorem bcol_q (j : Fin 64) :
    asArr S1x192 (Gen.V1 m c main_v2) (ix2 (0 : Fin 1) ⟨j.val, by omega⟩) = (argsOf m c).bq (ix1 j) := by
  refine (bqkv_apply m c ⟨j.val, by omega⟩).trans ?_
  exact dif_pos j.isLt
theorem bcol_k (j : Fin 64) :
    asArr S1x192 (Gen.V1 m c main_v2) (ix2 (0 : Fin 1) ⟨64 + j.val, by omega⟩) = (argsOf m c).bk (ix1 j) := by
  refine (bqkv_apply m c ⟨64 + j.val, by omega⟩).trans ?_
  rw [dif_neg (Nat.not_lt.2 (Nat.le_add_right 64 j.val)), dif_pos (show 64 + j.val < 128 by omega)]
  exact congrArg (fun x : Fin 64 => (argsOf m c).bk (ix1 x)) (Fin.ext (Nat.add_sub_cancel_left 64 j.val))
theorem bcol_v (j : Fin 64) :
    asArr S1x192 (Gen.V1 m c main_v2) (ix2 (0 : Fin 1) ⟨64 + (64 + j.val), by omega⟩) = (argsOf m c).bv (ix1 j) := by
  refine (bqkv_apply m c ⟨64 + (64 + j.val), by omega⟩).trans ?_
  rw [dif_neg (show ¬ 64 + (64 + j.val) < 64 by omega), dif_neg (show ¬ 64 + (64 + j.val) < 128 by omega)]
  exact congrArg (fun x : Fin 64 => (argsOf m c).bv (ix1 x)) (Fin.ext (show 64 + (64 + j.val) - 128 = j.val by omega))

/-! ## The node projections, as the first region leaves them -/

/-- Row n of the features against column j' of the fused weight, plus the fused bias. -/
def proj (n : Fin 50000) (j' : Fin 192) : EReal :=
  (∑ k : Fin 64, asArr S50000x64 (Gen.V1 m c main_arg0) (ix2 n k) * asArr S64x192 (Gen.V1 m c main_v0) (ix2 k j'))
    + asArr S1x192 (Gen.V1 m c main_v2) (ix2 (0 : Fin 1) j')

theorem proj_q (n : Fin 50000) (j : Fin 64) :
    proj m c n ⟨j.val, by omega⟩ = lin (argsOf m c).h (argsOf m c).Wq (argsOf m c).bq n j := by
  unfold proj
  rw [v1_arg0 m c, bcol_q m c j]
  exact congrArg (· + (argsOf m c).bq (ix1 j)) (Finset.sum_congr rfl fun k _ => by rw [wcol_q m c k j])
theorem proj_k (n : Fin 50000) (j : Fin 64) :
    proj m c n ⟨64 + j.val, by omega⟩ = lin (argsOf m c).h (argsOf m c).Wk (argsOf m c).bk n j := by
  unfold proj
  rw [v1_arg0 m c, bcol_k m c j]
  exact congrArg (· + (argsOf m c).bk (ix1 j)) (Finset.sum_congr rfl fun k _ => by rw [wcol_k m c k j])
theorem proj_v (n : Fin 50000) (j : Fin 64) :
    proj m c n ⟨64 + (64 + j.val), by omega⟩ = lin (argsOf m c).h (argsOf m c).Wv (argsOf m c).bv n j := by
  unfold proj
  rw [v1_arg0 m c, bcol_v m c j]
  exact congrArg (· + (argsOf m c).bv (ix1 j)) (Finset.sum_congr rfl fun k _ => by rw [wcol_v m c k j])

/-- The Q array at (n, j). -/
theorem qArr_at (n : Fin 50000) (j : Fin 64) :
    asArr S50000x64 (Gen.V2 m (outsH m) c main_v4_0) (ix2 n j) = proj m c n ⟨j.val, by omega⟩ :=
  (congrFun (outsH_v4_0 m c) (ix2 n j)).trans (qArr_apply (fun c b => Gen.V1 m c b) c n j)
/-- The K|V array at (n, j'). -/
theorem kvArr_at (n : Fin 50000) (j' : Fin 128) :
    asArr S50000x128 (Gen.V2 m (outsH m) c main_v4_1) (ix2 n j') = proj m c n ⟨64 + j'.val, by omega⟩ :=
  (congrFun (outsH_v4_1 m c) (ix2 n j')).trans (kvArr_apply (fun c b => Gen.V1 m c b) c n j')

/-! ## The gathered rows -/

section
variable (hA : Cert.Spec.InRange (argsOf m c))
include hA

theorem kG (r : Fin 1600000) (j : Fin 64) :
    asArr S1600000x128 (Gen.V4 m (outsH m) c main_v5) (ix2 r ⟨j.val, by omega⟩)
      = lin (argsOf m c).h (argsOf m c).Wk (argsOf m c).bk (srcRow (argsOf m c) r) j :=
  (kvg_apply m (outsH m) c hA.1 r ⟨j.val, by omega⟩).trans <|
    (kvArr_at m c (srcRow (argsOf m c) r) ⟨j.val, by omega⟩).trans (proj_k m c _ j)
theorem vG (r : Fin 1600000) (j : Fin 64) :
    asArr S1600000x128 (Gen.V4 m (outsH m) c main_v5) (ix2 r ⟨64 + j.val, by omega⟩)
      = lin (argsOf m c).h (argsOf m c).Wv (argsOf m c).bv (srcRow (argsOf m c) r) j :=
  (kvg_apply m (outsH m) c hA.1 r ⟨64 + j.val, by omega⟩).trans <|
    (kvArr_at m c (srcRow (argsOf m c) r) ⟨64 + j.val, by omega⟩).trans (proj_v m c _ j)
theorem qG (r : Fin 1600000) (j : Fin 64) :
    asArr S1600000x64 (Gen.V4 m (outsH m) c main_v6) (ix2 r j)
      = lin (argsOf m c).h (argsOf m c).Wq (argsOf m c).bq (dstRow (argsOf m c) r) j :=
  (qg_apply m (outsH m) c hA.2 r j).trans <| (qArr_at m c (dstRow (argsOf m c) r) j).trans (proj_q m c _ j)

end

/-! ## The second region's arithmetic, over the arrays it finds -/

/-- The score the second region forms at edge r, column j. -/
def scK (r : Fin 1600000) (j : Fin 64) : EReal :=
  ((asArr S1600000x128 (Gen.V4 m (outsH m) c main_v5) (ix2 r ⟨j.val, by omega⟩) * asArr S1600000x64 (Gen.V4 m (outsH m) c main_v6) (ix2 r j)) * cS)
    * ((∑ k : Fin 64, asArr S1600000x64 (Gen.V4 m (outsH m) c main_arg1) (ix2 r k) * asArr S64x64 (Gen.V4 m (outsH m) c main_arg8) (ix2 k j))
        + asArr S1x64 (Gen.V4 m (outsH m) c main_v3) (ix2 (0 : Fin 1) j))
/-- The per-head weight it forms. -/
def swK (r : Fin 1600000) (p : Fin 8) : EReal :=
  Ideal.exp (min hi (max lo (∑ j : Fin 64, scK m c r j * asArr S64x8 (Gen.V4 m (outsH m) c main_cst) (ix2 j p))))
/-- The weighted value it forms. -/
def wvK (r : Fin 1600000) (j : Fin 64) : EReal :=
  asArr S1600000x128 (Gen.V4 m (outsH m) c main_v5) (ix2 r ⟨64 + j.val, by omega⟩)
    * (∑ p : Fin 8, swK m c r p * asArr S8x64 (Gen.V4 m (outsH m) c main_cst_0) (ix2 p j))

theorem v70_at (r : Fin 1600000) (j : Fin 64) :
    asArr S1600000x64 (Gen.V5 m (outsH m) c main_v7_0) (ix2 r j) = scK m c r j :=
  (congrFun (outsH_v7_0 m c) (ix2 r j)).trans (scoreArr_apply (fun c b => Gen.V4 m (outsH m) c b) c r j)
theorem v72_at (r : Fin 1600000) (p : Fin 8) :
    asArr S1600000x8 (Gen.V5 m (outsH m) c main_v7_2) (ix2 r p) = swK m c r p :=
  (congrFun (outsH_v7_2 m c) (ix2 r p)).trans (weightArr_apply (fun c b => Gen.V4 m (outsH m) c b) c r p)
theorem v71_at (r : Fin 1600000) (j : Fin 64) :
    asArr S1600000x64 (Gen.V5 m (outsH m) c main_v7_1) (ix2 r j) = wvK m c r j :=
  (congrFun (outsH_v7_1 m c) (ix2 r j)).trans (wvalArr_apply (fun c b => Gen.V4 m (outsH m) c b) c r j)

section
variable (hA : Cert.Spec.InRange (argsOf m c))
include hA

/-- The edge projection the second region forms is the specification's. -/
theorem scK_eq (r : Fin 1600000) (j : Fin 64) : scK m c r j = score (argsOf m c) r j := by
  unfold scK score
  rw [kG m c hA r j, qG m c hA r j, v4_arg1 m c, v4_arg8 m c, v4_v3 m c]
  refine congrArg (fun x => ((lin (argsOf m c).h (argsOf m c).Wk (argsOf m c).bk (srcRow (argsOf m c) r) j
      * lin (argsOf m c).h (argsOf m c).Wq (argsOf m c).bq (dstRow (argsOf m c) r) j) * cS) * x) ?_
  unfold lin
  exact congrArg (fun x => (∑ k : Fin 64, (argsOf m c).e (ix2 r k) * (argsOf m c).We (ix2 k j)) + x) (be2_apply m c j)

theorem swK_eq (r : Fin 1600000) (p : Fin 8) : swK m c r p = weight (argsOf m c) r p := by
  unfold swK weight
  refine congrArg (fun x => Ideal.exp (min hi (max lo x))) ?_
  refine Eq.trans (Finset.sum_congr rfl fun j _ => ?_) (Cert.HeadSums.sum_head (fun j => score (argsOf m c) r j) p)
  rw [scK_eq m c hA r j, v4_cst m c]
  exact congrArg (fun x => score (argsOf m c) r j * x) (msum_apply m c j p)

theorem wvK_eq (r : Fin 1600000) (p d : Fin 8) : wvK m c r (hd p d) = wvalue (argsOf m c) r p d := by
  unfold wvK wvalue
  rw [vG m c hA r (hd p d)]
  refine congrArg (fun x => lin (argsOf m c).h (argsOf m c).Wv (argsOf m c).bv (srcRow (argsOf m c) r) (hd p d) * x) ?_
  refine Eq.trans (Finset.sum_congr rfl fun p' _ => ?_)
    ((Cert.HeadSums.sum_expand (fun p' => weight (argsOf m c) r p') (hd p d)).trans
      (congrArg (weight (argsOf m c) r) (Fin.ext (Cert.HeadSums.hd_div p d))))
  rw [swK_eq m c hA r p', v4_cst_0 m c]
  exact congrArg (fun x => weight (argsOf m c) r p' * x) (mexp_apply m c p' (hd p d))

/-! ## The two results -/

theorem edge_at (r : Fin 1600000) (p d : Fin 8) :
    asArr S1600000x8x8 (Gen.V6 m (outsH m) c main_v20) (ix3 r p d) = edgeOutArr (argsOf m c) (ix3 r p d) :=
  (out20_apply m (outsH m) c r p d).trans <| (v70_at m c r (hd p d)).trans (scK_eq m c hA r (hd p d))

theorem node_at (n : Fin 50000) (p d : Fin 8) :
    asArr S50000x8x8 (Gen.V6 m (outsH m) c main_v19) (ix3 n p d) = nodeOutArr (argsOf m c) (ix3 n p d) := by
  refine (out19_apply m (outsH m) c n p d).trans ?_
  show Ideal.div (∑ r : Fin 1600000, if ((argsOf m c).dst (ix1 r)).toInt = (n.val : Int)
          then asArr S1600000x64 (Gen.V5 m (outsH m) c main_v7_1) (ix2 r (hd p d)) else 0)
        ((∑ r : Fin 1600000, if ((argsOf m c).dst (ix1 r)).toInt = (n.val : Int)
          then asArr S1600000x8 (Gen.V5 m (outsH m) c main_v7_2) (ix2 r p) else 0) + eps)
      = Ideal.div (intoNode (argsOf m c) n fun r => wvalue (argsOf m c) r p d) (intoNode (argsOf m c) n (fun r => weight (argsOf m c) r p) + eps)
  unfold intoNode
  have e1 : ∀ r : Fin 1600000, asArr S1600000x64 (Gen.V5 m (outsH m) c main_v7_1) (ix2 r (hd p d)) = wvalue (argsOf m c) r p d :=
    fun r => (v71_at m c r (hd p d)).trans (wvK_eq m c hA r p d)
  have e2 : ∀ r : Fin 1600000, asArr S1600000x8 (Gen.V5 m (outsH m) c main_v7_2) (ix2 r p) = weight (argsOf m c) r p :=
    fun r => (v72_at m c r p).trans (swK_eq m c hA r p)
  exact congrArg₂ (fun x y => Ideal.div x (y + eps))
    (Finset.sum_congr rfl fun r _ => by rw [e1 r])
    (Finset.sum_congr rfl fun r _ => by rw [e2 r])

/-- The kernel's edge result is the specification's edge array. -/
theorem kernel_edge : (Gen.V6 m (outsH m) c main_v20 : S1600000x8x8.Idx → EReal) = Cert.Spec.edgeOutArr (argsOf m c) := by
  funext i
  obtain ⟨r, p, d, rfl⟩ : ∃ (r : Fin 1600000) (p d : Fin 8), i = ix3 r p d := ⟨i 0, i 1, i 2, eq_ix3 i⟩
  exact edge_at m c hA r p d

/-- The kernel's node result is the specification's node array. -/
theorem kernel_node : (Gen.V6 m (outsH m) c main_v19 : S50000x8x8.Idx → EReal) = Cert.Spec.nodeOutArr (argsOf m c) := by
  funext i
  obtain ⟨n, p, d, rfl⟩ : ∃ (n : Fin 50000) (p d : Fin 8), i = ix3 n p d := ⟨i 0, i 1, i 2, eq_ix3 i⟩
  exact node_at m c hA n p d

end

end Cert.KV

end
-- ==== Proof.LibSlab.lean ====
/-
  A gather of whole slabs of a rank-3 table, and a scatter-add of slabs along the first axis of a rank-3 operand,
  each read at an index.

  GATHER. `table[ids]` over a table `[N, A, B]` at start indices `[R, 1]`: the one collapsed and start-indexed operand
  axis is the first (collapsed_slice_dims `[0]`, start_index_map `[0]`), the result's last two axes are its offset
  axes (offset_dims `[1, 2]`) and the index vector lies on the start indices' last axis, of extent one. Result element
  `(r, a, b)` is the table's at `(row, a, b)`, `row` the start index `idx[r, 0]` read as a signed integer and clamped
  into `[0, N − 1]` (`gather_slab`).

  SCATTER-ADD. What a segment sum of rank-3 data lowers to for an operand `[N, A, B]`, `K` indices and updates
  `[K, A, B]`: a scatter with an `add` body and update_window_dims `[1, 2]`, inserted_window_dims `[0]`,
  scatter_dims_to_operand_dims `[0]`, index_vector_dim `1` over the indices as `[K, 1]`. Update element `(k, a, b)`
  lands at operand element `(idx[k, 0], a, b)`, the index read as a SIGNED integer and not clamped: an update whose
  index is outside `[0, N)` is dropped. So the result at `(n, a, b)` is the operand there plus the sum of the updates
  `(k, a, b)` over the `k` whose index is `n` (`scatterAdd_slab_apply`).

  Both are stated for an ARBITRARY record of dimension numbers whose lists are the ones above (each hypothesis holds
  by `rfl` on a written record), every extent a variable. `sum_idx3` splits a sum over a rank-3 index set into the
  triple sum over its coordinates; `slabDims` is the scatter record with its conditions as a variable; `start_*` /
  `window_*` compute the window's start and the window coordinate on the operand's three axes; `resultIdx?_slab` says
  where an update lands.
-/
import Idealize.ShloMosaic.Lib.ValueIdx
import proofs.«429990_j33088428049200_3_alg».proof.Proof.LibGatherRow

noncomputable section

open scoped BigOperators

namespace Cert.LibSlab

open Idealize.ShloMosaic Idealize.ShloMosaic.ValueIdx

/-! ## The slab gather -/

/-- Start indices `[R, 1]`, result `[R, A, B]`: element `(r, a, b)` is the table's at the row `idx[r, 0]` selects, at
    `(a, b)` within the row's slab. -/
theorem gather_slab {α : Type} {N A B R w : Nat} (hN : 0 < N)
    (d : GatherDims ⟨3, ![N, A, B]⟩ ⟨2, ![R, 1]⟩ ⟨3, ![R, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![R, 1]⟩ w) (r : Fin R) (a : Fin A) (b : Fin B) :
    Host.gather d x idx (ix3 r a b) = x (ix3 (Cert.LibGatherRow.clampRow N hN (idx (ix2 r 0))) a b) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext q
  refine Fin.ext ?_
  match q with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 r 0)).toInt.toNat (N - 1)
    rw [hsl]
    -- the start index is read at the result's one batch coordinate, component 0
    refine congrArg (fun v => min (idx v).toInt.toNat (N - 1)) ?_
    funext p
    refine Fin.ext ?_
    match p with
    | ⟨0, _⟩ => rfl
    | ⟨1, _⟩ => rfl
  | ⟨1, _⟩ =>
    -- the slab's first axis: neither collapsed nor start-indexed, so the coordinate is the result's first offset coordinate
    show GatherDims.start _ _ idx 1 + GatherDims.batchCoord _ _ 1 + GatherDims.offCoord _ _ 1 = a.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl
  | ⟨2, _⟩ =>
    -- the slab's second axis: the result's second offset coordinate
    show GatherDims.start _ _ idx 2 + GatherDims.batchCoord _ _ 2 + GatherDims.offCoord _ _ 2 = b.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The slab scatter-add -/

/-- The dimension numbers of a slab scatter for an operand `[N, A, B]`, scatter indices `[K, 1]` and updates
    `[K, A, B]`, over any evidence `wf` of their conditions. -/
abbrev slabDims (N A B K : Nat) (wf : ScatterDims.WF ⟨3, ![N, A, B]⟩ ⟨2, ![K, 1]⟩ ⟨3, ![K, A, B]⟩ [1, 2] [0] [0] 1) :
    ScatterDims ⟨3, ![N, A, B]⟩ ⟨2, ![K, 1]⟩ ⟨3, ![K, A, B]⟩ where
  updateWindowDims := [1, 2]
  insertedWindowDims := [0]
  scatterDimsToOperandDims := [0]
  indexVectorDim := 1
  wf := wf

section Slab

variable {N A B K w : Nat} (wf : ScatterDims.WF ⟨3, ![N, A, B]⟩ ⟨2, ![K, 1]⟩ ⟨3, ![K, A, B]⟩ [1, 2] [0] [0] 1)

/-- On the first axis the window of update `(k, a, b)` starts at the `k`-th scatter index, read signed. -/
theorem start_row (idx : IVec ⟨2, ![K, 1]⟩ w) (k : Fin K) (a : Fin A) (b : Fin B) :
    (slabDims N A B K wf).start (ix3 k a b) idx 0 = (idx (ix2 k ⟨0, Nat.one_pos⟩)).toInt := by
  unfold ScatterDims.start
  rw [dif_pos (show (0 : Fin 3) ∈ (slabDims N A B K wf).scatterDimsToOperandDims from List.mem_singleton.mpr rfl)]
  congr 2
  funext p; refine Fin.ext ?_
  match p with
  | ⟨0, _⟩ => rfl
  | ⟨1, _⟩ => rfl

/-- The slab's first axis is not a scattered axis: the window starts at 0 there. -/
theorem start_fst (idx : IVec ⟨2, ![K, 1]⟩ w) (j : (⟨3, ![K, A, B]⟩ : Shape).Idx) :
    (slabDims N A B K wf).start j idx 1 = 0 := by
  unfold ScatterDims.start
  rw [dif_neg (show ¬ (1 : Fin 3) ∈ ([0] : List (Fin 3)) from by decide)]

/-- The slab's second axis is not a scattered axis either: the window starts at 0 there. -/
theorem start_snd (idx : IVec ⟨2, ![K, 1]⟩ w) (j : (⟨3, ![K, A, B]⟩ : Shape).Idx) :
    (slabDims N A B K wf).start j idx 2 = 0 := by
  unfold ScatterDims.start
  rw [dif_neg (show ¬ (2 : Fin 3) ∈ ([0] : List (Fin 3)) from by decide)]

/-- The first axis is inserted: its window coordinate is 0. -/
theorem window_row (j : (⟨3, ![K, A, B]⟩ : Shape).Idx) : (slabDims N A B K wf).window j 0 = 0 := by
  unfold ScatterDims.window
  have h : ¬ (0 : Fin 3) ∈ (slabDims N A B K wf).sKept := by
    show ¬ (0 : Fin 3) ∈ (List.finRange 3).filter (· ∉ ([0] : List (Fin 3)))
    decide
  rw [dif_neg h]

/-- The slab's first axis is the updates' first window axis: the window coordinate of update `(k, a, b)` is `a`. -/
theorem window_fst (k : Fin K) (a : Fin A) (b : Fin B) : (slabDims N A B K wf).window (ix3 k a b) 1 = a.val := by
  unfold ScatterDims.window
  have h : (1 : Fin 3) ∈ (slabDims N A B K wf).sKept := by
    show (1 : Fin 3) ∈ (List.finRange 3).filter (· ∉ ([0] : List (Fin 3)))
    decide
  rw [dif_pos h]
  rfl

/-- The slab's second axis is the updates' second window axis: the window coordinate of update `(k, a, b)` is `b`. -/
theorem window_snd (k : Fin K) (a : Fin A) (b : Fin B) : (slabDims N A B K wf).window (ix3 k a b) 2 = b.val := by
  unfold ScatterDims.window
  have h : (2 : Fin 3) ∈ (slabDims N A B K wf).sKept := by
    show (2 : Fin 3) ∈ (List.finRange 3).filter (· ∉ ([0] : List (Fin 3)))
    decide
  rw [dif_pos h]
  rfl

/-- WHERE AN UPDATE LANDS: update `(k, a', b')` lands at `(n, a, b)` exactly when the `k`-th scatter index, read signed,
    is `n`, `a' = a` and `b' = b`. -/
theorem resultIdx?_slab (idx : IVec ⟨2, ![K, 1]⟩ w) (k : Fin K) (a' : Fin A) (b' : Fin B) (n : Fin N) (a : Fin A) (b : Fin B) :
    (slabDims N A B K wf).resultIdx? (ix3 k a' b') idx = some (ix3 n a b) ↔
      (idx (ix2 k ⟨0, Nat.one_pos⟩)).toInt = (n.val : Int) ∧ a' = a ∧ b' = b := by
  have ha' : a'.val < A := a'.isLt
  have hb' : b'.val < B := b'.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have h2 := congrArg Fin.val (congrFun hf 2)
      have hh0 := (hh 0).1
      simp only [start_row, start_fst, start_snd, window_row, window_fst, window_snd] at h0 h1 h2 hh0
      refine ⟨?_, Fin.ext ?_, Fin.ext ?_⟩
      · change ((idx (ix2 k ⟨0, Nat.one_pos⟩)).toInt + ((0 : Nat) : Int)).toNat = n.val at h0
        omega
      · change (0 + (a'.val : Int)).toNat = a.val at h1
        omega
      · change (0 + (b'.val : Int)).toNat = b.val at h2
        omega
    · exact absurd h (by simp)
  · rintro ⟨hi, rfl, rfl⟩
    have hall : ∀ q : Fin 3, 0 ≤ (slabDims N A B K wf).start (ix3 k a' b') idx q + ((slabDims N A B K wf).window (ix3 k a' b') q : Int) ∧
        (slabDims N A B K wf).start (ix3 k a' b') idx q + ((slabDims N A B K wf).window (ix3 k a' b') q : Int)
          < ((⟨3, ![N, A, B]⟩ : Shape).size q : Int) := by
      intro q
      match q with
      | ⟨0, _⟩ =>
        rw [show (⟨0, by omega⟩ : Fin 3) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 3) = 1 from rfl, start_fst, window_fst]
        change 0 ≤ 0 + (a'.val : Int) ∧ 0 + (a'.val : Int) < (A : Int)
        omega
      | ⟨2, _⟩ =>
        rw [show (⟨2, by omega⟩ : Fin 3) = 2 from rfl, start_snd, window_snd]
        change 0 ≤ 0 + (b'.val : Int) ∧ 0 + (b'.val : Int) < (B : Int)
        omega
    rw [dif_pos hall]
    congr 1
    funext q; refine Fin.ext ?_
    match q with
    | ⟨0, _⟩ =>
      show ((slabDims N A B K wf).start (ix3 k a' b') idx 0 + ((slabDims N A B K wf).window (ix3 k a' b') 0 : Int)).toNat = n.val
      rw [start_row, window_row, hi]; omega
    | ⟨1, _⟩ =>
      show ((slabDims N A B K wf).start (ix3 k a' b') idx 1 + ((slabDims N A B K wf).window (ix3 k a' b') 1 : Int)).toNat = a'.val
      rw [start_fst, window_fst]; omega
    | ⟨2, _⟩ =>
      show ((slabDims N A B K wf).start (ix3 k a' b') idx 2 + ((slabDims N A B K wf).window (ix3 k a' b') 2 : Int)).toNat = b'.val
      rw [start_snd, window_snd]; omega

/-- The slab scatter-add over the written record, read at `(n, a, b)`. -/
theorem scatterAdd_slabDims_apply (x : (⟨3, ![N, A, B]⟩ : Shape).Idx → EReal) (idx : IVec ⟨2, ![K, 1]⟩ w)
    (upd : (⟨3, ![K, A, B]⟩ : Shape).Idx → EReal) (n : Fin N) (a : Fin A) (b : Fin B) :
    Ideal.hostScatterAdd (slabDims N A B K wf) x idx upd (ix3 n a b) =
      x (ix3 n a b) + ∑ k : Fin K, if (idx (ix2 k ⟨0, Nat.one_pos⟩)).toInt = (n.val : Int) then upd (ix3 k a b) else 0 := by
  unfold Ideal.hostScatterAdd
  congr 1
  rw [Finset.sum_filter, sum_idx3]
  refine Finset.sum_congr rfl fun k _ => ?_
  -- of the updates of slab `k` only the one at `(a, b)` can land at `(a, b)`
  rw [Finset.sum_eq_single a]
  · rw [Finset.sum_eq_single b]
    · by_cases h : (idx (ix2 k ⟨0, Nat.one_pos⟩)).toInt = (n.val : Int)
      · rw [if_pos h, if_pos ((resultIdx?_slab wf idx k a b n a b).mpr ⟨h, rfl, rfl⟩)]
      · rw [if_neg h, if_neg (fun h' => h ((resultIdx?_slab wf idx k a b n a b).mp h').1)]
    · intro b' _ hb
      rw [if_neg (fun h' => hb ((resultIdx?_slab wf idx k a b' n a b).mp h').2.2)]
    · intro h; exact absurd (Finset.mem_univ b) h
  · intro a' _ ha
    refine Finset.sum_eq_zero fun b' _ => ?_
    rw [if_neg (fun h' => ha ((resultIdx?_slab wf idx k a' b' n a b).mp h').2.1)]
  · intro h; exact absurd (Finset.mem_univ a) h

end Slab

/-- THE SLAB SCATTER-ADD READ AT `(n, a, b)`: the operand there plus the updates at `(a, b)` whose scatter index is `n`. -/
theorem scatterAdd_slab_apply {N A B K w : Nat}
    (d : ScatterDims ⟨3, ![N, A, B]⟩ ⟨2, ![K, 1]⟩ ⟨3, ![K, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![K, 1]⟩ w)
    (upd : (⟨3, ![K, A, B]⟩ : Shape).Idx → EReal) (n : Fin N) (a : Fin A) (b : Fin B) :
    Ideal.hostScatterAdd d x idx upd (ix3 n a b) =
      x (ix3 n a b) + ∑ k : Fin K, if (idx (ix2 k ⟨0, Nat.one_pos⟩)).toInt = (n.val : Int) then upd (ix3 k a b) else 0 := by
  obtain ⟨uw, iw, sd, iv, wf⟩ := d
  dsimp only at huw hiw hsd hiv
  subst huw hiw hsd hiv
  exact scatterAdd_slabDims_apply wf x idx upd n a b

end Cert.LibSlab

end
-- ==== Proof.RefValue.lean ====
/-
  The reference program computes the specification.

  Read one operation at a time, the reference forms the four linear layers (three over the node features, one over
  the edge features), reshapes their 64 columns into 8 heads of 8 lanes (column 8·p + d is lane d of head p), selects
  node rows by the two endpoint words of each edge, multiplies the selected key and query rows, the literal 1/√8 and
  the edge projection into the score, sums the score over a head's lanes, clips the sum to [−5, 5], exponentiates it
  into the weight, multiplies the selected value row by the weight, and adds the weighted values and the weights of all
  edges into their dst node; the node output is the quotient of the first sum by the second plus the literal 1e-6, the
  edge output is the score. An endpoint word that is negative would be wrapped by the number of nodes before the row is
  selected; under the range hypothesis no word is negative, so the row selected is the one the word names.
-/
import proofs.«429990_j33088428049200_3_alg».proof.Proof.Gen.ReferenceIdeal.Read
import proofs.«429990_j33088428049200_3_alg».proof.Proof.Spec
import proofs.«429990_j33088428049200_3_alg».proof.Proof.LibSlab

noncomputable section

open scoped BigOperators

namespace Cert.RefV

open Cert.ReferenceIdeal Cert.ReferenceIdeal.Gen Cert.ReferenceIdeal.Read Idealize.ShloMosaic Idealize.ShloMosaic.ValueIdx Cert.Spec
  Cert.LibSlab

/-! ## Index equations: the reshape [·, 64] → [·, 8, 8] reads column 8·p + d -/

theorem reshape_node (n : Fin 50000) (p d : Fin 8) : idx_main_v4 (ix3 n p d) = ix2 n (hd p d) := by
  have hn := n.isLt; have hp := p.isLt; have hd' := d.isLt
  funext a; refine Fin.ext ?_
  match a with
  | ⟨0, _⟩ => show ((n.val * 8 + p.val) * 8 + d.val) / 64 = n.val; omega
  | ⟨1, _⟩ => show ((n.val * 8 + p.val) * 8 + d.val) % 64 = 8 * p.val + d.val; omega

theorem reshape_edge (r : Fin 1600000) (p d : Fin 8) : idx_main_v19 (ix3 r p d) = ix2 r (hd p d) := by
  have hn := r.isLt; have hp := p.isLt; have hd' := d.isLt
  funext a; refine Fin.ext ?_
  match a with
  | ⟨0, _⟩ => show ((r.val * 8 + p.val) * 8 + d.val) / 64 = r.val; omega
  | ⟨1, _⟩ => show ((r.val * 8 + p.val) * 8 + d.val) % 64 = 8 * p.val + d.val; omega

/-! ## The linear layers, read in the head layout -/

/-- A node projection at node n, head p, lane d is the linear layer at column 8·p + d. -/
theorem node_lin (h : M2 NN 64) (W : M2 64 64) (b : M1 64) (n : Fin 50000) (p d : Fin 8) :
    val_main_v4 (F := Ideal) h W b (ix3 n p d) = lin h W b n (hd p d) := by
  rw [val_main_v4_apply, reshape_node, val_main_v3_apply, val_main_v0_apply, val_main_v2_apply, val_main_v1_apply]
  have el : ∀ k : Fin 64, lidx_main_v0 (ix2 n (hd p d)) k = ix2 n k := fun k =>
    funext fun a => Fin.ext (by match a with | ⟨0, _⟩ => rfl | ⟨1, _⟩ => rfl)
  have er : ∀ k : Fin 64, ridx_main_v0 (ix2 n (hd p d)) k = ix2 k (hd p d) := fun k =>
    funext fun a => Fin.ext (by match a with | ⟨0, _⟩ => rfl | ⟨1, _⟩ => rfl)
  have eb : idx_main_v1 (idx_main_v2 (ix2 n (hd p d))) = ix1 (hd p d) :=
    funext fun a => Fin.ext (by match a with | ⟨0, _⟩ => rfl)
  simp only [el, er, eb, Ideal.addf_def]
  rfl

theorem edge_lin (e : M2 EE 64) (W : M2 64 64) (b : M1 64) (r : Fin 1600000) (p d : Fin 8) :
    val_main_v19 (F := Ideal) e W b (ix3 r p d) = lin e W b r (hd p d) := by
  rw [val_main_v19_apply, reshape_edge, val_main_v18_apply, val_main_v15_apply, val_main_v17_apply, val_main_v16_apply]
  have el : ∀ k : Fin 64, lidx_main_v15 (ix2 r (hd p d)) k = ix2 r k := fun k =>
    funext fun a => Fin.ext (by match a with | ⟨0, _⟩ => rfl | ⟨1, _⟩ => rfl)
  have er : ∀ k : Fin 64, ridx_main_v15 (ix2 r (hd p d)) k = ix2 k (hd p d) := fun k =>
    funext fun a => Fin.ext (by match a with | ⟨0, _⟩ => rfl | ⟨1, _⟩ => rfl)
  have eb : idx_main_v16 (idx_main_v17 (ix2 r (hd p d))) = ix1 (hd p d) :=
    funext fun a => Fin.ext (by match a with | ⟨0, _⟩ => rfl)
  simp only [el, er, eb, Ideal.addf_def]
  rfl

/-- The three node projections are one function of (features, weights, bias). -/
theorem key_eq (h : M2 NN 64) (W : M2 64 64) (b : M1 64) : val_main_v9 (F := Ideal) h W b = val_main_v4 (F := Ideal) h W b := rfl
theorem value_eq (h : M2 NN 64) (W : M2 64 64) (b : M1 64) : val_main_v14 (F := Ideal) h W b = val_main_v4 (F := Ideal) h W b := rfl

/-! ## The endpoint words: a non-negative word is not wrapped -/

theorem wrap_nonneg (v : BitVec 32) (hv : 0 ≤ v.toInt) :
    Scalar.select (IntOp.cmpi .slt v 0#32) (IntOp.addi v 50000#32) v = v := by
  unfold Scalar.select
  rw [if_neg]
  intro hc
  have hlt := IntOp.cmpi_slt.mp hc
  have h0 : (0#32 : BitVec 32).toInt = 0 := by decide
  omega

theorem src_index (s : Wd EE) (r : Fin 1600000) (hs : 0 ≤ (s (ix1 r)).toInt) :
    val_main_v25 (F := Ideal) s (ix2 r 0) = s (ix1 r) := by
  rw [val_main_v25_apply, val_main_v24_apply, val_main_v21_apply, val_main_v23_apply, val_main_v20_apply, val_main_v22_apply,
    val_main_c_apply, val_main_c_0_apply]
  have e : idx_main_v25 (ix2 r (0 : Fin 1)) = ix1 r := funext fun a => Fin.ext (by match a with | ⟨0, _⟩ => rfl)
  rw [e]
  exact wrap_nonneg _ hs

theorem dst_index (s : Wd EE) (r : Fin 1600000) (hs : 0 ≤ (s (ix1 r)).toInt) :
    val_main_v32 (F := Ideal) s (ix2 r 0) = s (ix1 r) := by
  rw [val_main_v32_apply, val_main_v31_apply, val_main_v28_apply, val_main_v30_apply, val_main_v27_apply, val_main_v29_apply,
    val_main_c_1_apply, val_main_c_2_apply]
  have e : idx_main_v32 (ix2 r (0 : Fin 1)) = ix1 r := funext fun a => Fin.ext (by match a with | ⟨0, _⟩ => rfl)
  rw [e]
  exact wrap_nonneg _ hs

theorem src_index' (s : Wd EE) : val_main_v47 (F := Ideal) s = val_main_v25 (F := Ideal) s := rfl

/-! ## The gathered rows -/

/-- A gather of node rows by an endpoint word reads the projection at the row the word selects. -/
theorem gather_node (h : M2 NN 64) (W : M2 64 64) (b : M1 64) (idx : IVec ⟨2, ![1600000, 1]⟩ 32) (r : Fin 1600000) (p d : Fin 8) :
    Host.gather gather_S50000x8x8_S1600000x1_S1600000x8x8_12_0_n_n_0_1_188 (val_main_v4 (F := Ideal) h W b) idx (ix3 r p d)
      = lin h W b (row (idx (ix2 r 0))) (hd p d) := by
  rw [gather_slab (by decide) gather_S50000x8x8_S1600000x1_S1600000x8x8_12_0_n_n_0_1_188 rfl rfl rfl rfl rfl, node_lin]
  rfl

/-! ## A sum of edge terms into their dst node -/

/-- An accumulating scatter of per-edge slabs into a zero table, the scatter index of edge k being its dst word: the
    entry at node n is the sum, over the edges whose dst word is n, of the edge's entry. Stated over arbitrary
    operands, so that nothing here depends on what the table, the index vector and the updates are. -/
theorem scatter_into (A : Args) {B : Nat}
    (sd : ScatterDims ⟨3, ![50000, 8, B]⟩ ⟨2, ![1600000, 1]⟩ ⟨3, ![1600000, 8, B]⟩)
    (huw : sd.updateWindowDims = [1, 2]) (hiw : sd.insertedWindowDims = [0])
    (hsd : sd.scatterDimsToOperandDims = [0]) (hiv : sd.indexVectorDim = 1)
    (x : FVec Ideal ⟨3, ![50000, 8, B]⟩ .f32) (idx : IVec ⟨2, ![1600000, 1]⟩ 32)
    (upd : FVec Ideal ⟨3, ![1600000, 8, B]⟩ .f32) (u : Fin EE → EReal) (n : Fin 50000) (p : Fin 8) (b : Fin B)
    (hx : x (ix3 n p b) = 0) (hidx : ∀ k : Fin 1600000, idx (ix2 k ⟨0, Nat.one_pos⟩) = A.dst (ix1 k))
    (hupd : ∀ k : Fin 1600000, upd (ix3 k p b) = u k) :
    Host.scatterAdd (F := Ideal) sd x idx upd (ix3 n p b) = intoNode A n u := by
  refine (congrFun (show Host.scatterAdd (F := Ideal) sd x idx upd = Ideal.hostScatterAdd sd x idx upd from rfl) _).trans ?_
  refine (scatterAdd_slab_apply sd huw hiw hsd hiv x idx upd n p b).trans ?_
  rw [hx, zero_add]
  unfold intoNode
  exact Finset.sum_congr rfl fun k _ => by rw [hidx, hupd]

variable (A : Args)

theorem key_at (hA : InRange A) (r : Fin 1600000) (p d : Fin 8) :
    val_main_v26 (F := Ideal) A.h A.Wk A.bk A.src (ix3 r p d) = lin A.h A.Wk A.bk (srcRow A r) (hd p d) := by
  unfold val_main_v26
  rw [key_eq, gather_node, src_index A.src r (hA.1 r).1]
  rfl

theorem query_at (hA : InRange A) (r : Fin 1600000) (p d : Fin 8) :
    val_main_v33 (F := Ideal) A.h A.Wq A.bq A.dst (ix3 r p d) = lin A.h A.Wq A.bq (dstRow A r) (hd p d) := by
  unfold val_main_v33
  rw [gather_node, dst_index A.dst r (hA.2 r).1]
  rfl

theorem value_at (hA : InRange A) (r : Fin 1600000) (p d : Fin 8) :
    val_main_v48 (F := Ideal) A.h A.Wv A.bv A.src (ix3 r p d) = lin A.h A.Wv A.bv (srcRow A r) (hd p d) := by
  unfold val_main_v48
  rw [value_eq, gather_node, src_index', src_index A.src r (hA.1 r).1]
  rfl

/-! ## Score, weight, weighted value -/

/-- The reference's score at edge r, head p, lane d. -/
theorem ref_score (hA : InRange A) (r : Fin 1600000) (p d : Fin 8) :
    val_main_v37 (F := Ideal) A.h A.e A.Wq A.bq A.Wk A.bk A.We A.be A.src A.dst (ix3 r p d) = score A r (hd p d) := by
  rw [val_main_v37_apply, val_main_v36_apply, val_main_v34_apply, val_main_v35_apply, val_main_cst_apply,
    key_at A hA, query_at A hA, edge_lin]
  rfl

/-- The sum over a head's lanes, clipped to [lo, hi], exponentiated. -/
theorem weight_at (hA : InRange A) (r : Fin 1600000) (p : Fin 8) :
    val_main_v41 (F := Ideal) A.h A.e A.Wq A.bq A.Wk A.bk A.We A.be A.src A.dst (ix3 r p 0) = weight A r p := by
  rw [val_main_v41_apply, val_main_v40_apply, val_main_call0_v4_apply, val_main_call0_v3_apply, val_main_cst_5_apply,
    val_main_call0_v2_apply, val_main_call0_v1_apply, val_main_call0_v0_apply, val_main_cst_4_apply,
    val_main_v39_apply, val_main_v38_apply, val_main_cst_3_apply]
  have e1 : idx_main_v39 (ix3 r p (0 : Fin 1)) = ix2 r p :=
    funext fun a => Fin.ext (by match a with | ⟨0, _⟩ => rfl | ⟨1, _⟩ => rfl)
  have e2 : ∀ k : Fin 8, idx_main_v38 (ix2 r p) k = ix3 r p k := fun k =>
    funext fun a => Fin.ext (by match a with | ⟨0, _⟩ => rfl | ⟨1, _⟩ => rfl | ⟨2, _⟩ => rfl)
  rw [e1]
  simp only [e2, ref_score A hA, Ideal.ofBits_def, Ideal.ofBits_zero_f32, zero_add, Ideal.hostUnary_exp_def,
    Ideal.maximumf_def, Ideal.minimumf_def]
  rfl

theorem wvalue_at (hA : InRange A) (r : Fin 1600000) (p d : Fin 8) :
    val_main_v50 (F := Ideal) A.h A.e A.Wq A.bq A.Wk A.bk A.Wv A.bv A.We A.be A.src A.dst (ix3 r p d) = wvalue A r p d := by
  rw [val_main_v50_apply, val_main_v49_apply, value_at A hA]
  have e : idx_main_v49 (ix3 r p d) = ix3 r p (0 : Fin 1) :=
    funext fun a => Fin.ext (by match a with | ⟨0, _⟩ => rfl | ⟨1, _⟩ => rfl | ⟨2, _⟩ => rfl)
  rw [e, weight_at A hA]
  rfl

/-! ## The sums into a node -/

theorem dst_word8 (s : Wd EE) (k : Fin 1600000) : val_main_v52 (F := Ideal) s (ix2 k ⟨0, Nat.one_pos⟩) = s (ix1 k) := by
  rw [val_main_v52_apply]
  exact congrArg s (funext fun a => Fin.ext (by match a with | ⟨0, _⟩ => rfl))

theorem dst_word1 (s : Wd EE) (k : Fin 1600000) : val_main_v55 (F := Ideal) s (ix2 k ⟨0, Nat.one_pos⟩) = s (ix1 k) := by
  rw [val_main_v55_apply]
  exact congrArg s (funext fun a => Fin.ext (by match a with | ⟨0, _⟩ => rfl))

theorem zero_slab8 (i : S50000x8x8.Idx) : val_main_v51 (F := Ideal) i = 0 := by
  rw [val_main_v51_apply, val_main_cst_8_apply, Ideal.ofBits_def, Ideal.ofBits_zero_f32]

theorem zero_slab1 (i : S50000x8x1.Idx) : val_main_v54 (F := Ideal) i = 0 := by
  rw [val_main_v54_apply, val_main_cst_9_apply, Ideal.ofBits_def, Ideal.ofBits_zero_f32]

theorem numer_at (hA : InRange A) (n : Fin 50000) (p d : Fin 8) :
    val_main_v53 (F := Ideal) A.h A.e A.Wq A.bq A.Wk A.bk A.Wv A.bv A.We A.be A.src A.dst (ix3 n p d)
      = intoNode A n (fun r => wvalue A r p d) := by
  unfold val_main_v53
  exact scatter_into A scatter_S50000x8x8_S1600000x1_S1600000x8x8_12_0_0_1 rfl rfl rfl rfl
    (val_main_v51 (F := Ideal)) (val_main_v52 (F := Ideal) A.dst)
    (val_main_v50 (F := Ideal) A.h A.e A.Wq A.bq A.Wk A.bk A.Wv A.bv A.We A.be A.src A.dst)
    (fun r => wvalue A r p d) n p d (zero_slab8 (ix3 n p d)) (dst_word8 A.dst) (fun k => wvalue_at A hA k p d)

theorem denom_at (hA : InRange A) (n : Fin 50000) (p : Fin 8) :
    val_main_v56 (F := Ideal) A.h A.e A.Wq A.bq A.Wk A.bk A.We A.be A.src A.dst (ix3 n p 0)
      = intoNode A n (fun r => weight A r p) := by
  unfold val_main_v56
  exact scatter_into A scatter_S50000x8x1_S1600000x1_S1600000x8x1_12_0_0_1 rfl rfl rfl rfl
    (val_main_v54 (F := Ideal)) (val_main_v55 (F := Ideal) A.dst)
    (val_main_v41 (F := Ideal) A.h A.e A.Wq A.bq A.Wk A.bk A.We A.be A.src A.dst)
    (fun r => weight A r p) n p (0 : Fin 1) (zero_slab1 (ix3 n p (0 : Fin 1))) (dst_word1 A.dst) (fun k => weight_at A hA k p)

/-! ## The two results -/

/-- The reference's first result is the node output. -/
theorem ref_node (hA : InRange A) :
    val_main_v60 (F := Ideal) A.h A.e A.Wq A.bq A.Wk A.bk A.Wv A.bv A.We A.be A.src A.dst = nodeOutArr A := by
  funext i
  obtain ⟨n, p, d, rfl⟩ : ∃ (n : Fin 50000) (p d : Fin 8), i = ix3 n p d := ⟨i 0, i 1, i 2, eq_ix3 i⟩
  rw [val_main_v60_apply, val_main_v59_apply, val_main_v58_apply, val_main_v57_apply, val_main_cst_10_apply, numer_at A hA]
  have e : idx_main_v59 (ix3 n p d) = ix3 n p (0 : Fin 1) :=
    funext fun a => Fin.ext (by match a with | ⟨0, _⟩ => rfl | ⟨1, _⟩ => rfl | ⟨2, _⟩ => rfl)
  rw [e, denom_at A hA, nodeOutArr_apply]
  rfl

/-- The reference's second result is the edge output. -/
theorem ref_edge (hA : InRange A) :
    val_main_v37 (F := Ideal) A.h A.e A.Wq A.bq A.Wk A.bk A.We A.be A.src A.dst = edgeOutArr A := by
  funext i
  obtain ⟨r, p, d, rfl⟩ : ∃ (r : Fin 1600000) (p d : Fin 8), i = ix3 r p d := ⟨i 0, i 1, i 2, eq_ix3 i⟩
  rw [ref_score A hA, edgeOutArr_apply]
  rfl

end Cert.RefV

end
-- ==== Proof.PreDecode.lean ====
/-
  THE PRINTED PRECONDITION READ BACK AT THE TWO INDEX ARRAYS.

  The precondition is one boolean: the conjunction of ten finiteness tests of the float arguments and of four
  tests of the two integer arguments, each test an "all" over its array (an and-reduction of an array of bits,
  started at 1). The four integer tests are, in the order they are and-ed on:  every src word ≥ 0  (this one
  enters the last part of the chain already computed elementwise),  every src word < 50000,  every dst word ≥ 0,
  every dst word < 50000,  each comparison signed.

  From "the conjunction is 1" follow, by splitting the conjunction from the outside in, the four "all"s being 1;
  an and-reduction over every axis that is 1 met a 1 at every index; and a signed comparison bit that is 1 says
  the order of the two words read as integers. The literals read as 0 and 50000. Hence every src and every dst
  word, read signed, lies in [0, 50000). The ten finiteness conjuncts are not needed and are dropped.
-/
import proofs.«429990_j33088428049200_3_alg».proof.Defs
import Idealize.ShloMosaic.Lib.ReduceAll
import Idealize.ShloMosaic.Lib.ValueIdx

noncomputable section

namespace Cert.PreD

open Idealize.ShloMosaic Idealize.ShloMosaic.ValueIdx Idealize.SL.Sem
open Cert.Pre_finite_inputs

variable [Cert.Pre_finite_inputs.Facts]

/-- The scalar shape has one index. -/
instance : Subsingleton S_.Idx := ⟨fun a b => funext fun d => d.elim0⟩

/-- The two literals the index words are compared with, read signed. -/
theorem toInt_zero : (0#32 : BitVec 32).toInt = 0 := by decide
theorem toInt_bound : (50000#32 : BitVec 32).toInt = 50000 := by decide

/-- THE LAST PART OF THE CHAIN: the conjunction so far `acc`, and-ed with "all" of the bits `ge10` (src ≥ 0, computed
    before this part), then with the three "all"s this part computes: src < 50000, dst ≥ 0, dst < 50000. If the
    result is 1, each bit of `ge10` is 1 and the three comparisons hold at every index. -/
theorem part3_decode {F : FTy → Type} [FloatOps F] (a10 a11 : IVec S1600000 32) (acc : IVec S_ 1) (ge10 : IVec S1600000 1)
    (e : fn_part3 (F := F) a10 a11 acc ge10 ix0 = 1#1) :
    (∀ r : Fin 1600000, ge10 (ix1 r) = 1#1) ∧ (∀ r : Fin 1600000, (a10 (ix1 r)).toInt < 50000)
      ∧ (∀ r : Fin 1600000, 0 ≤ (a11 (ix1 r)).toInt ∧ (a11 (ix1 r)).toInt < 50000) := by
  unfold fn_part3 at e
  dsimp only at e
  -- the conjunction, split from the outside in
  obtain ⟨e3, hlt11⟩ := IntOp.andi_eq_one.1 e
  obtain ⟨e2, hge11⟩ := IntOp.andi_eq_one.1 e3
  obtain ⟨e1, hlt10⟩ := IntOp.andi_eq_one.1 e2
  obtain ⟨-, hge10⟩ := IntOp.andi_eq_one.1 e1
  refine ⟨fun r => ?_, fun r => ?_, fun r => ⟨?_, ?_⟩⟩
  · exact Host.reduce_andi_all _ _ _ _ ix0 hge10 (ix1 r)
  · have b : IntOp.cmpi .slt (a10 (ix1 r)) 50000#32 = 1#1 := Host.reduce_andi_all _ _ _ _ ix0 hlt10 (ix1 r)
    have := IntOp.cmpi_slt.1 b
    rwa [toInt_bound] at this
  · have b : IntOp.cmpi .sge (a11 (ix1 r)) 0#32 = 1#1 := Host.reduce_andi_all _ _ _ _ ix0 hge11 (ix1 r)
    have := IntOp.cmpi_sge.1 b
    rwa [toInt_zero] at this
  · have b : IntOp.cmpi .slt (a11 (ix1 r)) 50000#32 = 1#1 := Host.reduce_andi_all _ _ _ _ ix0 hlt11 (ix1 r)
    have := IntOp.cmpi_slt.1 b
    rwa [toInt_bound] at this

/-- THE PRECONDITION DECODED: if the printed predicate of the twelve arguments is all ones, every src word and every
    dst word, read signed, lies in [0, 50000). (The first two parts of the chain only and the finiteness tests
    together and hand the running conjunction, with the bits "src ≥ 0", to the last part.) -/
theorem range_of_pre {F : FTy → Type} [FloatOps F]
    (x0 : FVec F S50000x64 .f32) (x1 : FVec F S1600000x64 .f32) (x2 : FVec F S64x64 .f32) (x3 : FVec F S64 .f32)
    (x4 : FVec F S64x64 .f32) (x5 : FVec F S64 .f32) (x6 : FVec F S64x64 .f32) (x7 : FVec F S64 .f32)
    (x8 : FVec F S64x64 .f32) (x9 : FVec F S64 .f32) (x10 : IVec S1600000 32) (x11 : IVec S1600000 32)
    (h : Cert.Pre_finite_inputs.fn (F := F) x0 x1 x2 x3 x4 x5 x6 x7 x8 x9 x10 x11 = (fun _ => 1#1)) :
    (∀ r : Fin 1600000, 0 ≤ (x10 (ix1 r)).toInt ∧ (x10 (ix1 r)).toInt < 50000)
      ∧ (∀ r : Fin 1600000, 0 ≤ (x11 (ix1 r)).toInt ∧ (x11 (ix1 r)).toInt < 50000) := by
  have e := congrFun h ix0
  unfold fn fn_part1 fn_part2 at e
  dsimp only at e
  obtain ⟨hge, hlt, h11⟩ := part3_decode (F := F) x10 x11 _ _ e
  refine ⟨fun r => ⟨?_, hlt r⟩, h11⟩
  have b : IntOp.cmpi .sge (x10 (ix1 r)) 0#32 = 1#1 := hge r
  have := IntOp.cmpi_sge.1 b
  rwa [toInt_zero] at this

/-- The kernel's precondition, at each device: every word of its src and of its dst argument is in [0, 50000) signed. -/
theorem kernel_range (m : (ℓ : Loc Cert.KernelIdeal.nD Cert.KernelIdeal.τ Cert.KernelIdeal.sig) → Buf (Elt Ideal) ℓ)
    (h : Cert.Pre_KernelIdeal m) (c : Dev Cert.KernelIdeal.nD) :
    (∀ r : Fin 1600000,
        0 ≤ (m ((c.tc : Thread Cert.KernelIdeal.nD Cert.KernelIdeal.τ).loc Cert.KernelIdeal.main_arg10) (ix1 r)).toInt
          ∧ (m ((c.tc : Thread Cert.KernelIdeal.nD Cert.KernelIdeal.τ).loc Cert.KernelIdeal.main_arg10) (ix1 r)).toInt < 50000)
      ∧ (∀ r : Fin 1600000,
        0 ≤ (m ((c.tc : Thread Cert.KernelIdeal.nD Cert.KernelIdeal.τ).loc Cert.KernelIdeal.main_arg11) (ix1 r)).toInt
          ∧ (m ((c.tc : Thread Cert.KernelIdeal.nD Cert.KernelIdeal.τ).loc Cert.KernelIdeal.main_arg11) (ix1 r)).toInt < 50000) :=
  range_of_pre (F := Ideal) _ _ _ _ _ _ _ _ _ _ _ _ (h c)

/-- The same reading of the bit-level program's precondition (the index tests do not look at the float arguments). -/
theorem kernel_range_bits (m : (ℓ : Loc Cert.Kernel.nD Cert.Kernel.τ Cert.Kernel.sig) → Buf (Elt Bits) ℓ)
    (h : Cert.Pre_Kernel m) (c : Dev Cert.Kernel.nD) :
    (∀ r : Fin 1600000,
        0 ≤ (m ((c.tc : Thread Cert.Kernel.nD Cert.Kernel.τ).loc Cert.Kernel.main_arg10) (ix1 r)).toInt
          ∧ (m ((c.tc : Thread Cert.Kernel.nD Cert.Kernel.τ).loc Cert.Kernel.main_arg10) (ix1 r)).toInt < 50000)
      ∧ (∀ r : Fin 1600000,
        0 ≤ (m ((c.tc : Thread Cert.Kernel.nD Cert.Kernel.τ).loc Cert.Kernel.main_arg11) (ix1 r)).toInt
          ∧ (m ((c.tc : Thread Cert.Kernel.nD Cert.Kernel.τ).loc Cert.Kernel.main_arg11) (ix1 r)).toInt < 50000) :=
  range_of_pre (F := Bits) _ _ _ _ _ _ _ _ _ _ _ _ (h c)

end Cert.PreD

end
-- ==== Proof.lean ====
/-
  The certificate of the multi-head edge attention layer: a Pallas program of two grid regions (node projections,
  then a fused edge stage) among host lines (a three-piece weight concatenate, two masked row gathers by the edges'
  endpoints, a segment sum by destination node, a division) against its plain reference.

  Frames. The program is a chain of six items: host lines, the node projection over 25 row blocks, the two gathers,
  the edge stage over 400 row blocks, the host tail. Each region's body loads its input blocks, computes, and stores
  each output block whole, so a region leaves its output arrays at the blocks its points wrote and everything else
  as found; chaining the items gives, at the end, every buffer at a known valuation, in which no item writes an
  argument. The same text serves the word-level program and the idealized one. The reference is host lines only.

  Values, over the extended reals. Under the added domain conjunct (every src and dst word names a node, as the
  reference's own indexing presupposes) the gathers' negative-index wrap is the identity and the kernel's
  out-of-range fill is never taken, so both programs read row src[r] / dst[r] of the same projections. The kernel
  forms [Q | K | V] by one product with the concatenated weight; its per-head sum and per-head expansion are
  products with 0/1 indicator matrices, which over the extended reals pick out a head's lanes exactly
  (x · 1 = x and x · 0 = 0 for every x); its one segment sum of the concatenated [weighted value | weight] rows is,
  column by column, the reference's two segment sums. Every literal is the same word on both sides. Hence both
  results are the specification's two arrays, index by index; no finiteness is used.
-/
import proofs.«429990_j33088428049200_3_alg».proof.Defs
import proofs.«429990_j33088428049200_3_alg».proof.Proof.Gen.Kernel
import proofs.«429990_j33088428049200_3_alg».proof.Proof.Gen.KernelIdeal
import proofs.«429990_j33088428049200_3_alg».proof.Proof.Gen.ReferenceIdeal
import proofs.«429990_j33088428049200_3_alg».proof.Proof.Gen.ReferenceIdeal.Read
import proofs.«429990_j33088428049200_3_alg».proof.Proof.Gen.Pre_finite_inputs
import proofs.«429990_j33088428049200_3_alg».proof.Proof.Run
import proofs.«429990_j33088428049200_3_alg».proof.Proof.BitsRun
import proofs.«429990_j33088428049200_3_alg».proof.Proof.Bridge
import proofs.«429990_j33088428049200_3_alg».proof.Proof.RefValue
import proofs.«429990_j33088428049200_3_alg».proof.Proof.PreDecode
import Idealize.ShloMosaic.Adequacy
import Idealize.ShloMosaic.Init

noncomputable section

namespace Cert.Proof

open Idealize.ShloMosaic Idealize.ShloMosaic.TcCoe Idealize.SL.Sem

/-- The word-level program runs and leaves its arguments: every argument's buffer is read off the last valuation,
    which no item of the chain changes there. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Gen.V6_main_arg0 m _ c),
     (h c _ (Cert.Kernel.Hand.mem_uc Cert.Kernel.main_arg1 (by decide))).trans (Cert.Kernel.Gen.V6_main_arg1 m _ c),
     (h c _ (Cert.Kernel.Hand.mem_uc Cert.Kernel.main_arg2 (by decide))).trans (Cert.Kernel.Gen.V6_main_arg2 m _ c),
     (h c _ (Cert.Kernel.Hand.mem_uc Cert.Kernel.main_arg3 (by decide))).trans (Cert.Kernel.Gen.V6_main_arg3 m _ c),
     (h c _ (Cert.Kernel.Hand.mem_uc Cert.Kernel.main_arg4 (by decide))).trans (Cert.Kernel.Gen.V6_main_arg4 m _ c),
     (h c _ (Cert.Kernel.Hand.mem_uc Cert.Kernel.main_arg5 (by decide))).trans (Cert.Kernel.Gen.V6_main_arg5 m _ c),
     (h c _ (Cert.Kernel.Hand.mem_uc Cert.Kernel.main_arg6 (by decide))).trans (Cert.Kernel.Gen.V6_main_arg6 m _ c),
     (h c _ (Cert.Kernel.Hand.mem_uc Cert.Kernel.main_arg7 (by decide))).trans (Cert.Kernel.Gen.V6_main_arg7 m _ c),
     (h c _ (Cert.Kernel.Hand.mem_uc Cert.Kernel.main_arg8 (by decide))).trans (Cert.Kernel.Gen.V6_main_arg8 m _ c),
     (h c _ (Cert.Kernel.Hand.mem_uc Cert.Kernel.main_arg9 (by decide))).trans (Cert.Kernel.Gen.V6_main_arg9 m _ c),
     (h c _ (Cert.Kernel.Hand.mem_uc Cert.Kernel.main_arg10 (by decide))).trans (Cert.Kernel.Gen.V6_main_arg10 m _ c),
     (h c _ (Cert.Kernel.Hand.mem_uc Cert.Kernel.main_arg11 (by decide))).trans (Cert.Kernel.Gen.V6_main_arg11 m _ c)⟩)
    (Cert.Kernel.Hand.run_main m ρ)

/-- The same for the idealized program. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Gen.V6_main_arg0 m _ c),
     (h c _ (Cert.KernelIdeal.Hand.mem_uc Cert.KernelIdeal.main_arg1 (by decide))).trans (Cert.KernelIdeal.Gen.V6_main_arg1 m _ c),
     (h c _ (Cert.KernelIdeal.Hand.mem_uc Cert.KernelIdeal.main_arg2 (by decide))).trans (Cert.KernelIdeal.Gen.V6_main_arg2 m _ c),
     (h c _ (Cert.KernelIdeal.Hand.mem_uc Cert.KernelIdeal.main_arg3 (by decide))).trans (Cert.KernelIdeal.Gen.V6_main_arg3 m _ c),
     (h c _ (Cert.KernelIdeal.Hand.mem_uc Cert.KernelIdeal.main_arg4 (by decide))).trans (Cert.KernelIdeal.Gen.V6_main_arg4 m _ c),
     (h c _ (Cert.KernelIdeal.Hand.mem_uc Cert.KernelIdeal.main_arg5 (by decide))).trans (Cert.KernelIdeal.Gen.V6_main_arg5 m _ c),
     (h c _ (Cert.KernelIdeal.Hand.mem_uc Cert.KernelIdeal.main_arg6 (by decide))).trans (Cert.KernelIdeal.Gen.V6_main_arg6 m _ c),
     (h c _ (Cert.KernelIdeal.Hand.mem_uc Cert.KernelIdeal.main_arg7 (by decide))).trans (Cert.KernelIdeal.Gen.V6_main_arg7 m _ c),
     (h c _ (Cert.KernelIdeal.Hand.mem_uc Cert.KernelIdeal.main_arg8 (by decide))).trans (Cert.KernelIdeal.Gen.V6_main_arg8 m _ c),
     (h c _ (Cert.KernelIdeal.Hand.mem_uc Cert.KernelIdeal.main_arg9 (by decide))).trans (Cert.KernelIdeal.Gen.V6_main_arg9 m _ c),
     (h c _ (Cert.KernelIdeal.Hand.mem_uc Cert.KernelIdeal.main_arg10 (by decide))).trans (Cert.KernelIdeal.Gen.V6_main_arg10 m _ c),
     (h c _ (Cert.KernelIdeal.Hand.mem_uc Cert.KernelIdeal.main_arg11 (by decide))).trans (Cert.KernelIdeal.Gen.V6_main_arg11 m _ c)⟩)
    (Cert.KernelIdeal.Hand.run_main m ρ)

/-- The reference is host lines only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealizing pass rewrote nothing. -/
theorem preserves : Cert.preserves_Kernel_KernelIdeal := trivial

/-- Both programs end at the specification's node output and edge output of the kernel's arguments: the kernel by the
    composition of its five stages, the reference by its own chain, the reference's arguments being the kernel's. -/
theorem algebraic : Cert.algebraic_KernelIdeal_ReferenceIdeal := by
  intro m ρ m' ρ' hpre hagree
  refine ⟨fun c => Cert.Spec.nodeOutArr (Cert.KV.argsOf m c), fun c => Cert.Spec.edgeOutArr (Cert.KV.argsOf m c), ?_, ?_⟩
  · refine (θ_run Cert.KernelIdeal.defs _ _).mono (fun r h c => ?_) (Cert.KernelIdeal.Hand.run_main m ρ)
    have hA : Cert.Spec.InRange (Cert.KV.argsOf m c) := Cert.PreD.kernel_range m hpre c
    exact ⟨(h c _ (Cert.KernelIdeal.Hand.mem_uc Cert.KernelIdeal.main_v19 (by decide))).trans (Cert.KV.kernel_node m c hA),
      (h c _ (Cert.KernelIdeal.Hand.mem_uc Cert.KernelIdeal.main_v20 (by decide))).trans (Cert.KV.kernel_edge m c hA),
      (h c _ (Cert.KernelIdeal.Hand.mem_uc Cert.KernelIdeal.main_arg0 (by decide))).trans (Cert.KernelIdeal.Gen.V6_main_arg0 m _ c),
      (h c _ (Cert.KernelIdeal.Hand.mem_uc Cert.KernelIdeal.main_arg1 (by decide))).trans (Cert.KernelIdeal.Gen.V6_main_arg1 m _ c),
      (h c _ (Cert.KernelIdeal.Hand.mem_uc Cert.KernelIdeal.main_arg2 (by decide))).trans (Cert.KernelIdeal.Gen.V6_main_arg2 m _ c),
      (h c _ (Cert.KernelIdeal.Hand.mem_uc Cert.KernelIdeal.main_arg3 (by decide))).trans (Cert.KernelIdeal.Gen.V6_main_arg3 m _ c),
      (h c _ (Cert.KernelIdeal.Hand.mem_uc Cert.KernelIdeal.main_arg4 (by decide))).trans (Cert.KernelIdeal.Gen.V6_main_arg4 m _ c),
      (h c _ (Cert.KernelIdeal.Hand.mem_uc Cert.KernelIdeal.main_arg5 (by decide))).trans (Cert.KernelIdeal.Gen.V6_main_arg5 m _ c),
      (h c _ (Cert.KernelIdeal.Hand.mem_uc Cert.KernelIdeal.main_arg6 (by decide))).trans (Cert.KernelIdeal.Gen.V6_main_arg6 m _ c),
      (h c _ (Cert.KernelIdeal.Hand.mem_uc Cert.KernelIdeal.main_arg7 (by decide))).trans (Cert.KernelIdeal.Gen.V6_main_arg7 m _ c),
      (h c _ (Cert.KernelIdeal.Hand.mem_uc Cert.KernelIdeal.main_arg8 (by decide))).trans (Cert.KernelIdeal.Gen.V6_main_arg8 m _ c),
      (h c _ (Cert.KernelIdeal.Hand.mem_uc Cert.KernelIdeal.main_arg9 (by decide))).trans (Cert.KernelIdeal.Gen.V6_main_arg9 m _ c),
      (h c _ (Cert.KernelIdeal.Hand.mem_uc Cert.KernelIdeal.main_arg10 (by decide))).trans (Cert.KernelIdeal.Gen.V6_main_arg10 m _ c),
      (h c _ (Cert.KernelIdeal.Hand.mem_uc Cert.KernelIdeal.main_arg11 (by decide))).trans (Cert.KernelIdeal.Gen.V6_main_arg11 m _ c)⟩
  · refine (θ_run Cert.ReferenceIdeal.defs _ _).mono (fun r h c => ?_) (Cert.ReferenceIdeal.Value.run (F := Ideal) m' ρ')
    have hA : Cert.Spec.InRange (Cert.KV.argsOf m c) := Cert.PreD.kernel_range m hpre c
    obtain ⟨a0, a1, a2, a3, a4, a5, a6, a7, a8, a9, a10, a11⟩ := hagree c
    refine ⟨(h c).1.trans ?_, (h c).2.1.trans ?_, (h c).2.2⟩
    · rw [Cert.ReferenceIdeal.Read.val_main_v60_eq, a0, a1, a2, a3, a4, a5, a6, a7, a8, a9, a10, a11]
      exact Cert.RefV.ref_node (Cert.KV.argsOf m c) hA
    · rw [Cert.ReferenceIdeal.Read.val_main_v37_eq, a0, a1, a2, a3, a4, a5, a8, a9, a10, a11]
      exact Cert.RefV.ref_edge (Cert.KV.argsOf m c) hA

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
